-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v41)) (v3 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v41) = v2 c
          ∧ r.2.mem ((c.tc : Thread Cert.KernelIdeal.nD Cert.KernelIdeal.τ).loc Cert.KernelIdeal.main_v59) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S_ : Shape := ⟨0, ![]⟩

class Facts : Prop where
  bcast_S_S16384 : S_.BroadcastsInDim S16384 (![] : Fin 0 → Fin S16384.rank)
  bcast_S_S16384x2048 : S_.BroadcastsInDim S16384x2048 (![] : Fin 0 → Fin S16384x2048.rank)
  reducesTo_S16384x2048_S_d0_1 : S16384x2048.ReducesTo [0, 1] S_
  h_S_ : 0 < S_.numel
  reducesTo_S16384_S_d0 : S16384.ReducesTo [0] S_

variable [Facts]

def fn {F : FTy → Type} [FloatOps F] (main_arg0 : FVec F S16384x2048 .f32) (main_arg1 : IVec S16384 32) (main_arg2 : IVec S16384 32) : IVec S_ 1 :=
  let main_c : IVec S_ 32 := constantI S_ 32 2#32
  let main_v0 : IVec S16384 32 := broadcastInDim S16384 ![] bcast_S_S16384 main_c
  let main_v1 : IVec S16384 32 := muli main_arg1 main_v0
  let main_v2 : IVec S16384 32 := addi main_v1 main_arg2
  let main_v3 : FVec F S16384x2048 .f32 := Host.absf main_arg0
  let main_cst : FVec F S_ .f32 := constant S_ .f32 0x7F800000#32
  let main_v4 : FVec F S16384x2048 .f32 := broadcastInDim S16384x2048 ![] bcast_S_S16384x2048 main_cst
  let main_v5 : IVec S16384x2048 1 := cmpf .olt main_v3 main_v4
  let main_c_0 : IVec S_ 1 := constantI S_ 1 1#1
  let main_v6 : IVec S_ 1 := (fun x v => Host.reduce IntOp.andi x v reducesTo_S16384x2048_S_d0_1 h_S_) main_v5 main_c_0
  let main_c_1 : IVec S_ 32 := constantI S_ 32 0#32
  let main_v7 : IVec S16384 32 := broadcastInDim S16384 ![] bcast_S_S16384 main_c_1
  let main_v8 : IVec S16384 1 := cmpi .sge main_v2 main_v7
  let main_c_2 : IVec S_ 32 := constantI S_ 32 4#32
  let main_v9 : IVec S16384 32 := broadcastInDim S16384 ![] bcast_S_S16384 main_c_2
  let main_v10 : IVec S16384 1 := cmpi .slt main_v2 main_v9
  let main_v11 : IVec S16384 1 := andi main_v8 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v6 main_v12
  main_v13
-- ==== Kernel.lean ====
abbrev S16384x2048 : Shape := ⟨2, ![16384, 2048]⟩
abbrev S16384 : Shape := ⟨1, ![16384]⟩
abbrev S_ : Shape := ⟨0, ![]⟩
abbrev S16384x1 : Shape := ⟨2, ![16384, 1]⟩
abbrev S4x2048 : Shape := ⟨2, ![4, 2048]⟩
abbrev S1024x2048 : Shape := ⟨2, ![1024, 2048]⟩
abbrev S1024x1 : Shape := ⟨2, ![1024, 1]⟩
abbrev S1024x4 : Shape := ⟨2, ![1024, 4]⟩
abbrev S4x1024 : Shape := ⟨2, ![4, 1024]⟩
abbrev S4 : Shape := ⟨1, ![4]⟩
abbrev S4x1 : Shape := ⟨2, ![4, 1]⟩
abbrev S2048x4 : Shape := ⟨2, ![2048, 4]⟩
abbrev S1024 : Shape := ⟨1, ![1024]⟩
abbrev S1x4 : Shape := ⟨2, ![1, 4]⟩
abbrev S1x2048 : Shape := ⟨2, ![1, 2048]⟩
abbrev S2048 : Shape := ⟨1, ![2048]⟩
abbrev S2x2048 : Shape := ⟨2, ![2, 2048]⟩
abbrev S2x1x2048 : Shape := ⟨3, ![2, 1, 2048]⟩
abbrev S1x2x2048 : Shape := ⟨3, ![1, 2, 2048]⟩
abbrev S2x2x2048 : Shape := ⟨3, ![2, 2, 2048]⟩
abbrev S2x2 : Shape := ⟨2, ![2, 2]⟩
abbrev S2x1 : Shape := ⟨2, ![2, 1]⟩
abbrev S1x2 : Shape := ⟨2, ![1, 2]⟩

abbrev nBuf : Space → Nat
  | .hbm => 109
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384x1, .i32⟩
  | .hbm, ⟨8, _⟩ => ⟨S4x2048, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S4, .f32⟩
  | .hbm, ⟨13, _⟩ => ⟨S16384x1, .i32⟩
  | .hbm, ⟨14, _⟩ => ⟨S4, .f32⟩
  | .hbm, ⟨15, _⟩ => ⟨S4x1, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4, .f32⟩
  | .hbm, ⟨21, _⟩ => ⟨S4x1, .f32⟩
  | .hbm, ⟨22, _⟩ => ⟨S4x1, .f32⟩
  | .hbm, ⟨23, _⟩ => ⟨S16384x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1x2048, .f32⟩
  | .hbm, ⟨50, _⟩ => ⟨S2048, .f32⟩
  | .hbm, ⟨51, _⟩ => ⟨S1x2048, .f32⟩
  | .hbm, ⟨52, _⟩ => ⟨S2048, .f32⟩
  | .hbm, ⟨53, _⟩ => ⟨S2048, .f32⟩
  | .hbm, ⟨54, _⟩ => ⟨S_, .f32⟩
  | .hbm, ⟨55, _⟩ => ⟨S_, .f32⟩
  | .hbm, ⟨56, _⟩ => ⟨S2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S2048, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S2x2048, .f32⟩
  | .hbm, ⟨74, _⟩ => ⟨S2x2048, .f32⟩
  | .hbm, ⟨75, _⟩ => ⟨S2x1x2048, .f32⟩
  | .hbm, ⟨76, _⟩ => ⟨S1x2x2048, .f32⟩
  | .hbm, ⟨77, _⟩ => ⟨S2x2x2048, .f32⟩
  | .hbm, ⟨78, _⟩ => ⟨S2x2x2048, .f32⟩
  | .hbm, ⟨79, _⟩ => ⟨S2x2x2048, .f32⟩
  | .hbm, ⟨80, _⟩ => ⟨S_, .f32⟩
  | .hbm, ⟨81, _⟩ => ⟨S2x2, .f32⟩
  | .hbm, ⟨82, _⟩ => ⟨S2x1x2048, .f32⟩
  | .hbm, ⟨83, _⟩ => ⟨S_, .f32⟩
  | .hbm, ⟨84, _⟩ => ⟨S2x1, .f32⟩
  | .hbm, ⟨85, _⟩ => ⟨S2x1, .f32⟩
  | .hbm, ⟨86, _⟩ => ⟨S1x2x2048, .f32⟩
  | .hbm, ⟨87, _⟩ => ⟨S_, .f32⟩
  | .hbm, ⟨88, _⟩ => ⟨S1x2, .f32⟩
  | .hbm, ⟨89, _⟩ => ⟨S1x2, .f32⟩
  | .hbm, ⟨90, _⟩ => ⟨S2x2, .f32⟩
  | .hbm, ⟨91, _⟩ => ⟨S2x2, .f32⟩
  | .hbm, ⟨92, _⟩ => ⟨S2x2, .f32⟩
  | .hbm, ⟨93, _⟩ => ⟨S_, .f32⟩
  | .hbm, ⟨94, _⟩ => ⟨S2x2, .f32⟩
  | .hbm, ⟨95, _⟩ => ⟨S2x2, .f32⟩
  | .hbm, ⟨96, _⟩ => ⟨S2x2, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x1, .i32⟩
  | .local _ .vmem, ⟨3, _⟩ => ⟨S1024x1, .i32⟩
  | .local _ .vmem, ⟨4, _⟩ => ⟨S4x2048, .f32⟩
  | .local _ .vmem, ⟨5, _⟩ => ⟨S4x2048, .f32⟩
  | .local _ .vmem, ⟨6, _⟩ => ⟨S1024x2048, .f32⟩
  | .local _ .vmem, ⟨7, _⟩ => ⟨S1024x2048, .f32⟩
  | .local _ .vmem, ⟨8, _⟩ => ⟨S1024x1, .i32⟩
  | .local _ .vmem, ⟨9, _⟩ => ⟨S1024x1, .i32⟩
  | .local _ .vmem, ⟨10, _⟩ => ⟨S4x2048, .f32⟩
  | .local _ .vmem, ⟨11, _⟩ => ⟨S4x1, .f32⟩
  | .local _ .vmem, ⟨12, _⟩ => ⟨S1024x1, .f32⟩
  | .local _ .vmem, ⟨13, _⟩ => ⟨S1024x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_call1_v0 : Ref sig .tc := ⟨.hbm, 35, rfl⟩
abbrev main_call1_cst : Ref sig .tc := ⟨.hbm, 36, rfl⟩
abbrev main_call1_v1 : Ref sig .tc := ⟨.hbm, 37, rfl⟩
abbrev main_v22 : Ref sig .tc := ⟨.hbm, 38, rfl⟩
abbrev main_call2_v0 : Ref sig .tc := ⟨.hbm, 39, rfl⟩
abbrev main_call2_cst : Ref sig .tc := ⟨.hbm, 40, rfl⟩
abbrev main_call2_v1 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_call3_v0 : Ref sig .tc := ⟨.hbm, 56, rfl⟩
abbrev main_call3_cst : Ref sig .tc := ⟨.hbm, 57, rfl⟩
abbrev main_call3_v1 : Ref sig .tc := ⟨.hbm, 58, rfl⟩
abbrev main_v34 : Ref sig .tc := ⟨.hbm, 59, rfl⟩
abbrev main_call4_v0 : Ref sig .tc := ⟨.hbm, 60, rfl⟩
abbrev main_call4_cst : Ref sig .tc := ⟨.hbm, 61, rfl⟩
abbrev main_call4_v1 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_cst_9 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_call5_v0 : Ref sig .tc := ⟨.hbm, 82, rfl⟩
abbrev main_call5_cst : Ref sig .tc := ⟨.hbm, 83, rfl⟩
abbrev main_call5_v1 : Ref sig .tc := ⟨.hbm, 84, rfl⟩
abbrev main_v50 : Ref sig .tc := ⟨.hbm, 85, rfl⟩
abbrev main_call6_v0 : Ref sig .tc := ⟨.hbm, 86, rfl⟩
abbrev main_call6_cst : Ref sig .tc := ⟨.hbm, 87, rfl⟩
abbrev main_call6_v1 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_11 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_12 : Ref sig .tc := ⟨.hbm, 97, rfl⟩
abbrev main_v58 : Ref sig .tc := ⟨.hbm, 98, rfl⟩
abbrev main_cst_13 : Ref sig .tc := ⟨.hbm, 99, rfl⟩
abbrev main_v59 : Ref sig .tc := ⟨.hbm, 100, rfl⟩
abbrev main_cst_14 : Ref sig .tc := ⟨.hbm, 101, rfl⟩
abbrev main_v60 : Ref sig .tc := ⟨.hbm, 102, rfl⟩
abbrev main_cst_15 : Ref sig .tc := ⟨.hbm, 103, rfl⟩
abbrev main_v61 : Ref sig .tc := ⟨.hbm, 104, rfl⟩
abbrev main_v62 : Ref sig .tc := ⟨.hbm, 105, rfl⟩
abbrev main_cst_16 : Ref sig .tc := ⟨.hbm, 106, rfl⟩
abbrev main_v63 : Ref sig .tc := ⟨.hbm, 107, rfl⟩
abbrev main_v64 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v18 : BitVec 1 := Scalar.cmpi .eq arg0 c15_i32
  let v19 : BitVec 32 := Scalar.extui v18
  let c0_i32_8 : BitVec 32 := 0#32
  let v20 : BitVec 1 := Scalar.cmpi .ne v19 c0_i32_8
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S16384 : S_.BroadcastsInDim S16384 (![] : Fin 0 → Fin S16384.rank)
  shapeCasts_S16384_S16384x1 : S16384.ShapeCasts S16384x1
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x4_d1_w32 : S1024x4.Iotas .tc 32 [1]
  broadcasts_S1024x1_S1024x4 : S1024x1.Broadcasts S1024x4
  natLt_1_32 : 1 < 32
  transposes_S1024x4_p1_0_S4x1024 : S1024x4.Transposes [1, 0] S4x1024
  bcast_S_S4 : S_.BroadcastsInDim S4 (![] : Fin 0 → Fin S4.rank)
  bcast_S16384_S16384x1_0 : S16384.BroadcastsInDim S16384x1 (![0] : Fin 1 → Fin S16384x1.rank)
  bcast_S4_S4x1_0 : S4.BroadcastsInDim S4x1 (![0] : Fin 1 → Fin S4x1.rank)
  bcast_S4x1_S4x2048_0_1 : S4x1.BroadcastsInDim S4x2048 (![0, 1] : Fin 2 → Fin S4x2048.rank)
  reducesTo_S4x2048_S4_d1 : S4x2048.ReducesTo [1] S4
  h_S_ : 0 < S_.numel
  transposes_S4x2048_p1_0_S2048x4 : S4x2048.Transposes [1, 0] S2048x4
  reduces_S1024x2048_S1024 : S1024x2048.Reduces [1] S1024
  shapeCasts_S1024_S1024x1 : S1024.ShapeCasts S1024x1
  reduces_S1024x4_S1024 : S1024x4.Reduces [1] S1024
  inb_S4x1_S4x1_0_0 : ∀ a, (![0, 0] : Fin 2 → Nat) a + S4x1.size a ≤ S4x1.size a
  h_S4x1 : 0 < S4x1.numel
  shapeCasts_S4x1_S4x1 : S4x1.ShapeCasts S4x1
  shapeCasts_S4x1_S4 : S4x1.ShapeCasts S4
  shapeCasts_S4_S1x4 : S4.ShapeCasts S1x4
  broadcasts_S1x4_S1024x4 : S1x4.Broadcasts S1024x4
  reducesTo_S16384x1_S_d0_1 : S16384x1.ReducesTo [0, 1] S_
  slices_S4x2048_S1x2048_0_0 : S4x2048.Slices ![0, 0] S1x2048
  shapeCasts_S1x2048_S2048 : S1x2048.ShapeCasts S2048
  slices_S4x2048_S1x2048_1_0 : S4x2048.Slices ![1, 0] S1x2048
  reducesTo_S2048_S_d0 : S2048.ReducesTo [0] S_
  slices_S4x2048_S1x2048_2_0 : S4x2048.Slices ![2, 0] S1x2048
  slices_S4x2048_S1x2048_3_0 : S4x2048.Slices ![3, 0] S1x2048
  slices_S4x2048_S2x2048_0_0 : S4x2048.Slices ![0, 0] S2x2048
  slices_S4x2048_S2x2048_2_0 : S4x2048.Slices ![2, 0] S2x2048
  bcast_S2x2048_S2x1x2048_0_2 : S2x2048.BroadcastsInDim S2x1x2048 (![0, 2] : Fin 2 → Fin S2x1x2048.rank)
  bcast_S2x2048_S1x2x2048_1_2 : S2x2048.BroadcastsInDim S1x2x2048 (![1, 2] : Fin 2 → Fin S1x2x2048.rank)
  bcast_S2x1x2048_S2x2x2048_0_1_2 : S2x1x2048.BroadcastsInDim S2x2x2048 (![0, 1, 2] : Fin 3 → Fin S2x2x2048.rank)
  bcast_S1x2x2048_S2x2x2048_0_1_2 : S1x2x2048.BroadcastsInDim S2x2x2048 (![0, 1, 2] : Fin 3 → Fin S2x2x2048.rank)
  reducesTo_S2x2x2048_S2x2_d2 : S2x2x2048.ReducesTo [2] S2x2
  reducesTo_S2x1x2048_S2x1_d2 : S2x1x2048.ReducesTo [2] S2x1
  reducesTo_S1x2x2048_S1x2_d2 : S1x2x2048.ReducesTo [2] S1x2
  bcast_S2x1_S2x2_0_1 : S2x1.BroadcastsInDim S2x2 (![0, 1] : Fin 2 → Fin S2x2.rank)
  bcast_S1x2_S2x2_0_1 : S1x2.BroadcastsInDim S2x2 (![0, 1] : Fin 2 → Fin S2x2.rank)
  bcast_S_S2x2 : S_.BroadcastsInDim S2x2 (![] : Fin 0 → Fin S2x2.rank)
  reducesTo_S2x2_S_d0_1 : S2x2.ReducesTo [0, 1] S_
  dot_S4x1024_S1024x2048_S4x2048_1_0_0_1_n_n_wf : DotDims.WF S4x1024 S1024x2048 S4x2048 [1] [0] [0] [1] [] []
  scatter_S4_S16384x1_S16384_n_0_0_1_wf : ScatterDims.WF S4 S16384x1 S16384 [] [0] [0] 1
  dot_S1024x2048_S2048x4_S1024x4_1_0_0_1_n_n_wf : DotDims.WF S1024x2048 S2048x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S16384x1.size a
  hwx0_1 : ∀ i : grid0.Coords, EltTy.bits .i32 = 32 ∨ (Rect.block (s := S16384x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x2048.size a
  hwx0_2 : ∀ i : grid0.Coords, EltTy.bits .f32 = 32 ∨ (Rect.block (s := S4x2048) S4x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x2048.size a
  hwx1_0 : ∀ i : grid1.Coords, EltTy.bits .f32 = 32 ∨ (Rect.block (s := S16384x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S16384x1.size a
  hwx1_1 : ∀ i : grid1.Coords, EltTy.bits .i32 = 32 ∨ (Rect.block (s := S16384x1) S1024x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x2048.size a ≤ S4x2048.size a
  hwx1_2 : ∀ i : grid1.Coords, EltTy.bits .f32 = 32 ∨ (Rect.block (s := S4x2048) S4x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x1.size a ≤ S4x1.size a
  hwx1_3 : ∀ i : grid1.Coords, EltTy.bits .f32 = 32 ∨ (Rect.block (s := S4x1) S4x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S16384x1.size a
  hwx1_4 : ∀ i : grid1.Coords, EltTy.bits .f32 = 32 ∨ (Rect.block (s := S16384x1) S1024x1.size (cc1_transform_4 i) (hinb1_4 i)).WholeWords (EltTy.packing .f32)

variable [Facts₀]

def dot_S4x1024_S1024x2048_S4x2048_1_0_0_1_n_n : DotDims S4x1024 S1024x2048 S4x2048 where
  lhsContracting := [1]
  rhsContracting := [0]
  lhsNonContracting := [0]
  rhsNonContracting := [1]
  lhsBatch := []
  rhsBatch := []
  wf := dot_S4x1024_S1024x2048_S4x2048_1_0_0_1_n_n_wf
def scatter_S4_S16384x1_S16384_n_0_0_1 : ScatterDims S4 S16384x1 S16384 where
  updateWindowDims := []
  insertedWindowDims := [0]
  scatterDimsToOperandDims := [0]
  indexVectorDim := 1
  wf := scatter_S4_S16384x1_S16384_n_0_0_1_wf
def dot_S1024x2048_S2048x4_S1024x4_1_0_0_1_n_n : DotDims S1024x2048 S2048x4 S1024x4 where
  lhsContracting := [1]
  rhsContracting := [0]
  lhsNonContracting := [0]
  rhsNonContracting := [1]
  lhsBatch := []
  rhsBatch := []
  wf := dot_S1024x2048_S2048x4_S1024x4_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S4x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S16384 : Shape := ⟨1, ![16384]⟩
abbrev S_ : Shape := ⟨0, ![]⟩
abbrev S4 : Shape := ⟨1, ![4]⟩
abbrev S16384x1 : Shape := ⟨2, ![16384, 1]⟩
abbrev S4x2048 : Shape := ⟨2, ![4, 2048]⟩
abbrev S4x1 : Shape := ⟨2, ![4, 1]⟩
abbrev S1x2048 : Shape := ⟨2, ![1, 2048]⟩
abbrev S2048 : Shape := ⟨1, ![2048]⟩
abbrev S2x2048 : Shape := ⟨2, ![2, 2048]⟩
abbrev S2x1x2048 : Shape := ⟨3, ![2, 1, 2048]⟩
abbrev S1x2x2048 : Shape := ⟨3, ![1, 2, 2048]⟩
abbrev S2x2x2048 : Shape := ⟨3, ![2, 2, 2048]⟩
abbrev S2x2 : Shape := ⟨2, ![2, 2]⟩
abbrev S2x1 : Shape := ⟨2, ![2, 1]⟩
abbrev S1x2 : Shape := ⟨2, ![1, 2]⟩

abbrev nBuf : Space → Nat
  | .hbm => 133
  | .vmem => 0
  | .smem => 0
  | _ => 0

abbrev hbmTy0_0 (i : Nat) : BufTy := match i % 128 with
  | 0 => ⟨S16384x2048, .f32⟩
  | 1 => ⟨S16384, .i32⟩
  | 2 => ⟨S16384, .i32⟩
  | 3 => ⟨S_, .i32⟩
  | 4 => ⟨S16384, .i32⟩
  | 5 => ⟨S16384, .i32⟩
  | 6 => ⟨S16384, .i32⟩
  | 7 => ⟨S_, .f32⟩
  | 8 => ⟨S16384, .f32⟩
  | 9 => ⟨S_, .f32⟩
  | 10 => ⟨S4, .f32⟩
  | 11 => ⟨S16384x1, .i32⟩
  | 12 => ⟨S4, .f32⟩
  | 13 => ⟨S_, .f32⟩
  | 14 => ⟨S4x2048, .f32⟩
  | 15 => ⟨S16384x1, .i32⟩
  | 16 => ⟨S4x2048, .f32⟩
  | 17 => ⟨S4x1, .f32⟩
  | 18 => ⟨S4x2048, .f32⟩
  | 19 => ⟨S4x2048, .f32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S16384x2048, .f32⟩
  | 29 => ⟨S16384x2048, .f32⟩
  | 30 => ⟨S_, .f32⟩
  | 31 => ⟨S16384, .f32⟩
  | 32 => ⟨S16384x2048, .f32⟩
  | 33 => ⟨S_, .f32⟩
  | 34 => ⟨S16384, .f32⟩
  | 35 => ⟨S16384, .f32⟩
  | 36 => ⟨S16384x2048, .f32⟩
  | 37 => ⟨S_, .f32⟩
  | 38 => ⟨S16384, .f32⟩
  | 39 => ⟨S16384, .f32⟩
  | 40 => ⟨S16384, .f32⟩
  | 41 => ⟨S_, .f32⟩
  | 42 => ⟨S16384, .f32⟩
  | 43 => ⟨S16384, .f32⟩
  | 44 => ⟨S16384, .f32⟩
  | 45 => ⟨S_, .f32⟩
  | 46 => ⟨S16384, .f32⟩
  | 47 => ⟨S16384, .f32⟩
  | 48 => ⟨S_, .f32⟩
  | 49 => ⟨S_, .f32⟩
  | 50 => ⟨S_, .f32⟩
  | 51 => ⟨S_, .f32⟩
  | 52 => ⟨S1x2048, .f32⟩
  | 53 => ⟨S2048, .f32⟩
  | 54 => ⟨S1x2048, .f32⟩
  | 55 => ⟨S2048, .f32⟩
  | 56 => ⟨S2048, .f32⟩
  | 57 => ⟨S_, .f32⟩
  | 58 => ⟨S_, .f32⟩
  | 59 => ⟨S2048, .f32⟩
  | 60 => ⟨S_, .f32⟩
  | 61 => ⟨S_, .f32⟩
  | 62 => ⟨S_, .f32⟩
  | 63 => ⟨S2048, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S1x2048, .f32⟩
  | 74 => ⟨S2048, .f32⟩
  | 75 => ⟨S1x2048, .f32⟩
  | 76 => ⟨S2048, .f32⟩
  | 77 => ⟨S2048, .f32⟩
  | 78 => ⟨S_, .f32⟩
  | 79 => ⟨S_, .f32⟩
  | 80 => ⟨S2048, .f32⟩
  | 81 => ⟨S_, .f32⟩
  | 82 => ⟨S_, .f32⟩
  | 83 => ⟨S_, .f32⟩
  | 84 => ⟨S2048, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S2x2048, .f32⟩
  | 98 => ⟨S2x2048, .f32⟩
  | 99 => ⟨S2x1x2048, .f32⟩
  | 100 => ⟨S1x2x2048, .f32⟩
  | 101 => ⟨S2x2x2048, .f32⟩
  | 102 => ⟨S2x2x2048, .f32⟩
  | 103 => ⟨S2x2x2048, .f32⟩
  | 104 => ⟨S_, .f32⟩
  | 105 => ⟨S2x2, .f32⟩
  | 106 => ⟨S2x1x2048, .f32⟩
  | 107 => ⟨S_, .f32⟩
  | 108 => ⟨S2x1, .f32⟩
  | 109 => ⟨S2x1, .f32⟩
  | 110 => ⟨S1x2x2048, .f32⟩
  | 111 => ⟨S_, .f32⟩
  | 112 => ⟨S1x2, .f32⟩
  | 113 => ⟨S1x2, .f32⟩
  | 114 => ⟨S2x2, .f32⟩
  | 115 => ⟨S2x2, .f32⟩
  | 116 => ⟨S2x2, .f32⟩
  | 117 => ⟨S_, .f32⟩
  | 118 => ⟨S2x2, .f32⟩
  | 119 => ⟨S2x2, .f32⟩
  | 120 => ⟨S2x2, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16384x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_v22 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_call2_v0 : Ref sig .tc := ⟨.hbm, 59, rfl⟩
abbrev main_call2_cst : Ref sig .tc := ⟨.hbm, 60, rfl⟩
abbrev main_call2_v1 : Ref sig .tc := ⟨.hbm, 61, rfl⟩
abbrev main_v38 : Ref sig .tc := ⟨.hbm, 62, rfl⟩
abbrev main_call3_v0 : Ref sig .tc := ⟨.hbm, 63, rfl⟩
abbrev main_call3_cst : Ref sig .tc := ⟨.hbm, 64, rfl⟩
abbrev main_call3_v1 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_cst_11 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_call4_v0 : Ref sig .tc := ⟨.hbm, 80, rfl⟩
abbrev main_call4_cst : Ref sig .tc := ⟨.hbm, 81, rfl⟩
abbrev main_call4_v1 : Ref sig .tc := ⟨.hbm, 82, rfl⟩
abbrev main_v50 : Ref sig .tc := ⟨.hbm, 83, rfl⟩
abbrev main_call5_v0 : Ref sig .tc := ⟨.hbm, 84, rfl⟩
abbrev main_call5_cst : Ref sig .tc := ⟨.hbm, 85, rfl⟩
abbrev main_call5_v1 : Ref sig .tc := ⟨.hbm, 86, rfl⟩
abbrev main_v51 : Ref sig .tc := ⟨.hbm, 87, rfl⟩
abbrev main_v52 : Ref sig .tc := ⟨.hbm, 88, rfl⟩
abbrev main_cst_13 : Ref sig .tc := ⟨.hbm, 89, rfl⟩
abbrev main_v53 : Ref sig .tc := ⟨.hbm, 90, rfl⟩
abbrev main_v54 : Ref sig .tc := ⟨.hbm, 91, rfl⟩
abbrev main_cst_14 : Ref sig .tc := ⟨.hbm, 92, rfl⟩
abbrev main_v55 : Ref sig .tc := ⟨.hbm, 93, rfl⟩
abbrev main_v56 : Ref sig .tc := ⟨.hbm, 94, rfl⟩
abbrev main_cst_15 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_16 : Ref sig .tc := ⟨.hbm, 104, rfl⟩
abbrev main_v65 : Ref sig .tc := ⟨.hbm, 105, rfl⟩
abbrev main_call6_v0 : Ref sig .tc := ⟨.hbm, 106, rfl⟩
abbrev main_call6_cst : Ref sig .tc := ⟨.hbm, 107, rfl⟩
abbrev main_call6_v1 : Ref sig .tc := ⟨.hbm, 108, rfl⟩
abbrev main_v66 : Ref sig .tc := ⟨.hbm, 109, rfl⟩
abbrev main_call7_v0 : Ref sig .tc := ⟨.hbm, 110, rfl⟩
abbrev main_call7_cst : Ref sig .tc := ⟨.hbm, 111, rfl⟩
abbrev main_call7_v1 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_17 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_18 : Ref sig .tc := ⟨.hbm, 121, rfl⟩
abbrev main_v74 : Ref sig .tc := ⟨.hbm, 122, rfl⟩
abbrev main_cst_19 : Ref sig .tc := ⟨.hbm, 123, rfl⟩
abbrev main_v75 : Ref sig .tc := ⟨.hbm, 124, rfl⟩
abbrev main_cst_20 : Ref sig .tc := ⟨.hbm, 125, rfl⟩
abbrev main_v76 : Ref sig .tc := ⟨.hbm, 126, rfl⟩
abbrev main_cst_21 : Ref sig .tc := ⟨.hbm, 127, rfl⟩
abbrev main_v77 : Ref sig .tc := ⟨.hbm, 128, rfl⟩
abbrev main_v78 : Ref sig .tc := ⟨.hbm, 129, rfl⟩
abbrev main_cst_22 : Ref sig .tc := ⟨.hbm, 130, rfl⟩
abbrev main_v79 : Ref sig .tc := ⟨.hbm, 131, rfl⟩
abbrev main_v80 : Ref sig .tc := ⟨.hbm, 132, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S_S4 : S_.BroadcastsInDim S4 (![] : Fin 0 → Fin S4.rank)
  bcast_S16384_S16384x1_0 : S16384.BroadcastsInDim S16384x1 (![0] : Fin 1 → Fin S16384x1.rank)
  bcast_S_S4x2048 : S_.BroadcastsInDim S4x2048 (![] : Fin 0 → Fin S4x2048.rank)
  bcast_S4_S4x1_0 : S4.BroadcastsInDim S4x1 (![0] : Fin 1 → Fin S4x1.rank)
  bcast_S4x1_S4x2048_0_1 : S4x1.BroadcastsInDim S4x2048 (![0, 1] : Fin 2 → Fin S4x2048.rank)
  reducesTo_S16384x2048_S16384_d1 : S16384x2048.ReducesTo [1] S16384
  h_S_ : 0 < S_.numel
  reducesTo_S16384_S_d0 : S16384.ReducesTo [0] S_
  slices_S4x2048_S1x2048_0_0 : S4x2048.Slices ![0, 0] S1x2048
  shapeCasts_S1x2048_S2048 : S1x2048.ShapeCasts S2048
  slices_S4x2048_S1x2048_1_0 : S4x2048.Slices ![1, 0] S1x2048
  reducesTo_S2048_S_d0 : S2048.ReducesTo [0] S_
  slices_S4x2048_S1x2048_2_0 : S4x2048.Slices ![2, 0] S1x2048
  slices_S4x2048_S1x2048_3_0 : S4x2048.Slices ![3, 0] S1x2048
  slices_S4x2048_S2x2048_0_0 : S4x2048.Slices ![0, 0] S2x2048
  slices_S4x2048_S2x2048_2_0 : S4x2048.Slices ![2, 0] S2x2048
  bcast_S2x2048_S2x1x2048_0_2 : S2x2048.BroadcastsInDim S2x1x2048 (![0, 2] : Fin 2 → Fin S2x1x2048.rank)
  bcast_S2x2048_S1x2x2048_1_2 : S2x2048.BroadcastsInDim S1x2x2048 (![1, 2] : Fin 2 → Fin S1x2x2048.rank)
  bcast_S2x1x2048_S2x2x2048_0_1_2 : S2x1x2048.BroadcastsInDim S2x2x2048 (![0, 1, 2] : Fin 3 → Fin S2x2x2048.rank)
  bcast_S1x2x2048_S2x2x2048_0_1_2 : S1x2x2048.BroadcastsInDim S2x2x2048 (![0, 1, 2] : Fin 3 → Fin S2x2x2048.rank)
  reducesTo_S2x2x2048_S2x2_d2 : S2x2x2048.ReducesTo [2] S2x2
  reducesTo_S2x1x2048_S2x1_d2 : S2x1x2048.ReducesTo [2] S2x1
  reducesTo_S1x2x2048_S1x2_d2 : S1x2x2048.ReducesTo [2] S1x2
  bcast_S2x1_S2x2_0_1 : S2x1.BroadcastsInDim S2x2 (![0, 1] : Fin 2 → Fin S2x2.rank)
  bcast_S1x2_S2x2_0_1 : S1x2.BroadcastsInDim S2x2 (![0, 1] : Fin 2 → Fin S2x2.rank)
  bcast_S_S2x2 : S_.BroadcastsInDim S2x2 (![] : Fin 0 → Fin S2x2.rank)
  reducesTo_S2x2_S_d0_1 : S2x2.ReducesTo [0, 1] S_
  scatter_S4_S16384x1_S16384_n_0_0_1_wf : ScatterDims.WF S4 S16384x1 S16384 [] [0] [0] 1
  scatter_S4x2048_S16384x1_S16384x2048_1_0_0_1_wf : ScatterDims.WF S4x2048 S16384x1 S16384x2048 [1] [0] [0] 1
  gather_S4x2048_S16384x1_S16384x2048_1_0_n_n_0_1_12048_wf : GatherDims.WF S4x2048 S16384x1 S16384x2048 [1] [0] [] [0] [] 1 ![1, 2048]

variable [Facts₀]

def scatter_S4_S16384x1_S16384_n_0_0_1 : ScatterDims S4 S16384x1 S16384 where
  updateWindowDims := []
  insertedWindowDims := [0]
  scatterDimsToOperandDims := [0]
  indexVectorDim := 1
  wf := scatter_S4_S16384x1_S16384_n_0_0_1_wf
def scatter_S4x2048_S16384x1_S16384x2048_1_0_0_1 : ScatterDims S4x2048 S16384x1 S16384x2048 where
  updateWindowDims := [1]
  insertedWindowDims := [0]
  scatterDimsToOperandDims := [0]
  indexVectorDim := 1
  wf := scatter_S4x2048_S16384x1_S16384x2048_1_0_0_1_wf
def gather_S4x2048_S16384x1_S16384x2048_1_0_n_n_0_1_12048 : GatherDims S4x2048 S16384x1 S16384x2048 where
  offsetDims := [1]
  collapsedSliceDims := [0]
  operandBatchingDims := []
  startIndicesBatchingDims := []
  startIndexMap := [0]
  indexVectorDim := 1
  sliceSizes := ![1, 2048]
  wf := gather_S4x2048_S16384x1_S16384x2048_1_0_n_n_0_1_12048_wf

class Facts : Prop extends Facts₀ where

variable [Facts]
-- ==== Proof.KI.Blocks.lean ====
import proofs.«418369_j1537598292251_1_alg».proof.Proof.Gen.KernelIdeal.Launch
import proofs.«418369_j1537598292251_1_alg».proof.Proof.Gen.KernelIdeal.Skeleton
import proofs.«418369_j1537598292251_1_alg».proof.Proof.Gen.KernelIdeal.Points
import Idealize.ShloMosaic.Lib.Pipeline.FrameBody

/-!
# The two kernels' blocks

Region 0 sums the features of each group: at grid point `t` it adds, to a running 4×2048 total kept in a scratch
buffer, the product of the transposed one-hot matrix of the point's 1024 group ids with the point's 1024×2048 block of
features; the total is zeroed before the first point and copied to the output after the last.
Region 1 computes, for each of the point's 1024 samples, one minus the cosine between the sample and its group's centre.
Both are stated here as functions of the windows' blocks, over the contents `V` the region is entered with.
-/

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- Window `w` of region 0 at point `t`: its block of the array the region finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w` of region 1 at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running total after point `n`: the zero total plus the first point's product, then each later point's product
    added to the total before it. -/
def accAt (c : Dev nD) : (n : ℕ) → n < cfg0.N → Vec F S4x2048 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (accAt c n (Nat.lt_of_succ_lt h))

/-- The per-sample losses of point `t`'s 1024 samples: from the features' block, the centres, the group ids' block and
    the centres' norms. -/
def lossBlk (c : Dev nD) (t : Fin cfg1.N) : Vec F S1024x1 .f32 :=
  k1_pay1 (iblk1 V c 0 t) (iblk1 V c 2 t) (iblk1 V c 1 t) (iblk1 V c 3 t)

end Cert.KernelIdeal.Hand

end
-- ==== Proof.KI.Region0.lean ====
import proofs.«418369_j1537598292251_1_alg».proof.Proof.KI.Blocks
import Idealize.ShloMosaic.Lib.Pipeline.FrameBody
import Idealize.ShloMosaic.Lib.Pipeline.Value
import Idealize.ShloMosaic.Lib.Ring
import Idealize.ShloMosaic.Lib.Tactic

/-!
# Region 0: the group sums

The first kernel walks the 16 blocks of 1024 samples. At each point it adds to a 4×2048 running total, kept in a scratch
buffer that lives across the points, the product of the transposed one-hot matrix of the block's group ids with the
block's features. Three kinds of point: the first zeroes the total before adding; the last copies the total, once added
to, into the output block; the fourteen between only add. So after point `n` the scratch holds `accAt V c n`, and the
output array, written back once (after the last point, whole), ends at `accAt V c 15`.

The body's run is proved once per kind of point, on any whole memrefs (`run_first`, `run_mid`, `run_last`). The region's
invariant carries the scratch at the running total beside the core's other scoped buffers (the second kernel's staging
buffers) at anything. From these: the proof data `dat0`, its body obligation, what the invariant is at entry and exit,
and the output array's final contents `sums_final`.
-/

-- membership in a rectangle of these extents recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! The auxiliary declarations of this module live in `Region0`; what the assembly of the two regions cites is stated
beside them at the level of `Hand`. -/

namespace Region0

/-! ## The two conditions, over the grid -/

/-- The first condition of the body (`program_id == 0`), from the grid coordinate: -/
abbrev cond0 (i : grid0.Coords) : Prop :=
  (Scalar.cmpi .ne (Scalar.extui (Scalar.cmpi .eq (BitVec.ofNat 32 (i 0).val) 0#32)) 0#32) = 1#1
/-- it holds at the first point only. -/
theorem hcond0 : ∀ t : Fin cfg0.N, cond0 (grid0.coords t) ↔ t.val = 0 :=
  (by decide +kernel : ∀ t : Fin grid0.N, cond0 (grid0.coords t) ↔ t.val = 0)
/-- The second (`program_id == 15`): -/
abbrev cond1 (i : grid0.Coords) : Prop := k0_cond2 i = 1#1
/-- it holds at the last point only. -/
theorem hcond1 : ∀ t : Fin cfg0.N, cond1 (grid0.coords t) ↔ t.val = 15 :=
  (by decide +kernel : ∀ t : Fin grid0.N, cond1 (grid0.coords t) ↔ t.val = 15)

/-- The two input windows are never idle; -/
theorem live0_0 : ∀ t : Fin cfg0.N, cfg0.idle 0 (grid0.coords t) = false := by decide +kernel
theorem live0_1 : ∀ t : Fin cfg0.N, cfg0.idle 1 (grid0.coords t) = false := by decide +kernel
/-- the output window is idle, and not written back, at every point but the last, -/
theorem idle0_2 : ∀ t : Fin cfg0.N, ¬cond1 (grid0.coords t) → cfg0.idle 2 (grid0.coords t) = true := by decide +kernel
theorem noFlush0_2 : ∀ t : Fin cfg0.N, ¬cond1 (grid0.coords t) → (cfg0.win 2).flush t = false := by decide +kernel
/-- and live at the last. -/
theorem live0_2 : ∀ t : Fin cfg0.N, cond1 (grid0.coords t) → cfg0.idle 2 (grid0.coords t) = false := by decide +kernel

/-! ## The body's run, per kind of point

On any whole memrefs: the two input blocks `x`, `g` are read and left as they were; the scratch ends at
`k0_pay2 x g a`, where `a` is what it held when the sum was taken — the zero total `k0_pay1` at the first point, where the
body has just stored it (a load of a buffer wholly stored reads the stored value back), else what the point found. -/

/-- The offsets every load and store of the body uses: the origin. -/
theorem hz2 : (![0, 0] : Fin 2 → Nat) = fun _ => 0 := funext fun a => by fin_cases a <;> rfl

set_option maxHeartbeats 1000000 in
/-- A point between the first and the last: neither condition holds. The output's buffer, holding `o`, is not touched. -/
theorem run_mid (c : Dev nD) (i : grid0.Coords)
    (a1 : Memref sig .tc .vmem S1024x2048 .f32) (h1 : a1.IsWhole) (a2 : Memref sig .tc .vmem S1024x1 .i32) (h2 : a2.IsWhole)
    (a3 : Memref sig .tc .vmem S4x2048 .f32) (h3 : a3.IsWhole) (a4 : Memref sig .tc .vmem S4x2048 .f32) (h4 : a4.IsWhole)
    (hc0 : ¬cond0 i) (hc1 : ¬cond1 i)
    (x : Vec F S1024x2048 .f32) (g : Vec F S1024x1 .i32) (o : Vec F S4x2048 .f32) (a : Vec F S4x2048 .f32)
    (E : Set ℕ) (K : PUnit → sProp 𝕄) :
    iprop(owns (c : Thread nD τ) a1 fullShare x ∗ owns (c : Thread nD τ) a2 fullShare g ∗ owns (c : Thread nD τ) a3 fullShare o
        ∗ owns (c : Thread nD τ) a4 fullShare a
        ∗ (iprop(owns (c : Thread nD τ) a1 fullShare x ∗ owns (c : Thread nD τ) a2 fullShare g ∗ owns (c : Thread nD τ) a3 fullShare o
            ∗ owns (c : Thread nD τ) a4 fullShare (k0_pay2 x g a)) -∗ K ⟨⟩))
      ⊢ wp frame (wpE (defs₀ (F := F)) Variants.none c none) E (cc0__sum_kernel i a1 h1 a2 h2 a3 h3 a4 h4) K := by
  simp only [cc0__sum_kernel_eq_skeleton]; unfold cc0__sum_kernel_skel
  unfold owns
  iintro ⟨⟨%f1, %hf1, H1⟩, ⟨%f2, %hf2, H2⟩, ⟨%f3, %hf3, H3⟩, ⟨%f4, %hf4, H4⟩, Hk⟩
  obtain rfl := h1.eq_unread hf1; obtain rfl := h2.eq_unread hf2; obtain rfl := h4.eq_unread hf4
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact hf3
    iexact H3
  iexists _; isplitr
  swap; · iexact H4
  ipureintro
  rw [View.read_writes_eq_canon _ _ _ (fun y => View.cover_of_tiledL _ S4x2048.size (by sl_kernel_rfl) y)]
  rw [View.canon_unit_zero hz2]
  simp only [View.readAt_eq_ld, h1.read_unread, h2.read_unread, h4.read_unread, View.ld_unit_zero (S := S1024x2048) hz2, View.ld_unit_zero (S := S1024x1) hz2, View.ld_unit_zero (S := S4x2048) hz2]

set_option maxHeartbeats 1000000 in
/-- The first point: the scratch, at anything, is zeroed first; the output's buffer, holding `o`, is not touched. -/
theorem run_first (c : Dev nD) (i : grid0.Coords)
    (a1 : Memref sig .tc .vmem S1024x2048 .f32) (h1 : a1.IsWhole) (a2 : Memref sig .tc .vmem S1024x1 .i32) (h2 : a2.IsWhole)
    (a3 : Memref sig .tc .vmem S4x2048 .f32) (h3 : a3.IsWhole) (a4 : Memref sig .tc .vmem S4x2048 .f32) (h4 : a4.IsWhole)
    (hc0 : cond0 i) (hc1 : ¬cond1 i)
    (x : Vec F S1024x2048 .f32) (g : Vec F S1024x1 .i32) (o : Vec F S4x2048 .f32)
    (E : Set ℕ) (K : PUnit → sProp 𝕄) :
    iprop(owns (c : Thread nD τ) a1 fullShare x ∗ owns (c : Thread nD τ) a2 fullShare g ∗ owns (c : Thread nD τ) a3 fullShare o
        ∗ (∃ d, owns (c : Thread nD τ) a4 fullShare d)
        ∗ (iprop(owns (c : Thread nD τ) a1 fullShare x ∗ owns (c : Thread nD τ) a2 fullShare g ∗ owns (c : Thread nD τ) a3 fullShare o
            ∗ owns (c : Thread nD τ) a4 fullShare (k0_pay2 x g (k0_pay1 (F := F)))) -∗ K ⟨⟩))
      ⊢ wp frame (wpE (defs₀ (F := F)) Variants.none c none) E (cc0__sum_kernel i a1 h1 a2 h2 a3 h3 a4 h4) K := by
  simp only [cc0__sum_kernel_eq_skeleton]; unfold cc0__sum_kernel_skel
  unfold owns
  iintro ⟨⟨%f1, %hf1, H1⟩, ⟨%f2, %hf2, H2⟩, ⟨%f3, %hf3, H3⟩, ⟨%d4, %f4, -, H4⟩, Hk⟩
  obtain rfl := h1.eq_unread hf1; obtain rfl := h2.eq_unread hf2
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact hf3
    iexact H3
  iexists _; isplitr
  swap; · iexact H4
  ipureintro
  sl_unfold_words
  rw [View.read_writes_eq_canon _ _ _ (fun y => View.cover_of_tiledL _ S4x2048.size (by sl_kernel_rfl) y)]
  rw [View.canon_cons_unit_zero (S := S4x2048) hz2, View.readCov_unit_zero (S := S4x2048) _ hz2]
  simp only [View.readAt_eq_ld, h1.read_unread, h2.read_unread, View.ld_unit_zero (S := S1024x2048) hz2, View.ld_unit_zero (S := S1024x1) hz2]

set_option maxHeartbeats 1000000 in
/-- The last point: after the sum the scratch is loaded once more and stored, whole, over the output's buffer. -/
theorem run_last (c : Dev nD) (i : grid0.Coords)
    (a1 : Memref sig .tc .vmem S1024x2048 .f32) (h1 : a1.IsWhole) (a2 : Memref sig .tc .vmem S1024x1 .i32) (h2 : a2.IsWhole)
    (a3 : Memref sig .tc .vmem S4x2048 .f32) (h3 : a3.IsWhole) (a4 : Memref sig .tc .vmem S4x2048 .f32) (h4 : a4.IsWhole)
    (hc0 : ¬cond0 i) (hc1 : cond1 i)
    (x : Vec F S1024x2048 .f32) (g : Vec F S1024x1 .i32) (a : Vec F S4x2048 .f32)
    (E : Set ℕ) (K : PUnit → sProp 𝕄) :
    iprop(owns (c : Thread nD τ) a1 fullShare x ∗ owns (c : Thread nD τ) a2 fullShare g ∗ (∃ d, owns (c : Thread nD τ) a3 fullShare d)
        ∗ owns (c : Thread nD τ) a4 fullShare a
        ∗ (iprop(owns (c : Thread nD τ) a1 fullShare x ∗ owns (c : Thread nD τ) a2 fullShare g ∗ owns (c : Thread nD τ) a3 fullShare (k0_pay2 x g a)
            ∗ owns (c : Thread nD τ) a4 fullShare (k0_pay2 x g a)) -∗ K ⟨⟩))
      ⊢ wp frame (wpE (defs₀ (F := F)) Variants.none c none) E (cc0__sum_kernel i a1 h1 a2 h2 a3 h3 a4 h4) K := by
  simp only [cc0__sum_kernel_eq_skeleton]; unfold cc0__sum_kernel_skel
  unfold owns
  iintro ⟨⟨%f1, %hf1, H1⟩, ⟨%f2, %hf2, H2⟩, ⟨%d3, %f3, -, H3⟩, ⟨%f4, %hf4, H4⟩, Hk⟩
  obtain rfl := h1.eq_unread hf1; obtain rfl := h2.eq_unread hf2; obtain rfl := h4.eq_unread hf4
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    sl_unfold_words
    rw [View.read_writes_eq_canon _ _ _ (fun y => View.cover_of_tiledL _ S4x2048.size (by sl_kernel_rfl) y)]
    rw [View.canon_unit_zero hz2, View.readCov_unit_zero (S := S4x2048) _ hz2]
    simp only [View.readAt_eq_ld, h1.read_unread, h2.read_unread, h4.read_unread, View.ld_unit_zero (S := S1024x2048) hz2, View.ld_unit_zero (S := S1024x1) hz2, View.ld_unit_zero (S := S4x2048) hz2]
  iexists _; isplitr
  swap; · iexact H4
  ipureintro
  sl_unfold_words
  rw [View.read_writes_eq_canon _ _ _ (fun y => View.cover_of_tiledL _ S4x2048.size (by sl_kernel_rfl) y)]
  rw [View.canon_unit_zero hz2]
  simp only [View.readAt_eq_ld, h1.read_unread, h2.read_unread, h4.read_unread, View.ld_unit_zero (S := S1024x2048) hz2, View.ld_unit_zero (S := S1024x1) hz2, View.ld_unit_zero (S := S4x2048) hz2]

/-! ## The invariant and the proof data -/

/-- The scratch operand: a whole scoped buffer of the kernel's own, passed beside the windows. -/
abbrev scM : Memref sig .tc .vmem S4x2048 .f32 := Memref.whole cc0_scratch0

/-- The core's scoped buffers that are neither a staging buffer of this region nor its scratch (the next region's
    staging buffers), each at some contents. -/
abbrev others (c : Dev nD) : sProp 𝕄 :=
  Pipeline.scopedRestBut (Ix := Unit) (Name := ℕ) (U := UR sig nD τ) (Lvl := ℕ) (Val := Elt F) spec0 c [cc0_scratch0]

/-- What the launch hands the region, with the scratch split off the other scoped buffers. -/
theorem PhiA0_eq (c : Dev nD) :
    (Pipeline.ΦA spec0 c : sProp 𝕄)
      = iprop(((∃ d, owns (c : Thread nD τ) scM fullShare d) ∗ others (F := F) c) ∗ (∃ r, prngReg c r)) := by
  unfold Pipeline.ΦA others
  rw [Pipeline.scopedRest_split_of_list spec0 c [cc0_scratch0] (by decide) (by decide)]
  simp only [Idealize.SL.BI.bigSepL_singleton, scM, owns_whole]; try rfl

/-- The region's invariant before position `n`: before the first point what the launch hands over (the scratch at
    anything); afterwards the scratch at the running total after point `n - 1`, the other scoped buffers at anything and
    the generator register at some state. -/
def Phi0 (c : Dev nD) : (n : ℕ) → n ≤ cfg0.N → sProp 𝕄
  | 0, _ => Pipeline.ΦA spec0 c
  | n + 1, hn => iprop((owns (c : Thread nD τ) scM fullShare (accAt V c n hn) ∗ others (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scM fullShare (accAt V c n hn) ∗ others (F := F) c) ∗ (∃ r, prngReg c r)) := rfl

theorem Phi0_pos (c : Dev nD) (n : ℕ) (h : n ≤ cfg0.N) (hz : n ≠ 0) :
    Phi0 V c n h = iprop((owns (c : Thread nD τ) scM fullShare (accAt V c (n - 1) (by omega)) ∗ others (F := F) c) ∗ (∃ r, prngReg c r)) := by
  cases n with
  | zero => exact absurd rfl hz
  | succ n => rfl

end Region0

open Region0

/-- The proof data of region 0 on core `c`: the arrays as the region finds them; after the body at point `t` each input's
    buffer at its block and the output's at the running total (which the pipeline consults at the last point only: at
    the others the window is idle and not written back); the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem share0 (c : Dev nD) (w : Fin cfg0.W) : (dat0 V c).share w = fullShare :=
  (dat0 V c).share_full (fun _ => rfl) w
theorem owed0 (c : Dev nD) (t : Fin (cfg0.N + 1)) : (dat0 V c).owed t = 0 := rfl

namespace Region0

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt V c t.val t.isLt := by dsimp only [dat0]

/-- Each input's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

end Region0

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

namespace Region0

/-- After any point the invariant gives back what the launch handed over: the running total's value is forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS, Ho⟩, Hg⟩
  isplitl [HS Ho]
  · isplitl [HS]
    · iexists _; iexact HS
    iexact Ho
  iexact Hg

end Region0

theorem hout0 (c : Dev nD) : (dat0 V c).Φ (Fin.last cfg0.N) ⊢ Pipeline.ΦA spec0 c :=
  Phi0_out V c _ (by rw [Fin.val_last]; have : cfg0.N = 16 := N_0; omega)

/-! ## The body obligation -/

namespace Region0

/-- The running total at the first point: the first product added to the zero total. -/
theorem accAt_first (c : Dev nD) (t : Fin cfg0.N) (hz : t.val = 0) :
    accAt V c t.val t.isLt = k0_pay2 (iblk0 V c 0 t) (iblk0 V c 1 t) (k0_pay1 (F := F)) := by
  obtain ⟨n, hn⟩ := t
  cases n with
  | zero => rfl
  | succ n => exact absurd hz (Nat.succ_ne_zero n)

/-- The running total at a later point: the point's product added to the total after the point before. -/
theorem accAt_later (c : Dev nD) (t : Fin cfg0.N) (hz : t.val ≠ 0) :
    accAt V c t.val t.isLt
      = k0_pay2 (iblk0 V c 0 t) (iblk0 V c 1 t) (accAt V c (t.val - 1) (Nat.lt_of_le_of_lt (Nat.sub_le _ _) t.isLt)) := by
  obtain ⟨n, hn⟩ := t
  cases n with
  | zero => exact absurd rfl hz
  | succ n => rfl

/-- Each window's current staging memref at point `t`, spelled as the pipeline passes it to the body, and its wholeness. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x2048 .f32 := win0_2.stage (cfg0.slots t 2)
abbrev hs2 (t : Fin cfg0.N) : (ms2 t).IsWhole := hstage0_2 ((cfg0.slots t 2).cast nbuf0_2)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' memrefs hold their blocks; the point is the first, the last, or one between, and
    that decides the two conditions; the invariant hands the body the scratch at the total after the point before (at
    anything at the first point, where the body zeroes it) and takes it back at this point's total; the output's buffer
    is handed back as found except at the last point, where the body copies the total into it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  have hN : t.val < 16 := lt_of_lt_of_eq t.isLt (show cfg0.N = 16 from N_0)
  rw [show (dat0 V c).leavesExact 0 t = owns (c : Thread nD τ) (ms0 t) fullShare ((dat0 V c).after 0 t) from by
    unfold Dat.leavesExact; rw [live0_0 t], after0_0]
  rw [show (dat0 V c).leavesExact 1 t = owns (c : Thread nD τ) (ms1 t) fullShare ((dat0 V c).after 1 t) from by
    unfold Dat.leavesExact; rw [live0_1 t], after0_1]
  by_cases h15 : t.val = 15
  · have hc1 : cond1 (grid0.coords t) := (hcond1 t).mpr h15
    have hc0 : ¬cond0 (grid0.coords t) := fun h => by have := (hcond0 t).mp h; omega
    have hz : t.val ≠ 0 := by omega
    rw [show (dat0 V c).leavesExact 2 t = owns (c : Thread nD τ) (ms2 t) fullShare ((dat0 V c).after 2 t) from by
      unfold Dat.leavesExact; rw [live0_2 t hc1], after0_2]
    rw [Phi0_castSucc V c t, Phi0_pos V c _ _ hz, accAt_later V c t hz]
    iintro ⟨⟨⟨HS, Ho⟩, Hg⟩, Hw, ⟨%d0, H0⟩, ⟨%d1, H1⟩, ⟨%d2, H2⟩⟩
    iapply (run_last c (grid0.coords t) (ms0 t) (hs0 t) (ms1 t) (hs1 t) (ms2 t) (hs2 t) scM (Memref.isWhole_whole _) hc0 hc1
      (iblk0 V c 0 t) (iblk0 V c 1 t) (accAt V c (t.val - 1) (Nat.lt_of_le_of_lt (Nat.sub_le _ _) t.isLt)) Set.univ _)
    isplitl [H0]; · iexact H0
    isplitl [H1]; · iexact H1
    isplitl [H2]; · iexists _; iexact H2
    isplitl [HS]; · iexact HS
    iintro ⟨H0, H1, H2, HS⟩
    isplitl [HS Ho Hg]
    · isplitl [HS Ho]
      · isplitl [HS]; · iexact HS
        iexact Ho
      iexact Hg
    isplitl [Hw]; · iexact Hw
    isplitl [H0]; · iexact H0
    isplitl [H1]; · iexact H1
    iexact H2
  · have hc1 : ¬cond1 (grid0.coords t) := fun h => h15 ((hcond1 t).mp h)
    rw [Dat.leavesExact_idle (dat0 V c) 2 t (idle0_2 t hc1) (noFlush0_2 t hc1)]
    by_cases h0 : t.val = 0
    · have hc0 : cond0 (grid0.coords t) := (hcond0 t).mpr h0
      rw [Phi0_castSucc V c t, Phi0_zero V c _ _ h0, PhiA0_eq, accAt_first V c t h0]
      iintro ⟨⟨⟨HS, Ho⟩, Hg⟩, Hw, ⟨%d0, H0⟩, ⟨%d1, H1⟩, ⟨%d2, H2⟩⟩
      iapply (run_first c (grid0.coords t) (ms0 t) (hs0 t) (ms1 t) (hs1 t) (ms2 t) (hs2 t) scM (Memref.isWhole_whole _) hc0 hc1
        (iblk0 V c 0 t) (iblk0 V c 1 t) ((dat0 V c).before 2 t d2) Set.univ _)
      isplitl [H0]; · iexact H0
      isplitl [H1]; · iexact H1
      isplitl [H2]; · iexact H2
      isplitl [HS]; · iexact HS
      iintro ⟨H0, H1, H2, HS⟩
      isplitl [HS Ho Hg]
      · isplitl [HS Ho]
        · isplitl [HS]; · iexact HS
          iexact Ho
        iexact Hg
      isplitl [Hw]; · iexact Hw
      isplitl [H0]; · iexact H0
      isplitl [H1]; · iexact H1
      iexists _; iexact H2
    · have hc0 : ¬cond0 (grid0.coords t) := fun h => h0 ((hcond0 t).mp h)
      rw [Phi0_castSucc V c t, Phi0_pos V c _ _ h0, accAt_later V c t h0]
      iintro ⟨⟨⟨HS, Ho⟩, Hg⟩, Hw, ⟨%d0, H0⟩, ⟨%d1, H1⟩, ⟨%d2, H2⟩⟩
      iapply (run_mid c (grid0.coords t) (ms0 t) (hs0 t) (ms1 t) (hs1 t) (ms2 t) (hs2 t) scM (Memref.isWhole_whole _) hc0 hc1
        (iblk0 V c 0 t) (iblk0 V c 1 t) ((dat0 V c).before 2 t d2)
        (accAt V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS Ho Hg]
      · isplitl [HS Ho]
        · isplitl [HS]; · iexact HS
          iexact Ho
        iexact Hg
      isplitl [Hw]; · iexact Hw
      isplitl [H0]; · iexact H0
      isplitl [H1]; · iexact H1
      iexists _; iexact H2

end Region0

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The output array after the region -/

namespace Region0

/-- At the last point the output window's block starts at the array's origin on both axes, -/
theorem origin0_2 : ∀ a, win0_2.index t0_15 a * win0_2.size a = 0 := by decide +kernel
/-- and is as long as the array on both: 4 rows of 2048. -/
theorem extent0_2 : ∀ a, win0_2.xsize (grid0.coords t0_15) a = S4x2048.size a := by decide +kernel

/-- The one write-back, at the last point, writes the running total after it: the window's one block is the array. -/
theorem flushed_eq0 (c : Dev nD) (t : Fin cfg0.N) (hf : (cfg0.win 2).flush t = true) :
    (dat0 V c).flushed 2 t
      = ((cfg0.win 2).blk t).view.read (Elt F) (accAt V c 15 (by rw [show cfg0.N = 16 from N_0]; decide)) := by
  have hlast : t = t0_15 := Fin.ext (by
    have h := (flush0_2 t).mp hf
    have hlt : t.val < 16 := lt_of_lt_of_eq t.isLt (show cfg0.N = 16 from N_0)
    show t.val = 15
    omega)
  subst hlast
  show (cfg0.win 2).cut (grid0.coords t0_15) ((dat0 V c).after 2 t0_15) = _
  rw [after0_2]
  exact (Memref.read_access_unit_zero (Elt F) main_v4 (funext origin0_2)
    (fun a => by rw [origin0_2 a, Nat.zero_add]) (accAt V c 15 (by rw [show cfg0.N = 16 from N_0]; decide))).symm

/-- So every index of the 4×2048 output array lies in the block written back at the last point. -/
theorem mem_last_block (i : S4x2048.Idx) : i ∈ ((View.whole main_v4).slice (win0_2.rect t0_15)).set := by
  rw [View.set_slice_whole, Rect.mem_set_unit]
  intro a
  show win0_2.index t0_15 a * win0_2.size a ≤ (i a : Nat)
    ∧ (i a : Nat) < win0_2.index t0_15 a * win0_2.size a + win0_2.xsize (grid0.coords t0_15) a
  rw [origin0_2 a, extent0_2 a, Nat.zero_add]
  exact ⟨Nat.zero_le _, (i a).isLt⟩

end Region0

/-- The output array after the region: its one write-back, at the last point, is of the whole array, at the running total
    after that point. -/
theorem sums_final (c : Dev nD) :
    (dat0 V c).arrAt 2 cfg0.N = accAt V c 15 (by rw [show cfg0.N = 16 from N_0]; decide) :=
  (dat0 V c).arrAt_eq_of_cover 2 (accAt V c 15 (by rw [show cfg0.N = 16 from N_0]; decide)) (flushed_eq0 V c)
    fun i => ⟨t0_15, (flush0_2 t0_15).mpr rfl, mem_last_block i⟩

end Cert.KernelIdeal.Hand

end
-- ==== Proof.KI.Region1.lean ====
import proofs.«418369_j1537598292251_1_alg».proof.Proof.KI.Blocks
import Idealize.ShloMosaic.Lib.Pipeline.FrameBody
import Idealize.ShloMosaic.Lib.Pipeline.Value
import Idealize.ShloMosaic.Lib.Tactic

/-!
# Region 1: the per-sample losses

At grid point `t` the second kernel reads four staging blocks whole — the point's 1024×2048 features, its 1024 group
ids, the 4×2048 centres and their 4 norms — and stores once, over the whole 1024×1 output block, one minus the cosine
of each sample with its group's centre. The features and group ids move with the point; the centres and norms are
fetched once and never move. This file gives the region's proof data at the contents `V` it is entered with, proves the
body obligation at a generic point, and reads the output array after the last point as the one array whose every
block is that point's losses.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

/-- The features' window holds its block at every point, fetched there or not, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The group ids' window, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The centres' window is fetched at the first point only; its block index is the same at every point, so at a
    later point the buffer still holds the first point's block, which is that point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The centre norms' window, likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- Each load and the one store go through the whole block, at offset zero. -/
abbrev r1_f : Rect S1024x2048 := Rect.unit (s := S1024x2048) ![0, 0] S1024x2048.size inb_S1024x2048_S1024x2048_0_0
abbrev r1_g : Rect S1024x1 := Rect.unit (s := S1024x1) ![0, 0] S1024x1.size inb_S1024x1_S1024x1_0_0
abbrev r1_c : Rect S4x2048 := Rect.unit (s := S4x2048) ![0, 0] S4x2048.size inb_S4x2048_S4x2048_0_0
abbrev r1_n : Rect S4x1 := Rect.unit (s := S4x1) ![0, 0] S4x1.size inb_S4x1_S4x1_0_0

theorem hz1 : (![0, 0] : Fin 2 → Nat) = fun _ => 0 := funext fun a => by fin_cases a <;> rfl

/-! ## What the body leaves in the output window's buffer -/

/-- The output block after the body, from the four input blocks: its one store as a piece, the payload over the
    blocks as loaded. -/
def out1_4 (x0 : Vec F S1024x2048 .f32) (x1 : Vec F S1024x1 .i32) (x2 : Vec F S4x2048 .f32) (x3 : Vec F S4x1 .f32) : Vec F S1024x1 .f32 :=
  View.canon [⟨r1_g, k1_pay1 (View.ld x0 r1_f) (View.ld x2 r1_c) (View.ld x1 r1_g) (View.ld x3 r1_n)⟩]

/-- The one store is over the whole block, so it is the payload of the blocks themselves. -/
theorem out1_4_eq (x0 : Vec F S1024x2048 .f32) (x1 : Vec F S1024x1 .i32) (x2 : Vec F S4x2048 .f32) (x3 : Vec F S4x1 .f32) :
    out1_4 x0 x1 x2 x3 = k1_pay1 x0 x2 x1 x3 := by
  unfold out1_4
  rw [View.canon_unit_zero hz1]
  rw [View.ld_unit_zero (S := S1024x2048) hz1, View.ld_unit_zero (S := S4x2048) hz1,
    View.ld_unit_zero (S := S1024x1) hz1, View.ld_unit_zero (S := S4x1) hz1]

/-- The one store covers the block. -/
theorem cover1_4 (p0 : Vec F S1024x1 .f32) (y : S1024x1.Idx) :
    ∃ pc ∈ ([⟨r1_g, p0⟩] : List (View.Piece (Elt F) S1024x1 .f32)), y ∈ pc.1.set :=
  ⟨_, List.mem_singleton_self _, View.mem_set_unit_zero (S := S1024x1) hz1 inb_S1024x1_S1024x1_0_0 y⟩

/-! ## The body's triple -/

set_option maxHeartbeats 1000000 in
/-- The kernel body on whole staging memrefs, the four inputs' at read contents and the output's at anything, runs to
    the continuation holding the inputs' as they were and the output's at `out1_4` of the inputs'. -/
theorem sound_kernel1 (c : Dev nD) (E : Set ℕ) (i : grid1.Coords)
    (arg1 : Memref sig .tc .vmem S1024x2048 .f32) (harg1 : arg1.IsWhole) (arg2 : Memref sig .tc .vmem S1024x1 .i32) (harg2 : arg2.IsWhole)
    (arg3 : Memref sig .tc .vmem S4x2048 .f32) (harg3 : arg3.IsWhole) (arg4 : Memref sig .tc .vmem S4x1 .f32) (harg4 : arg4.IsWhole)
    (arg5 : Memref sig .tc .vmem S1024x1 .f32) (harg5 : arg5.IsWhole)
    (x0 : Vec F S1024x2048 .f32) (x1 : Vec F S1024x1 .i32) (x2 : Vec F S4x2048 .f32) (x3 : Vec F S4x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__cos_kernel i arg1 harg1 arg2 harg2 arg3 harg3 arg4 harg4 arg5 harg5) K := by
  simp only [cc1__cos_kernel_eq_skeleton]; unfold cc1__cos_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the region on core `c`: the arrays as the region finds them; after the body at point `t` each
    input's buffer at its block and the output's at `out1_4` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4' (c : Dev nD) (t : Fin cfg1.N) :
    (dat1 V c).after 4 t = out1_4 (iblk1 V c 0 t) (iblk1 V c 1 t) (iblk1 V c 2 t) (iblk1 V c 3 t) := by dsimp only [dat1]

/-- The output block after the body at point `t` is the point's losses. -/
theorem after1_4 (c : Dev nD) (t : Fin cfg1.N) : (dat1 V c).after 4 t = lossBlk V c t := by
  rw [after1_4', out1_4_eq]; rfl

/-- Full shares, nothing owed. -/
theorem q1 (c : Dev nD) (w : Fin cfg1.W) : (dat1 V c).q w = fullShare := rfl
theorem share1 (c : Dev nD) (w : Fin cfg1.W) : (dat1 V c).share w = fullShare :=
  (dat1 V c).share_full (fun _ => rfl) w
theorem owed1 (c : Dev nD) (t : Fin (cfg1.N + 1)) : (dat1 V c).owed t = 0 := rfl

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's tallies pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4']
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The output array after the region -/

/-- The output window's block index at point `t` is `(t, 0)`, decided over the grid. -/
theorem idx_facts1_4 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

/-- A row of the output array is in point `t`'s block iff each coordinate is in the block's range on its axis. -/
theorem mem_blk1_4 (t : Fin cfg1.N) (i : S16384x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v13).slice (win1_4.rect t)).set ↔ _
  rw [View.set_slice_whole, Rect.mem_set_unit]
  exact Iff.rfl

/-- The sixteen blocks of 1024 rows tile the 16384 rows: row `r` is in the block of point `r / 1024`, and every point
    writes its block back. -/
theorem cover1_4_arr (i : S16384x1.Idx) :
    ∃ t : Fin cfg1.N, (cfg1.win 4).flush t = true ∧ i ∈ ((cfg1.win 4).blk t).view.set := by
  have hi0 : (i 0).val < 16384 := (i 0).isLt
  have hi1 : (i 1).val < 1 := (i 1).isLt
  have hN : cfg1.N = 16 := N_1
  refine ⟨⟨(i 0).val / 1024, by rw [hN]; omega⟩, flush1_4 _, ?_⟩
  rw [mem_blk1_4]
  obtain ⟨e0, e1⟩ := idx_facts1_4 ⟨(i 0).val / 1024, by rw [hN]; omega⟩
  intro a
  match a with
  | ⟨0, _⟩ =>
    show win1_4.index _ (0 : Fin 2) * 1024 ≤ (i 0).val ∧ (i 0).val < win1_4.index _ (0 : Fin 2) * 1024 + 1024
    rw [e0]; show (i 0).val / 1024 * 1024 ≤ (i 0).val ∧ (i 0).val < (i 0).val / 1024 * 1024 + 1024; omega
  | ⟨1, _⟩ =>
    show win1_4.index _ (1 : Fin 2) * 1 ≤ (i 1).val ∧ (i 1).val < win1_4.index _ (1 : Fin 2) * 1 + 1
    rw [e1]; omega

/-- The output array after the region is the one array `G` whose block at every point is that point's losses. -/
theorem arrAt1_4 (c : Dev nD) (G : Vec F S16384x1 .f32)
    (hG : ∀ t : Fin cfg1.N, lossBlk V c t = ((cfg1.win 4).blk t).view.read (Elt F) G) :
    (dat1 V c).arrAt 4 cfg1.N = G := by
  refine (dat1 V c).arrAt_eq_of_cover 4 G (fun t _ => ?_) cover1_4_arr
  show (cfg1.win 4).cut (grid1.coords t) ((dat1 V c).after 4 t) = _
  rw [after1_4]
  exact hG t

end Cert.KernelIdeal.Hand

end
-- ==== Proof.KI.Run.lean ====
import proofs.«418369_j1537598292251_1_alg».proof.Proof.Gen.KernelIdeal.Regions
import proofs.«418369_j1537598292251_1_alg».proof.Proof.KI.Region0
import proofs.«418369_j1537598292251_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Tactic

/-!
# The run of the whole program

The program is host operations, the summing region, host operations, the cosine region, host operations. Between two
items every unscoped buffer of the core is held at known contents: the launch memory folded through the host
operations, with the sums' array and then the losses' array replaced by what the regions' write-backs leave. The run
ends with every unscoped buffer at the last of these contents; the argument arrays are never written.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the items -/

/-- What the summing region is entered with, read at the core's references. -/
abbrev E1 : (c : Dev nD) → (b : Ref sig .tc) → Buf (Elt F) ((c : Thread nD τ).loc b) := fun c b => Gen.V1 m c b

/-- The sums' array after the summing region. -/
def o2 (c : Dev nD) : Buf (Elt F) ((c : Thread nD τ).loc main_v4) := (dat0 (E1 m) c).arrAt 2 cfg0.N

/-- The regions' results up to the summing region's. -/
def outs1 : Gen.Outs (F := F) := fun _ r c => Function.update (Gen.V1 m c) main_v4 (o2 m c) r

/-- What the cosine region is entered with. -/
abbrev E4 : (c : Dev nD) → (b : Ref sig .tc) → Buf (Elt F) ((c : Thread nD τ).loc b) := fun c b => Gen.V4 m (outs1 m) c b

/-- The losses' array after the cosine region. -/
def o5 (c : Dev nD) : Buf (Elt F) ((c : Thread nD τ).loc main_v13) := (dat1 (E4 m) c).arrAt 4 cfg1.N

/-- Both regions' results. -/
def outs : Gen.Outs (F := F) := fun n r c =>
  if n = 5 then Function.update (Gen.V1 m c) main_v13 (o5 m c) r else outs1 m n r c

theorem outs_2 (c : Dev nD) : outs m 2 main_v4 c = o2 m c := by
  show Function.update (Gen.V1 m c) main_v4 (o2 m c) main_v4 = o2 m c
  exact Function.update_self _ _ _

theorem outs_5 (c : Dev nD) : outs m 5 main_v13 c = o5 m c := by
  show Function.update (Gen.V1 m c) main_v13 (o5 m c) main_v13 = o5 m c
  exact Function.update_self _ _ _

theorem V4_outs (c : Dev nD) : Gen.V4 m (outs m) c = Gen.V4 m (outs1 m) c := rfl

/-! ## The arrays a region leaves, against the contents after it -/

theorem V2_arr (c : Dev nD) (w : Fin cfg0.W) : (dat0 (E1 m) c).arrAt w cfg0.N = Gen.V2 m (outs m) c (Pipeline.arrRef spec0 w) := by
  match w with
  | ⟨0, _⟩ => exact ((dat0 (E1 m) c).arrAt_in 0 rfl _).trans ((A_eq0 (E1 m) c 0).trans (Gen.V2_of m (outs m) c main_arg0 (by decide)).symm)
  | ⟨1, _⟩ => exact ((dat0 (E1 m) c).arrAt_in 1 rfl _).trans ((A_eq0 (E1 m) c 1).trans (Gen.V2_of m (outs m) c main_v3 (by decide)).symm)
  | ⟨2, _⟩ =>
    show o2 m c = Function.update (Gen.V1 m c) main_v4 (outs m 2 main_v4 c) main_v4
    rw [Function.update_self, outs_2]

theorem V2_rest (c : Dev nD) : ∀ b, b ∉ Finset.univ.image (Pipeline.arrRef spec0) → Gen.V2 m (outs m) c b = Gen.V1 m c b := fun b hb =>
  Gen.V2_of m (outs m) c b (by
    intro h
    rw [List.mem_singleton] at h
    exact hb (Finset.mem_image.mpr ⟨2, Finset.mem_univ _, h.symm⟩))

theorem V5_arr (c : Dev nD) (w : Fin cfg1.W) : (dat1 (E4 m) c).arrAt w cfg1.N = Gen.V5 m (outs m) c (Pipeline.arrRef spec1 w) := by
  match w with
  | ⟨0, _⟩ => exact ((dat1 (E4 m) c).arrAt_in 0 rfl _).trans ((A_eq1 (E4 m) c 0).trans (Gen.V5_of m (outs m) c main_arg0 (by decide)).symm)
  | ⟨1, _⟩ => exact ((dat1 (E4 m) c).arrAt_in 1 rfl _).trans ((A_eq1 (E4 m) c 1).trans (Gen.V5_of m (outs m) c main_v3 (by decide)).symm)
  | ⟨2, _⟩ => exact ((dat1 (E4 m) c).arrAt_in 2 rfl _).trans ((A_eq1 (E4 m) c 2).trans (Gen.V5_of m (outs m) c main_v11 (by decide)).symm)
  | ⟨3, _⟩ => exact ((dat1 (E4 m) c).arrAt_in 3 rfl _).trans ((A_eq1 (E4 m) c 3).trans (Gen.V5_of m (outs m) c main_v12 (by decide)).symm)
  | ⟨4, _⟩ =>
    show o5 m c = Function.update (Gen.V4 m (outs m) c) main_v13 (outs m 5 main_v13 c) main_v13
    rw [Function.update_self, outs_5]

theorem V5_rest (c : Dev nD) : ∀ b, b ∉ Finset.univ.image (Pipeline.arrRef spec1) → Gen.V5 m (outs m) c b = Gen.V4 m (outs m) c b := fun b hb =>
  Gen.V5_of m (outs m) c b (by
    intro h
    rw [List.mem_singleton] at h
    exact hb (Finset.mem_image.mpr ⟨4, Finset.mem_univ _, h.symm⟩))

/-! ## The proof data family and what rides beside the buffers -/

/-- Each region's proof data at its entry contents: a literal match on the region. -/
def pdats : (p : Fin 2) → (c : Dev nD) → Dat τ (Elt F) Unit ℕ (UR sig nD τ) ℕ (cfgs p) c
  | ⟨0, _⟩ => fun c => dat0 (E1 m) c
  | ⟨1, _⟩ => fun c => dat1 (E4 m) c

abbrev 𝒱₀ : Variants := Variants.none
/-- No core owes another anything. -/
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

set_option backward.isDefEq.respectTransparency.types false in
/-- The summing region: entered with every unscoped buffer at the contents after the first host stretch, left with
    the sums' array at what its write-back leaves. Its arrays are split out of the unscoped buffers and put back; the
    generator register and the scoped rest go into the region's invariant and come back. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (V2_arr m c) (V2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The cosine region: entered with every unscoped buffer at the contents after the centres and their norms are
    computed, left with the losses' array at what its write-backs leave. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E4 m) c).loose
  hwaits := Pipeline.hwaits_of_owed_zero _ _ _ _ L lv 1 fun _ _ => rfl
  pre c := iprop(StableHlo.held (c : Thread nD τ) (Pipeline.ucRefs τ sig) (Gen.V4 m (outs1 m) c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E4 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E4 m c) (fun b => Gen.V5 m (outs m) c b) ((pdats m 1 c).arrAt · cfg1.N) (V5_arr m c) (V5_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution of the program terminates, nothing faulting, and
    every unscoped buffer of every core ends at the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V15 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m))
    (fun c Q => by
      rewrite [main_chain c, Seg.run_eq_chain,
        show (Gen.segs m (outs m) 𝒱₀ L lv E () (pdats m) (reg0 m) (reg1 m) c).map Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V15 m (outs m) c))
    (hch := fun c => ⟨.rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V15 m (outs m) c b)
    (hfin := fun c s' => by
      iintro ⟨Hh, HSI⟩
      unfold StableHlo.held
      imodintro
      iapply (pointsTo_read_all (Pipeline.ucRefs τ sig) (fun b => (((c : Thread nD τ)).1, b)) (Gen.V15 m (outs m) c) s')
      isplitl [Hh] <;> iassumption)
    (hQ := fun s h c => h c)

/-- The frame: every argument array ends as launched (no host operation and no region writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (Gen.V15_main_arg0 m (outs m) c),
     (h c _ (mem_uc main_arg1 (by decide))).trans (Gen.V15_main_arg1 m (outs m) c),
     (h c _ (mem_uc main_arg2 (by decide))).trans (Gen.V15_main_arg2 m (outs m) c)⟩) (run_all m ρ)

end Cert.KernelIdeal.Hand

end
-- ==== Proof.KI.LossSpec.lean ====
import Idealize.ShloMosaic.PureOps.Ideal

/-!
# The two results as sums over rows

The group sums and the per-sample losses as plain sums over the extended reals, indexed by row and column, the group
of row `i` given as `k i : Fin 4`. Both programs are compared with these.
-/

noncomputable section

namespace Cert.KernelIdeal.Hand

open Idealize.ShloMosaic
open scoped BigOperators

/-- The sum of the rows of group `k`, column `d`. -/
def sumsSpec (x : Fin 16384 → Fin 2048 → EReal) (k : Fin 16384 → Fin 4) (j : Fin 4) (d : Fin 2048) : EReal :=
  ∑ i : Fin 16384, if k i = j then x i d else 0

/-- One minus the cosine between row `i` and the centre of its group: the inner product over the product of the two
    norms, that product floored at the small constant both programs carry. -/
def lossSpec (x : Fin 16384 → Fin 2048 → EReal) (k : Fin 16384 → Fin 4) (ctr : Fin 4 → Fin 2048 → EReal) (i : Fin 16384) : EReal :=
  Ideal.ofBits .f32 0x3F800000#32 -
    Ideal.div (∑ d : Fin 2048, x i d * ctr (k i) d)
      (max (Ideal.sqrt (∑ d : Fin 2048, x i d * x i d) * Ideal.sqrt (∑ d : Fin 2048, ctr (k i) d * ctr (k i) d))
        (Ideal.ofBits .f32 0x322BCC77#32))

end Cert.KernelIdeal.Hand

end
-- ==== Proof.KI.SumsMath.lean ====
import proofs.«418369_j1537598292251_1_alg».proof.Proof.KI.Blocks
import proofs.«418369_j1537598292251_1_alg».proof.Proof.KI.LossSpec
import proofs.«418369_j1537598292251_1_alg».proof.ReferenceIdeal
import Idealize.ShloMosaic.Lib.ValueIdx
import Idealize.ShloMosaic.Lib.Pipeline.Value
import Idealize.ShloMosaic.Lib.KernelVsHost
import Idealize.ShloMosaic.Lib.StableHlo.Predicate
import Idealize.ShloMosaic.PureOps.Ideal.Laws

/-!
# The group sums, on both sides, are the sum over the rows of each group

At the extended reals. Kernel side: one grid point adds to the running 4 × 2048 total the product of the transposed
one-hot matrix of its 1024 group ids with its 1024 × 2048 block of features; at entry (j, d) that product is the sum
over the block's rows r of (1 if row r is of group j, else 0) times the feature at (r, d), that is, the sum of the
features at column d over the block's rows of group j. Point t's blocks are rows 1024 t … 1024 t + 1023 of the two
arrays, so after the sixteenth point the total at (j, d) is the sum over all 16384 rows of group j at column d.
Reference side: a scatter with addition of the 16384 rows into a zero 4 × 2048 array, row i going to the row its group
id names; at (j, d) it holds the sum of the updates landing there, which are the entries (i, d) with row i of group j.
Only that zero times anything is zero, one times anything is itself, and that addition is commutative and associative is
used: no entry needs to be finite.
-/

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

namespace Sums

/-! ## One point's product, entry by entry -/

/-- The one-hot entry: the one-bit comparison, widened to a word and read signed, is 1 where the two words agree and 0
    where they do not. -/
theorem onehot_entry (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [toInt_setWidth_bit]
  by_cases h : a = b
  · rw [if_pos h, StableHlo.Predicate.cmpi_eq_iff.2 h]; norm_num
  · rw [if_neg h]
    have : IntOp.cmpi .eq a b = 0#1 := eq_zero_of_ne_one (fun h1 => h (StableHlo.Predicate.cmpi_eq_iff.1 h1))
    rw [this]; norm_num

/-- The product's left operand index at an output index and a contraction position: the output's row … -/
theorem lhs_0 (j : S4x2048.Idx) (k : dot_S4x1024_S1024x2048_S4x2048_1_0_0_1_n_n.contr.Idx) :
    (dot_S4x1024_S1024x2048_S4x2048_1_0_0_1_n_n.lhsIdx j k 0).val = (j 0).val := by
  simp [DotDims.lhsIdx, dot_S4x1024_S1024x2048_S4x2048_1_0_0_1_n_n]; rfl
/-- … and, for column, the contraction position; -/
theorem lhs_1 (j : S4x2048.Idx) (k : dot_S4x1024_S1024x2048_S4x2048_1_0_0_1_n_n.contr.Idx) :
    (dot_S4x1024_S1024x2048_S4x2048_1_0_0_1_n_n.lhsIdx j k 1).val = (k ⟨0, by decide⟩).val :=
  dot_S4x1024_S1024x2048_S4x2048_1_0_0_1_n_n.lhsIdx_val_of_single (cl := 1) rfl j k
/-- the right operand's: for row the contraction position … -/
theorem rhs_0 (j : S4x2048.Idx) (k : dot_S4x1024_S1024x2048_S4x2048_1_0_0_1_n_n.contr.Idx) :
    (dot_S4x1024_S1024x2048_S4x2048_1_0_0_1_n_n.rhsIdx j k 0).val = (k ⟨0, by decide⟩).val :=
  dot_S4x1024_S1024x2048_S4x2048_1_0_0_1_n_n.rhsIdx_val_of_single (cr := 0) rfl j k
/-- … and the output's column. -/
theorem rhs_1 (j : S4x2048.Idx) (k : dot_S4x1024_S1024x2048_S4x2048_1_0_0_1_n_n.contr.Idx) :
    (dot_S4x1024_S1024x2048_S4x2048_1_0_0_1_n_n.rhsIdx j k 1).val = (j 1).val := by
  simp [DotDims.rhsIdx, dot_S4x1024_S1024x2048_S4x2048_1_0_0_1_n_n]; rfl

/-- The transposed one-hot matrix at (j, r): 1 when row r's group id is j, else 0. -/
theorem onehotT_apply (g4 : Vec Ideal S1024x1 .i32) (j : Fin 4) (r : Fin 1024) :
    (transpose S4x1024 [1, 0]
        (sitofp .f32 (extui 32 (cmpi .eq (broadcastTo S1024x4 (shapeCast S1024x1 g4 shapeCasts_S1024x1_S1024x1) broadcasts_S1024x1_S1024x4)
          (iota .tc S1024x4 32 [1] iota_S1024x4_d1_w32)) natLt_1_32) : FVec Ideal S1024x4 .f32)
        transposes_S1024x4_p1_0_S4x1024) (ix2 j r)
      = if (g4 (ix2 r 0) : BitVec 32) = BitVec.ofNat 32 j.val then (1 : EReal) else 0 := by
  rw [transpose_apply _ _ _ (ix2 j r) (ix2 r j) (fun b => by match b with | ⟨0, _⟩ => rfl | ⟨1, _⟩ => rfl)]
  rw [sitofp_apply, extui_apply]
  show FloatOps.sitofp (F := Ideal) .f32 ((IntOp.cmpi .eq _ _).setWidth 32) = _
  rw [onehot_entry, shapeCast_self,
    broadcastTo_apply g4 broadcasts_S1024x1_S1024x4 (ix2 r j) (ix2 r 0) (fun a => by match a with | ⟨0, _⟩ => rfl | ⟨1, _⟩ => rfl),
    iota_single_apply]

/-- One point's update at entry (j, d): the total before it plus the sum, over the point's 1024 rows, of the rows of
    group j at column d. -/
theorem pay2_apply (x4 : Vec Ideal S1024x2048 .f32) (g4 : Vec Ideal S1024x1 .i32) (a : Vec Ideal S4x2048 .f32) (j : Fin 4) (d : Fin 2048) :
    k0_pay2 x4 g4 a (ix2 j d)
      = a (ix2 j d) + ∑ r : Fin 1024, (if (g4 (ix2 r 0) : BitVec 32) = BitVec.ofNat 32 j.val then (1 : EReal) else 0) * x4 (ix2 r d) := by
  unfold k0_pay2
  rw [shapeCast_self, addf_apply]
  refine congrArg (a (ix2 j d) + ·) ?_
  simp only [matmul]
  rw [Ideal.matmul_constant_zero_apply,
    ← Equiv.sum_comp (contrEquiv1 dot_S4x1024_S1024x2048_S4x2048_1_0_0_1_n_n 1024 rfl rfl).symm]
  refine Finset.sum_congr rfl fun r _ => ?_
  have cr := contrEquiv1_symm_val dot_S4x1024_S1024x2048_S4x2048_1_0_0_1_n_n 1024 rfl rfl r
  have hl : dot_S4x1024_S1024x2048_S4x2048_1_0_0_1_n_n.lhsIdx (ix2 j d)
      ((contrEquiv1 dot_S4x1024_S1024x2048_S4x2048_1_0_0_1_n_n 1024 rfl rfl).symm r) = ix2 j r := by
    funext ax; apply Fin.ext
    match ax with
    | ⟨0, _⟩ => exact lhs_0 _ _
    | ⟨1, _⟩ => exact (lhs_1 _ _).trans cr
  have hr : dot_S4x1024_S1024x2048_S4x2048_1_0_0_1_n_n.rhsIdx (ix2 j d)
      ((contrEquiv1 dot_S4x1024_S1024x2048_S4x2048_1_0_0_1_n_n 1024 rfl rfl).symm r) = ix2 r d := by
    funext ax; apply Fin.ext
    match ax with
    | ⟨0, _⟩ => exact (rhs_0 _ _).trans cr
    | ⟨1, _⟩ => exact rhs_1 _ _
  rw [hl, hr, onehotT_apply]

/-! ## The blocks as rows of the arrays -/

variable (V : (c : Dev nD) → (b : Ref sig .tc) → Buf (Elt Ideal) ((c : Thread nD τ).loc b))

/-- The printed index maps, decided over the grid: at point t both input windows sit at block t of their array's rows
    and at block 0 of its columns. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The features' block at point t, row r, column d, is the array's row 1024 t + r at column d. -/
theorem iblk0_0_apply (c : Dev nD) (t : Fin cfg0.N) (r : Fin 1024) (d : Fin 2048) (i : Fin 16384) (hi : i.val = 1024 * t.val + r.val) :
    iblk0 V c 0 t (ix2 r d) = (V c main_arg0 : Vec Ideal S16384x2048 .f32) (ix2 i d) := by
  obtain ⟨e0, e1, -, -⟩ := idx_facts0 t
  show V c main_arg0 (((cfg0.win 0).blk t).view.emb (ix2 r d)) = V c main_arg0 (ix2 i d)
  refine congrArg _ (funext fun a => Fin.ext ?_)
  match a with
  | ⟨0, _⟩ => show win0_0.index t (0 : Fin 2) * 1024 + 1 * r.val = i.val; omega
  | ⟨1, _⟩ => show win0_0.index t (1 : Fin 2) * 2048 + 1 * d.val = d.val; omega

/-- The group ids' block at point t, row r, is the column's row 1024 t + r. -/
theorem iblk0_1_apply (c : Dev nD) (t : Fin cfg0.N) (r : Fin 1024) (i : Fin 16384) (hi : i.val = 1024 * t.val + r.val) :
    iblk0 V c 1 t (ix2 r 0) = (V c main_v3 : IVec S16384x1 32) (ix2 i 0) := by
  obtain ⟨-, -, e0, e1⟩ := idx_facts0 t
  show V c main_v3 (((cfg0.win 1).blk t).view.emb (ix2 r 0)) = V c main_v3 (ix2 i 0)
  refine congrArg _ (funext fun a => Fin.ext ?_)
  match a with
  | ⟨0, _⟩ => show win0_1.index t (0 : Fin 2) * 1024 + 1 * r.val = i.val; omega
  | ⟨1, _⟩ => show win0_1.index t (1 : Fin 2) * 1 + 1 * 0 = 0; omega

/-! ## The running total is the sum over the rows met so far -/

/-- Row r of block t of the 16384 rows. -/
def rowOf (t : Fin 16) (r : Fin 1024) : Fin 16384 := ⟨1024 * t.val + r.val, by omega⟩

/-- The sum over block t's 1024 rows of the rows of group j, at column d. -/
def blockSum (x : Fin 16384 → Fin 2048 → EReal) (k : Fin 16384 → Fin 4) (j : Fin 4) (d : Fin 2048) (t : Fin 16) : EReal :=
  ∑ r : Fin 1024, if k (rowOf t r) = j then x (rowOf t r) d else 0

/-- Two group numbers are equal when their words are. -/
theorem ofNat_inj4 : ∀ a b : Fin 4, BitVec.ofNat 32 a.val = BitVec.ofNat 32 b.val ↔ a = b := by decide

/-- One point's update at entry (j, d), over the arrays: the total before it plus block t's sum. -/
theorem point_step (c : Dev nD) (k : Fin 16384 → Fin 4)
    (hk : ∀ i : Fin 16384, (V c main_v3 : IVec S16384x1 32) (ix2 i 0) = BitVec.ofNat 32 (k i).val)
    (j : Fin 4) (d : Fin 2048) (t : Fin cfg0.N) (t16 : Fin 16) (ht : t16.val = t.val) (a : Vec Ideal S4x2048 .f32) :
    k0_pay2 (iblk0 V c 0 t) (iblk0 V c 1 t) a (ix2 j d)
      = a (ix2 j d) + blockSum (fun i e => (V c main_arg0 : Vec Ideal S16384x2048 .f32) (ix2 i e)) k j d t16 := by
  refine (pay2_apply _ _ a j d).trans (congrArg (a (ix2 j d) + ·) (Finset.sum_congr rfl fun r _ => ?_))
  have e1 : (iblk0 V c 1 t (ix2 r 0) : BitVec 32) = BitVec.ofNat 32 (k (rowOf t16 r)).val :=
    (iblk0_1_apply V c t r (rowOf t16 r) (by show 1024 * t16.val + r.val = _; rw [ht])).trans (hk _)
  have e0 := iblk0_0_apply V c t r d (rowOf t16 r) (by show 1024 * t16.val + r.val = _; rw [ht])
  rw [e1, e0]
  by_cases h : k (rowOf t16 r) = j
  · rw [if_pos (congrArg (fun a : Fin 4 => BitVec.ofNat 32 a.val) h), if_pos h, one_mul]
  · rw [if_neg (fun h' => h ((ofNat_inj4 _ _).1 h')), if_neg h, zero_mul]

/-- The zero total at an entry. -/
theorem pay1_apply (i : S4x2048.Idx) : (k0_pay1 (F := Ideal)) i = 0 := by
  unfold k0_pay1
  rw [shapeCast_self, broadcast_apply]
  exact Ideal.ofBits_zero_f32

/-- After point n the total at entry (j, d) is the sum of the first n + 1 blocks' sums. -/
theorem accAt_partial (c : Dev nD) (k : Fin 16384 → Fin 4)
    (hk : ∀ i : Fin 16384, (V c main_v3 : IVec S16384x1 32) (ix2 i 0) = BitVec.ofNat 32 (k i).val)
    (j : Fin 4) (d : Fin 2048) : ∀ (n : ℕ) (h : n < cfg0.N) (h16 : n < 16),
    accAt V c n h (ix2 j d)
      = ∑ t : Fin (n + 1), blockSum (fun i e => (V c main_arg0 : Vec Ideal S16384x2048 .f32) (ix2 i e)) k j d
          ⟨t.val, by have := t.isLt; omega⟩
  | 0, h, h16 => by
      rw [Fin.sum_univ_one]
      show k0_pay2 (iblk0 V c 0 ⟨0, h⟩) (iblk0 V c 1 ⟨0, h⟩) (k0_pay1 (F := Ideal)) (ix2 j d) = _
      rw [point_step V c k hk j d ⟨0, h⟩ ⟨0, by omega⟩ rfl, pay1_apply, zero_add]
      rfl
  | n + 1, h, h16 => by
      rw [Fin.sum_univ_castSucc]
      show k0_pay2 (iblk0 V c 0 ⟨n + 1, h⟩) (iblk0 V c 1 ⟨n + 1, h⟩) (accAt V c n (Nat.lt_of_succ_lt h)) (ix2 j d) = _
      rw [point_step V c k hk j d ⟨n + 1, h⟩ ⟨n + 1, h16⟩ rfl, accAt_partial c k hk j d n (Nat.lt_of_succ_lt h) (by omega)]
      rfl

/-- The sixteen blocks' sums add up to the sum over all 16384 rows. -/
theorem sum_blocks (x : Fin 16384 → Fin 2048 → EReal) (k : Fin 16384 → Fin 4) (j : Fin 4) (d : Fin 2048) :
    ∑ t : Fin 16, blockSum x k j d t = sumsSpec x k j d := by
  unfold sumsSpec blockSum
  rw [← Equiv.sum_comp (finProdFinEquiv : Fin 16 × Fin 1024 ≃ Fin 16384), Fintype.sum_prod_type]
  refine Finset.sum_congr rfl fun t _ => Finset.sum_congr rfl fun r _ => ?_
  have e : (finProdFinEquiv (t, r) : Fin 16384) = rowOf t r :=
    Fin.ext (by show r.val + 1024 * t.val = 1024 * t.val + r.val; omega)
  rw [e]

/-! ## The reference's scatter, entry by entry -/

section Scatter
variable [Cert.ReferenceIdeal.Facts]

/-- A group number's word read signed is the number. -/
theorem toInt_ofNat4 : ∀ a : Fin 4, (BitVec.ofNat 32 a.val).toInt = (a.val : Int) := by decide

/-- Where the scatter puts update (i, e): at row the group id of row i, column e. -/
theorem resultIdx_eq (idx : IVec Cert.ReferenceIdeal.S16384x1 32) (k : Fin 16384 → Fin 4)
    (hk : ∀ i : Fin 16384, idx (ix2 i 0) = BitVec.ofNat 32 (k i).val) (i : Fin 16384) (e : Fin 2048) :
    Cert.ReferenceIdeal.scatter_S4x2048_S16384x1_S16384x2048_1_0_0_1.resultIdx? (ix2 i e) idx = some (ix2 (k i) e) := by
  have hs0 : Cert.ReferenceIdeal.scatter_S4x2048_S16384x1_S16384x2048_1_0_0_1.start (ix2 i e) idx 0 = ((k i).val : Int) := by
    have hsi : Cert.ReferenceIdeal.scatter_S4x2048_S16384x1_S16384x2048_1_0_0_1.siIdx (ix2 i e) ⟨0, Nat.zero_lt_one⟩ = ix2 i 0 := by
      funext b; apply Fin.ext
      match b with
      | ⟨0, _⟩ => rfl
      | ⟨1, _⟩ => rfl
    show (idx (Cert.ReferenceIdeal.scatter_S4x2048_S16384x1_S16384x2048_1_0_0_1.siIdx (ix2 i e) ⟨0, Nat.zero_lt_one⟩)).toInt = _
    rw [hsi, hk, toInt_ofNat4]
  have hs1 : Cert.ReferenceIdeal.scatter_S4x2048_S16384x1_S16384x2048_1_0_0_1.start (ix2 i e) idx 1 = 0 := rfl
  have hw0 : Cert.ReferenceIdeal.scatter_S4x2048_S16384x1_S16384x2048_1_0_0_1.window (ix2 i e) 0 = 0 := rfl
  have hw1 : Cert.ReferenceIdeal.scatter_S4x2048_S16384x1_S16384x2048_1_0_0_1.window (ix2 i e) 1 = e.val := rfl
  have hk4 : (k i).val < 4 := (k i).isLt
  have he : e.val < 2048 := e.isLt
  unfold ScatterDims.resultIdx?
  rw [dif_pos (fun a => by
    match a with
    | ⟨0, _⟩ =>
      show 0 ≤ Cert.ReferenceIdeal.scatter_S4x2048_S16384x1_S16384x2048_1_0_0_1.start (ix2 i e) idx 0 + ((Cert.ReferenceIdeal.scatter_S4x2048_S16384x1_S16384x2048_1_0_0_1.window (ix2 i e) 0 : ℕ) : Int)
        ∧ Cert.ReferenceIdeal.scatter_S4x2048_S16384x1_S16384x2048_1_0_0_1.start (ix2 i e) idx 0 + ((Cert.ReferenceIdeal.scatter_S4x2048_S16384x1_S16384x2048_1_0_0_1.window (ix2 i e) 0 : ℕ) : Int) < ((4 : ℕ) : Int)
      rw [hs0, hw0]; omega
    | ⟨1, _⟩ =>
      show 0 ≤ Cert.ReferenceIdeal.scatter_S4x2048_S16384x1_S16384x2048_1_0_0_1.start (ix2 i e) idx 1 + ((Cert.ReferenceIdeal.scatter_S4x2048_S16384x1_S16384x2048_1_0_0_1.window (ix2 i e) 1 : ℕ) : Int)
        ∧ Cert.ReferenceIdeal.scatter_S4x2048_S16384x1_S16384x2048_1_0_0_1.start (ix2 i e) idx 1 + ((Cert.ReferenceIdeal.scatter_S4x2048_S16384x1_S16384x2048_1_0_0_1.window (ix2 i e) 1 : ℕ) : Int) < ((2048 : ℕ) : Int)
      rw [hs1, hw1]; omega)]
  refine congrArg some (funext fun a => Fin.ext ?_)
  match a with
  | ⟨0, _⟩ =>
    show (Cert.ReferenceIdeal.scatter_S4x2048_S16384x1_S16384x2048_1_0_0_1.start (ix2 i e) idx 0 + ((Cert.ReferenceIdeal.scatter_S4x2048_S16384x1_S16384x2048_1_0_0_1.window (ix2 i e) 0 : ℕ) : Int)).toNat = (k i).val
    rw [hs0, hw0]; omega
  | ⟨1, _⟩ =>
    show (Cert.ReferenceIdeal.scatter_S4x2048_S16384x1_S16384x2048_1_0_0_1.start (ix2 i e) idx 1 + ((Cert.ReferenceIdeal.scatter_S4x2048_S16384x1_S16384x2048_1_0_0_1.window (ix2 i e) 1 : ℕ) : Int)).toNat = e.val
    rw [hs1, hw1]; omega

end Scatter

end Sums

/-! ## The two results -/

variable (V : (c : Dev nD) → (b : Ref sig .tc) → Buf (Elt Ideal) ((c : Thread nD τ).loc b))

/-- REGION 0's TOTAL after the last point, entry by entry: the sum of the rows of group j at column d. -/
theorem accAt_eq_spec (c : Dev nD) (k : Fin 16384 → Fin 4)
    (hk : ∀ i : Fin 16384, (V c main_v3 : IVec S16384x1 32) (ValueIdx.ix2 i 0) = BitVec.ofNat 32 (k i).val)
    (j : Fin 4) (d : Fin 2048) :
    accAt V c 15 (by rw [show cfg0.N = 16 from N_0]; decide) (ValueIdx.ix2 j d)
      = sumsSpec (fun i e => (V c main_arg0 : Vec Ideal S16384x2048 .f32) (ValueIdx.ix2 i e)) k j d :=
  (Sums.accAt_partial V c k hk j d 15 _ (by decide)).trans (Sums.sum_blocks _ k j d)

section Scatter
variable [Cert.ReferenceIdeal.Facts]

/-- THE REFERENCE's GROUP SUMS, entry by entry: scattering the 16384 rows into a zero 4 × 2048 array at their group
    ids' rows leaves, at (j, d), the sum of the rows of group j at column d. -/
theorem scatter_eq_spec (x : Vec Ideal Cert.ReferenceIdeal.S16384x2048 .f32) (g : IVec Cert.ReferenceIdeal.S16384 32)
    (k : Fin 16384 → Fin 4) (hk : ∀ i : Fin 16384, g (ValueIdx.ix1 i) = BitVec.ofNat 32 (k i).val) (j : Fin 4) (d : Fin 2048) :
    Host.scatterAdd (F := Ideal) Cert.ReferenceIdeal.scatter_S4x2048_S16384x1_S16384x2048_1_0_0_1
        (broadcastInDim Cert.ReferenceIdeal.S4x2048 ![] Cert.ReferenceIdeal.Facts₀.bcast_S_S4x2048
          (constant (F := Ideal) Cert.ReferenceIdeal.S_ .f32 0x00000000#32))
        (broadcastInDim Cert.ReferenceIdeal.S16384x1 ![0] Cert.ReferenceIdeal.Facts₀.bcast_S16384_S16384x1_0 g) x (ValueIdx.ix2 j d)
      = sumsSpec (fun i e => x (ValueIdx.ix2 i e)) k j d := by
  have hidx : ∀ i : Fin 16384,
      (broadcastInDim Cert.ReferenceIdeal.S16384x1 ![0] Cert.ReferenceIdeal.Facts₀.bcast_S16384_S16384x1_0 g) (ix2 i 0)
        = BitVec.ofNat 32 (k i).val := fun i => by
    rw [broadcastInDim_apply _ _ g (ix2 i 0) (ix1 i) (fun a => by match a with | ⟨0, _⟩ => rfl)]
    exact hk i
  have hz : (broadcastInDim Cert.ReferenceIdeal.S4x2048 ![] Cert.ReferenceIdeal.Facts₀.bcast_S_S4x2048
      (constant (F := Ideal) Cert.ReferenceIdeal.S_ .f32 0x00000000#32)) (ix2 j d) = (0 : EReal) := by
    show Ideal.ofBits .f32 0x00000000#32 = 0
    exact Ideal.ofBits_zero_f32
  show Ideal.hostScatterAdd _ _ _ x (ix2 j d) = _
  unfold Ideal.hostScatterAdd sumsSpec
  rw [hz, zero_add, Finset.sum_filter, sum_idx2]
  refine Finset.sum_congr rfl fun i _ => ?_
  by_cases h : k i = j
  · rw [if_pos h, Finset.sum_eq_single d]
    · rw [if_pos (by rw [Sums.resultIdx_eq _ k hidx, h])]
    · intro e _ hne
      rw [if_neg]
      rw [Sums.resultIdx_eq _ k hidx]
      intro h'
      exact hne (congrFun (Option.some.inj h') 1)
    · intro hd; exact absurd (Finset.mem_univ d) hd
  · rw [if_neg h]
    refine Finset.sum_eq_zero fun e _ => ?_
    rw [if_neg]
    rw [Sums.resultIdx_eq _ k hidx]
    intro h'
    exact h (congrFun (Option.some.inj h') 0)

end Scatter

end Cert.KernelIdeal.Hand

end
-- ==== Proof.KI.LossK.lean ====
import proofs.«418369_j1537598292251_1_alg».proof.Proof.KI.Blocks
import proofs.«418369_j1537598292251_1_alg».proof.Proof.KI.LossSpec
import Idealize.ShloMosaic.Lib.ValueIdx
import Idealize.ShloMosaic.Lib.ValueLayout
import Idealize.ShloMosaic.Lib.Pipeline.Value
import Idealize.ShloMosaic.PureOps.Ideal.Laws

/-!
# The per-sample losses on the kernel's side, over the extended reals

At row `r` of its block the second kernel stores
`1 - (∑_{j<4} dots[r,j] · onehot[r,j]) / max (√(∑_d x[r,d]²) · (∑_{j<4} onehot[r,j] · cn[j]), ε)`
with `dots[r,j] = ∑_d x[r,d] · ctr[j,d]` and `onehot[r,j]` one when the row's group id is `j` and zero when not.
This file reads that value off the stored vector entry by entry (`LossK.k1_pay1_apply`), names the whole array of
16384 losses as one function of the features, group ids, centres and norms (`lossFull`), shows that each grid
point's block of losses is the corresponding block of 1024 rows of that array (`lossBlk_eq`), and, when every group id
is below four and the norms are those of the centres, collapses the two four-term sums to the term of the row's own
group: the loss is one minus the cosine of the sample with its group's centre (`lossFull_apply`). Over the extended
reals `0 · a = 0`, `1 · a = a` and a sum with a single nonzero term is that term, for every `a`, so nothing here asks
for finiteness.
-/

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open scoped BigOperators

namespace LossK

/-! ## Row sums -/

/-- Putting coordinate `k` back on the summed axis of a row index gives the index `(r, k)`. -/
theorem lift_row2048 (r : Fin 1024) (k : Fin 2048) : reduces_S1024x2048_S1024.lift (ix1 r) k = ix2 r k := by
  funext a; apply Fin.ext
  match a with
  | ⟨0, _⟩ => rfl
  | ⟨1, _⟩ => rfl

theorem lift_row4 (r : Fin 1024) (k : Fin 4) : reduces_S1024x4_S1024.lift (ix1 r) k = ix2 r k := by
  funext a; apply Fin.ext
  match a with
  | ⟨0, _⟩ => rfl
  | ⟨1, _⟩ => rfl

/-- The sum along a row of a 1024×2048 block, kept as a column: at row `r` the sum of the row's 2048 entries. -/
theorem rowSum2048 (v : FVec Ideal S1024x2048 .f32) (r : Fin 1024) (q : Fin 1) (hφ : FKind.Formats .f32)
    (hacc : (0x00000000#32 : BitVec 32) = 0x00000000#32) :
    shapeCast S1024x1 (multiReduction (F := Ideal) .add [1] S1024 v 0x00000000#32 reduces_S1024x2048_S1024 hφ hacc)
        shapeCasts_S1024_S1024x1 (ix2 r q)
      = ∑ d : Fin 2048, v (ix2 r d) := by
  refine (shapeCast_apply _ _ (ix2 r q) (ix1 r) ?_).trans ?_
  · rw [Shape.rowMajor_val_two, Shape.rowMajor_val_one]
    show r.val = r.val * 1 + q.val
    omega
  · refine (Ideal.multiReduction_add_single _ _ _ _ _ _).trans ?_
    exact Finset.sum_congr rfl fun k _ => congrArg v (lift_row2048 r k)

/-- The same along a row of a 1024×4 block. -/
theorem rowSum4 (v : FVec Ideal S1024x4 .f32) (r : Fin 1024) (q : Fin 1) (hφ : FKind.Formats .f32)
    (hacc : (0x00000000#32 : BitVec 32) = 0x00000000#32) :
    shapeCast S1024x1 (multiReduction (F := Ideal) .add [1] S1024 v 0x00000000#32 reduces_S1024x4_S1024 hφ hacc)
        shapeCasts_S1024_S1024x1 (ix2 r q)
      = ∑ j : Fin 4, v (ix2 r j) := by
  refine (shapeCast_apply _ _ (ix2 r q) (ix1 r) ?_).trans ?_
  · rw [Shape.rowMajor_val_two, Shape.rowMajor_val_one]
    show r.val = r.val * 1 + q.val
    omega
  · refine (Ideal.multiReduction_add_single _ _ _ _ _ _).trans ?_
    exact Finset.sum_congr rfl fun k _ => congrArg v (lift_row4 r k)

/-! ## The product of a block of rows with the transposed centres -/

/-- The left operand's index of the product at output `(r, j)` and contraction position `k`: row `r`, -/
theorem lhs_dots_0 (i : S1024x4.Idx) (k : dot_S1024x2048_S2048x4_S1024x4_1_0_0_1_n_n.contr.Idx) :
    (dot_S1024x2048_S2048x4_S1024x4_1_0_0_1_n_n.lhsIdx i k 0).val = (i 0).val := by
  unfold DotDims.lhsIdx
  rw [dif_neg (show ¬(0 : Fin S1024x2048.rank) ∈ dot_S1024x2048_S2048x4_S1024x4_1_0_0_1_n_n.lhsBatch by decide),
    dif_pos (show (0 : Fin S1024x2048.rank) ∈ dot_S1024x2048_S2048x4_S1024x4_1_0_0_1_n_n.lhsNonContracting by decide)]
  rfl

/-- column `k`; -/
theorem lhs_dots_1 (i : S1024x4.Idx) (k : dot_S1024x2048_S2048x4_S1024x4_1_0_0_1_n_n.contr.Idx) :
    (dot_S1024x2048_S2048x4_S1024x4_1_0_0_1_n_n.lhsIdx i k 1).val = (k ⟨0, by decide⟩).val :=
  dot_S1024x2048_S2048x4_S1024x4_1_0_0_1_n_n.lhsIdx_val_of_single rfl i k

/-- the right operand's: row `k`, -/
theorem rhs_dots_0 (i : S1024x4.Idx) (k : dot_S1024x2048_S2048x4_S1024x4_1_0_0_1_n_n.contr.Idx) :
    (dot_S1024x2048_S2048x4_S1024x4_1_0_0_1_n_n.rhsIdx i k 0).val = (k ⟨0, by decide⟩).val :=
  dot_S1024x2048_S2048x4_S1024x4_1_0_0_1_n_n.rhsIdx_val_of_single rfl i k

/-- column `j`. -/
theorem rhs_dots_1 (i : S1024x4.Idx) (k : dot_S1024x2048_S2048x4_S1024x4_1_0_0_1_n_n.contr.Idx) :
    (dot_S1024x2048_S2048x4_S1024x4_1_0_0_1_n_n.rhsIdx i k 1).val = (i 1).val := by
  unfold DotDims.rhsIdx
  rw [dif_neg (show ¬(1 : Fin S2048x4.rank) ∈ dot_S1024x2048_S2048x4_S1024x4_1_0_0_1_n_n.rhsBatch by decide),
    dif_pos (show (1 : Fin S2048x4.rank) ∈ dot_S1024x2048_S2048x4_S1024x4_1_0_0_1_n_n.rhsNonContracting by decide)]
  rfl

/-- The product into a zero accumulator, at `(r, j)`: the inner product of row `r` of the left operand with column `j`
    of the right. -/
theorem dots_apply (xb : FVec Ideal S1024x2048 .f32) (w : FVec Ideal S2048x4 .f32) (r : Fin 1024) (j : Fin 4) :
    matmul dot_S1024x2048_S2048x4_S1024x4_1_0_0_1_n_n none xb w (constant (F := Ideal) S1024x4 .f32 0x00000000#32) (ix2 r j)
      = ∑ d : Fin 2048, xb (ix2 r d) * w (ix2 d j) := by
  show FloatOps.matmul _ none xb w _ (ix2 r j) = _
  rw [Ideal.matmul_constant_zero_apply,
    ← Equiv.sum_comp (contrEquiv1 dot_S1024x2048_S2048x4_S1024x4_1_0_0_1_n_n 2048 rfl rfl).symm]
  refine Finset.sum_congr rfl fun c _ => ?_
  have hc := contrEquiv1_symm_val dot_S1024x2048_S2048x4_S1024x4_1_0_0_1_n_n 2048 rfl rfl c
  have hl : dot_S1024x2048_S2048x4_S1024x4_1_0_0_1_n_n.lhsIdx (ix2 r j)
      ((contrEquiv1 dot_S1024x2048_S2048x4_S1024x4_1_0_0_1_n_n 2048 rfl rfl).symm c) = ix2 r c := by
    funext a; apply Fin.ext
    match a with
    | ⟨0, _⟩ => exact lhs_dots_0 _ _
    | ⟨1, _⟩ => exact (lhs_dots_1 _ _).trans hc
  have hr : dot_S1024x2048_S2048x4_S1024x4_1_0_0_1_n_n.rhsIdx (ix2 r j)
      ((contrEquiv1 dot_S1024x2048_S2048x4_S1024x4_1_0_0_1_n_n 2048 rfl rfl).symm c) = ix2 c j := by
    funext a; apply Fin.ext
    match a with
    | ⟨0, _⟩ => exact (rhs_dots_0 _ _).trans hc
    | ⟨1, _⟩ => exact rhs_dots_1 _ _
  rw [hl, hr]

/-! ## The layout operations of the block, read at an index -/

/-- A column broadcast along its rows reads, at `(r, j)`, the column at row `r`. -/
theorem colBroadcast_apply {α : Type} (v : S1024x1.Idx → α) (r : Fin 1024) (j : Fin 4) :
    broadcastTo S1024x4 v broadcasts_S1024x1_S1024x4 (ix2 r j) = v (ix2 r (0 : Fin 1)) := by
  refine broadcastTo_apply v _ (ix2 r j) (ix2 r (0 : Fin 1)) fun ax => ?_
  match ax with
  | ⟨0, _⟩ => rfl
  | ⟨1, _⟩ => rfl

/-- The centres transposed read, at `(d, j)`, centre `j` at column `d`. -/
theorem ctrT_apply (ctr : FVec Ideal S4x2048 .f32) (d : Fin 2048) (j : Fin 4) :
    transpose S2048x4 [1, 0] (shapeCast S4x2048 ctr shapeCasts_S4x2048_S4x2048) transposes_S4x2048_p1_0_S2048x4 (ix2 d j)
      = ctr (ix2 j d) := by
  rw [shapeCast_self]
  exact transpose_ix2_apply ctr _ d j

/-- The centres' norms, a column of four, laid along a row and repeated down the block: at `(r, j)` the norm of
    centre `j`. -/
theorem cnRow_apply (cn : FVec Ideal S4x1 .f32) (r : Fin 1024) (j : Fin 4) :
    broadcastTo S1024x4 (shapeCast S1x4 (shapeCast S4 (shapeCast S4x1 cn shapeCasts_S4x1_S4x1) shapeCasts_S4x1_S4)
        shapeCasts_S4_S1x4) broadcasts_S1x4_S1024x4 (ix2 r j) = cn (ix2 j (0 : Fin 1)) := by
  rw [shapeCast_self]
  refine (broadcastTo_1b_ab_apply _ _ r j).trans ?_
  refine (shapeCast_a_1a_apply _ _ (0 : Fin 1) j).trans ?_
  refine shapeCast_apply cn _ (ix1 j) (ix2 j (0 : Fin 1)) ?_
  rw [Shape.rowMajor_val_two, Shape.rowMajor_val_one]
  show j.val * 1 + 0 = j.val
  omega

/-! ## The one-hot row of a group id -/

/-- Entry `j` of the one-hot row of the group id `g`: the comparison of `g` with `j`, one bit, widened and read as a
    number. -/
def oneHot (g : BitVec 32) (j : Fin 4) : EReal :=
  FloatOps.sitofp (F := Ideal) .f32 ((IntOp.cmpi .eq g (BitVec.ofNat 32 j.val)).setWidth 32)

/-- The block's one-hot matrix at `(r, j)` is entry `j` of the one-hot row of row `r`'s group id. -/
theorem onehot_apply (gb : IVec S1024x1 32) (r : Fin 1024) (j : Fin 4) :
    (sitofp .f32 (extui 32 (cmpi .eq (broadcastTo S1024x4 (shapeCast S1024x1 gb shapeCasts_S1024x1_S1024x1) broadcasts_S1024x1_S1024x4)
        (iota .tc S1024x4 32 [1] iota_S1024x4_d1_w32)) natLt_1_32) : FVec Ideal S1024x4 .f32) (ix2 r j)
      = oneHot (gb (ix2 r (0 : Fin 1))) j := by
  show FloatOps.sitofp (F := Ideal) .f32 ((IntOp.cmpi .eq (broadcastTo S1024x4 (shapeCast S1024x1 gb shapeCasts_S1024x1_S1024x1)
      broadcasts_S1024x1_S1024x4 (ix2 r j)) (iota .tc S1024x4 32 [1] iota_S1024x4_d1_w32 (ix2 r j))).setWidth 32) = _
  rw [shapeCast_self, colBroadcast_apply, iota_single_apply]
  rfl

/-- The widened comparison of two group ids below four, as an integer: one when they agree, zero when not. -/
theorem cmp_toInt : ∀ k j : Fin 4,
    ((IntOp.cmpi .eq (BitVec.ofNat 32 k.val) (BitVec.ofNat 32 j.val)).setWidth 32).toInt = if k = j then 1 else 0 := by
  decide

/-- The one-hot row of group `k` is one at `k` and zero elsewhere. -/
theorem oneHot_ofNat (k j : Fin 4) : oneHot (BitVec.ofNat 32 k.val) j = if k = j then 1 else 0 := by
  show (((((IntOp.cmpi .eq (BitVec.ofNat 32 k.val) (BitVec.ofNat 32 j.val)).setWidth 32).toInt : ℤ) : ℝ) : EReal) = _
  rw [cmp_toInt]
  split
  · simp
  · simp

/-! ## The block's losses, row by row -/

/-- The loss of one sample from its feature row `xr`, its group id `g`, the centres and the centres' norms: one minus
    the one-hot-selected inner product over the floored product of the row's norm with the one-hot-selected norm. -/
def rowLoss (xr : Fin 2048 → EReal) (g : BitVec 32) (ctr : Vec Ideal S4x2048 .f32) (cn : Vec Ideal S4x1 .f32) : EReal :=
  Ideal.ofBits .f32 0x3F800000#32 -
    Ideal.div (∑ j : Fin 4, (∑ d : Fin 2048, xr d * ctr (ix2 j d)) * oneHot g j)
      (max (Ideal.sqrt (∑ d : Fin 2048, xr d * xr d) * ∑ j : Fin 4, oneHot g j * cn (ix2 j (0 : Fin 1)))
        (Ideal.ofBits .f32 0x322BCC77#32))

/-- A square root taken entry by entry. -/
theorem sqrt_apply' {s : Shape} {φ : FTy} (a : FVec Ideal s φ) (i : s.Idx) : sqrt a i = Ideal.sqrt (a i) := rfl

/-- The second kernel's stored value at row `r` of its block is the row's loss. -/
theorem k1_pay1_apply (xb : Vec Ideal S1024x2048 .f32) (ctr : Vec Ideal S4x2048 .f32) (gb : Vec Ideal S1024x1 .i32)
    (cn : Vec Ideal S4x1 .f32) (r : Fin 1024) (q : Fin 1) :
    k1_pay1 xb ctr gb cn (ix2 r q) = rowLoss (fun d => xb (ix2 r d)) (gb (ix2 r (0 : Fin 1))) ctr cn := by
  unfold k1_pay1 rowLoss
  simp only [subf_apply, divf_apply, maximumf_apply, mulf_apply, broadcast_apply, sqrt_apply', Ideal.ofBits_def]
  refine congrArg₂ (fun a b => Ideal.ofBits .f32 0x3F800000#32 - Ideal.div a b) ?_
    (congrArg₂ (fun a b => max (Ideal.sqrt a * b) (Ideal.ofBits .f32 0x322BCC77#32)) ?_ ?_)
  · -- the selected inner product
    refine (rowSum4 _ r q _ _).trans (Finset.sum_congr rfl fun j _ => ?_)
    exact congrArg₂ (· * ·)
      ((dots_apply _ _ r j).trans (Finset.sum_congr rfl fun d _ => congrArg (xb (ix2 r d) * ·) (ctrT_apply ctr d j)))
      (onehot_apply gb r j)
  · -- the row's squared norm
    exact rowSum2048 _ r q _ _
  · -- the selected centre's norm
    refine (rowSum4 _ r q _ _).trans (Finset.sum_congr rfl fun j _ => ?_)
    exact congrArg₂ (· * ·) (onehot_apply gb r j) (cnRow_apply cn r j)

/-! ## The windows' blocks of the second kernel, read off the arrays -/

/-- The block indices of the second kernel's windows, decided over the grid: the features', the group ids' and the
    losses' windows are at block `(t, 0)` at point `t`, the centres' and the norms' at block `(0, 0)` throughout. -/
theorem lossIdx_feat : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

theorem lossIdx_gid : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

theorem lossIdx_ctr : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

theorem lossIdx_cn : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)

theorem lossIdx_out : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

variable (V : (c : Dev nD) → (b : Ref sig .tc) → Buf (Elt Ideal) ((c : Thread nD τ).loc b))

/-- Row `r` of the features' block at point `t` is row `1024 t + r` of the features. -/
theorem iblk1_feat (c : Dev nD) (t : Fin cfg1.N) (r : Fin 1024) (d : Fin 2048) (i : Fin 16384)
    (hi : i.val = 1024 * t.val + r.val) :
    (iblk1 V c 0 t : Vec Ideal S1024x2048 .f32) (ix2 r d) = (V c main_arg0 : Vec Ideal S16384x2048 .f32) (ix2 i d) := by
  unfold iblk1
  rw [View.read_apply]
  show V c main_arg0 _ = V c main_arg0 _
  congr 1
  funext a
  apply Fin.ext
  match a with
  | ⟨0, _⟩ =>
    show win1_0.index t (0 : Fin 2) * 1024 + 1 * r.val = i.val
    rw [(lossIdx_feat t).1, hi]; omega
  | ⟨1, _⟩ =>
    show win1_0.index t (1 : Fin 2) * 2048 + 1 * d.val = d.val
    rw [(lossIdx_feat t).2]; omega

/-- Row `r` of the group ids' block at point `t` is row `1024 t + r` of the group ids. -/
theorem iblk1_gid (c : Dev nD) (t : Fin cfg1.N) (r : Fin 1024) (q : Fin 1) (i : Fin 16384)
    (hi : i.val = 1024 * t.val + r.val) :
    (iblk1 V c 1 t : Vec Ideal S1024x1 .i32) (ix2 r q) = (V c main_v3 : Vec Ideal S16384x1 .i32) (ix2 i (0 : Fin 1)) := by
  unfold iblk1
  rw [View.read_apply]
  show V c main_v3 _ = V c main_v3 _
  congr 1
  funext a
  apply Fin.ext
  match a with
  | ⟨0, _⟩ =>
    show win1_1.index t (0 : Fin 2) * 1024 + 1 * r.val = i.val
    rw [(lossIdx_gid t).1, hi]; omega
  | ⟨1, _⟩ =>
    show win1_1.index t (1 : Fin 2) * 1 + 1 * q.val = 0
    rw [(lossIdx_gid t).2]; omega

/-- The centres' block is the whole array of centres at every point. -/
theorem iblk1_ctr (c : Dev nD) (t : Fin cfg1.N) :
    (iblk1 V c 2 t : Vec Ideal S4x2048 .f32) = (V c main_v11 : Vec Ideal S4x2048 .f32) := by
  funext y
  unfold iblk1
  rw [View.read_apply]
  show V c main_v11 _ = V c main_v11 _
  congr 1
  funext a
  apply Fin.ext
  match a with
  | ⟨0, _⟩ =>
    show win1_2.index t (0 : Fin 2) * 4 + 1 * (y 0).val = (y 0).val
    rw [(lossIdx_ctr t).1]; omega
  | ⟨1, _⟩ =>
    show win1_2.index t (1 : Fin 2) * 2048 + 1 * (y 1).val = (y 1).val
    rw [(lossIdx_ctr t).2]; omega

/-- The norms' block is the whole array of norms at every point. -/
theorem iblk1_cn (c : Dev nD) (t : Fin cfg1.N) :
    (iblk1 V c 3 t : Vec Ideal S4x1 .f32) = (V c main_v12 : Vec Ideal S4x1 .f32) := by
  funext y
  unfold iblk1
  rw [View.read_apply]
  show V c main_v12 _ = V c main_v12 _
  congr 1
  funext a
  apply Fin.ext
  match a with
  | ⟨0, _⟩ =>
    show win1_3.index t (0 : Fin 2) * 4 + 1 * (y 0).val = (y 0).val
    rw [(lossIdx_cn t).1]; omega
  | ⟨1, _⟩ =>
    show win1_3.index t (1 : Fin 2) * 1 + 1 * (y 1).val = (y 1).val
    rw [(lossIdx_cn t).2]; omega

end LossK

open LossK

/-! ## The whole array of losses -/

/-- The per-sample losses of all 16384 samples: sample `i`'s loss from its feature row and group id. -/
def lossFull (x : Vec Ideal S16384x2048 .f32) (g2 : Vec Ideal S16384x1 .i32) (ctr : Vec Ideal S4x2048 .f32)
    (cn : Vec Ideal S4x1 .f32) : Vec Ideal S16384x1 .f32 :=
  fun y => rowLoss (fun d => x (ix2 (n0 := 16384) (y 0) d)) (g2 (ix2 (n0 := 16384) (y 0) (0 : Fin 1))) ctr cn

/-- With every group id below four and the norms those of the centres, a sample's loss is one minus its cosine with
    its own group's centre: of the four one-hot-weighted terms of each selecting sum only the group's survives. -/
theorem lossFull_apply (x : Vec Ideal S16384x2048 .f32) (g2 : Vec Ideal S16384x1 .i32) (ctr : Vec Ideal S4x2048 .f32)
    (cn : Vec Ideal S4x1 .f32) (k : Fin 16384 → Fin 4)
    (hk : ∀ i : Fin 16384, g2 (ValueIdx.ix2 i 0) = BitVec.ofNat 32 (k i).val)
    (hcn : ∀ j : Fin 4, cn (ValueIdx.ix2 j 0) = Ideal.sqrt (∑ d : Fin 2048, ctr (ValueIdx.ix2 j d) * ctr (ValueIdx.ix2 j d)))
    (i : Fin 16384) :
    lossFull x g2 ctr cn (ValueIdx.ix2 i 0)
      = lossSpec (fun i d => x (ValueIdx.ix2 i d)) k (fun j d => ctr (ValueIdx.ix2 j d)) i := by
  show rowLoss (fun d => x (ix2 i d)) (g2 (ix2 i (0 : Fin 1))) ctr cn = _
  unfold rowLoss lossSpec
  rw [hk i]
  have h1 : ∑ j : Fin 4, (∑ d : Fin 2048, x (ix2 i d) * ctr (ix2 j d)) * oneHot (BitVec.ofNat 32 (k i).val) j
      = ∑ d : Fin 2048, x (ix2 i d) * ctr (ix2 (k i) d) := by
    rw [Finset.sum_eq_single (k i)]
    · rw [oneHot_ofNat, if_pos rfl, mul_one]
    · intro j _ hj
      rw [oneHot_ofNat, if_neg (Ne.symm hj), mul_zero]
    · intro h
      exact absurd (Finset.mem_univ _) h
  have h2 : ∑ j : Fin 4, oneHot (BitVec.ofNat 32 (k i).val) j * cn (ix2 j (0 : Fin 1)) = cn (ix2 (k i) (0 : Fin 1)) := by
    rw [Finset.sum_eq_single (k i)]
    · rw [oneHot_ofNat, if_pos rfl, one_mul]
    · intro j _ hj
      rw [oneHot_ofNat, if_neg (Ne.symm hj), zero_mul]
    · intro h
      exact absurd (Finset.mem_univ _) h
  rw [h1, h2, hcn]

variable (V : (c : Dev nD) → (b : Ref sig .tc) → Buf (Elt Ideal) ((c : Thread nD τ).loc b))

/-! ## Each point's block of losses is a block of the whole array -/

/-- Each point's block of losses is the corresponding block of the whole array of losses. -/
theorem lossBlk_eq (c : Dev nD) (t : Fin cfg1.N) :
    lossBlk V c t = ((cfg1.win 4).blk t).view.read (Elt Ideal)
      (lossFull (V c main_arg0) (V c main_v3) (V c main_v11) (V c main_v12)) := by
  funext y
  obtain ⟨r, q, rfl⟩ : ∃ (r : Fin 1024) (q : Fin 1), y = ix2 r q := ⟨y 0, y 1, eq_ix2 y⟩
  have hN : cfg1.N = 16 := N_1
  have ht : t.val < 16 := hN ▸ t.isLt
  unfold lossBlk
  refine (k1_pay1_apply _ _ _ _ r q).trans ?_
  rw [View.read_apply]
  show _ = lossFull (V c main_arg0) (V c main_v3) (V c main_v11) (V c main_v12) (((cfg1.win 4).blk t).view.emb (ix2 r q))
  unfold lossFull
  have hi : ((((cfg1.win 4).blk t).view.emb (ix2 r q) 0 : Fin 16384)).val = 1024 * t.val + r.val := by
    show win1_4.index t (0 : Fin 2) * 1024 + 1 * r.val = _
    rw [(lossIdx_out t).1]; omega
  rw [iblk1_ctr V c t, iblk1_cn V c t, iblk1_gid V c t r (0 : Fin 1) _ hi]
  exact congrArg (fun f => rowLoss f _ _ _) (funext fun d => iblk1_feat V c t r d _ hi)

end Cert.KernelIdeal.Hand

end
-- ==== Proof.KI.LossR.lean ====
import proofs.«418369_j1537598292251_1_alg».proof.ReferenceIdeal
import proofs.«418369_j1537598292251_1_alg».proof.KernelIdeal
import proofs.«418369_j1537598292251_1_alg».proof.Proof.KI.LossSpec
import Idealize.ShloMosaic.Lib.ValueIdx
import Idealize.ShloMosaic.Lib.ValueLayout
import Idealize.ShloMosaic.Lib.Pipeline.Value
import Idealize.ShloMosaic.PureOps.Ideal.Laws

/-!
# The reference's per-sample losses

The reference computes, for each of the 16384 samples, one minus the cosine between the sample and the centre of its
group: it shifts a negative group id up by four, gathers for each sample the row of the 4×2048 centres at its id (the id
read signed and clamped into `0 … 3`), takes the inner product of the sample with that row, divides it by the product of
the two norms floored at a small constant, and takes the quotient from one. Over the extended reals every one of these
operations is exact, so when each id is one of `0, 1, 2, 3` the shift and the clamp do nothing and the loss of sample `i`
is `lossSpec` at `i`. The last statement compares the two totals: the sum of a 16384×1 column over both axes and the sum
of a vector of 16384 entries are zero plus the same 16384 numbers.
-/

noncomputable section

namespace Cert.ReferenceIdeal.Hand

open Idealize.ShloMosaic Idealize.ShloMosaic.ValueIdx
open Facts₀
open scoped BigOperators

variable [Facts]

/-- The row gather read at an index: row `i` of the result is the row of the table named by the start index of row
    `i`, read signed and clamped into `[0, 3]`. -/
theorem gather_rows_apply {α : Type} (tab : S4x2048.Idx → α) (idx : IVec S16384x1 32) (i : Fin 16384) (d : Fin 2048) :
    Host.gather gather_S4x2048_S16384x1_S16384x2048_1_0_n_n_0_1_12048 tab idx (ix2 i d)
      = tab (ix2 ⟨min (idx (ix2 i 0)).toInt.toNat 3, by omega⟩ d) := by
  unfold Host.gather
  congr 1
  funext a
  refine Fin.ext ?_
  let D := gather_S4x2048_S16384x1_S16384x2048_1_0_n_n_0_1_12048
  show D.start (ix2 i d) idx a + D.batchCoord (ix2 i d) a + D.offCoord (ix2 i d) a = _
  rw [GatherDims.batchCoord_eq_zero _ _ _ List.not_mem_nil]
  have ha : a = (0 : Fin 2) ∨ a = (1 : Fin 2) := by
    rcases a with ⟨_ | _ | n, h⟩
    · exact .inl rfl
    · exact .inr rfl
    · exact absurd h (by show ¬ (n + 2 < 2); omega)
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx (ix2 i d) ⟨List.idxOf (0 : Fin 2) D.startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  · have h1 : (1 : Fin 2) ∉ D.startIndexMap := by
      show (1 : Fin 2) ∉ [(0 : Fin 2)]
      decide
    unfold GatherDims.start
    rw [dif_neg h1]
    simp only [Nat.zero_add]
    unfold GatherDims.offCoord
    rw [dif_pos ((D.mem_sKept 1).2 ⟨(show (1 : Fin 2) ∉ [(0 : Fin 2)] by decide), List.not_mem_nil⟩)]
    rfl

/-- The reference's per-sample losses as its own operations compose them, out of the features `x`, the group ids `g` and
    the centres `ctr`: a negative id is shifted up by four; each sample's row of centres is gathered at its id; the inner
    product of the sample with that row is divided by the product of the two norms, floored at the small constant; the
    quotient is taken from one. -/
def _root_.Cert.KernelIdeal.Hand.refLoss (x : Vec Ideal S16384x2048 .f32) (g : IVec S16384 32) (ctr : Vec Ideal S4x2048 .f32) :
    Vec Ideal S16384 .f32 :=
  subf (broadcastInDim S16384 ![] bcast_S_S16384 (constant (F := Ideal) S_ .f32 0x3F800000#32))
    (Host.divf (F := Ideal)
      (Host.reduceAdd (F := Ideal)
        (mulf x
          (Host.gather gather_S4x2048_S16384x1_S16384x2048_1_0_n_n_0_1_12048 ctr
            (broadcastInDim S16384x1 ![0] bcast_S16384_S16384x1_0
              (select (cmpi .slt g (broadcastInDim S16384 ![] bcast_S_S16384 (constantI S_ 32 0#32)))
                (addi g (broadcastInDim S16384 ![] bcast_S_S16384 (constantI S_ 32 4#32))) g))))
        (constant (F := Ideal) S_ .f32 0x00000000#32) reducesTo_S16384x2048_S16384_d1 h_S_)
      (maximumf
        (mulf
          (Host.sqrt (F := Ideal)
            (Host.reduceAdd (F := Ideal) (mulf x x) (constant (F := Ideal) S_ .f32 0x00000000#32)
              reducesTo_S16384x2048_S16384_d1 h_S_))
          (Host.sqrt (F := Ideal)
            (Host.reduceAdd (F := Ideal)
              (mulf
                (Host.gather gather_S4x2048_S16384x1_S16384x2048_1_0_n_n_0_1_12048 ctr
                  (broadcastInDim S16384x1 ![0] bcast_S16384_S16384x1_0
                    (select (cmpi .slt g (broadcastInDim S16384 ![] bcast_S_S16384 (constantI S_ 32 0#32)))
                      (addi g (broadcastInDim S16384 ![] bcast_S_S16384 (constantI S_ 32 4#32))) g)))
                (Host.gather gather_S4x2048_S16384x1_S16384x2048_1_0_n_n_0_1_12048 ctr
                  (broadcastInDim S16384x1 ![0] bcast_S16384_S16384x1_0
                    (select (cmpi .slt g (broadcastInDim S16384 ![] bcast_S_S16384 (constantI S_ 32 0#32)))
                      (addi g (broadcastInDim S16384 ![] bcast_S_S16384 (constantI S_ 32 4#32))) g))))
              (constant (F := Ideal) S_ .f32 0x00000000#32) reducesTo_S16384x2048_S16384_d1 h_S_)))
        (broadcastInDim S16384 ![] bcast_S_S16384 (constant (F := Ideal) S_ .f32 0x322BCC77#32))))

/-- A sum along the rows, from zero, read at row `i`: the sum over the 2048 columns. -/
theorem rowSum_apply (y : FVec Ideal S16384x2048 .f32) (i : Fin 16384) :
    Host.reduceAdd (F := Ideal) y (constant (F := Ideal) S_ .f32 0x00000000#32) reducesTo_S16384x2048_S16384_d1 h_S_ (ix1 i)
      = ∑ d : Fin 2048, y (ix2 i d) := by
  simp only [Host.reduceAdd, Ideal.hostReduceAdd_def]
  rw [Ideal.hostReduceAdd_single reducesTo_S16384x2048_S16384_d1 (by decide)]
  rw [constant_apply, Ideal.ofBits_zero_f32, zero_add]
  refine Finset.sum_congr rfl fun d _ => ?_
  exact congrArg y (funext fun a => Fin.ext (by match a with | ⟨0, _⟩ => rfl | ⟨1, _⟩ => rfl))

/-- A group id in `0 … 3` is not negative as a signed word, and read signed it is the number itself. -/
theorem id_word (k : Fin 4) :
    IntOp.cmpi .slt (BitVec.ofNat 32 k.val) 0#32 = 0#1 ∧ min (BitVec.ofNat 32 k.val).toInt.toNat 3 = k.val := by
  fin_cases k <;> exact ⟨by decide, by decide⟩

/-- The column of start indices read at row `i`. -/
theorem idxCol_apply (y : IVec S16384 32) (i : Fin 16384) :
    broadcastInDim S16384x1 ![0] bcast_S16384_S16384x1_0 y (ix2 i 0) = y (ix1 i) :=
  broadcastInDim_apply _ bcast_S16384_S16384x1_0 y (ix2 i 0) (ix1 i) (fun a => match a with
    | ⟨0, _⟩ => by show i.val = if (16384 : Nat) = 1 then 0 else i.val; rw [if_neg (by decide)])

theorem hostDivf_apply {s : Shape} {φ : FTy} (a b : FVec Ideal s φ) (i : s.Idx) :
    Host.divf (F := Ideal) a b i = Ideal.div (a i) (b i) := rfl

theorem hostSqrt_apply {s : Shape} {φ : FTy} (a : FVec Ideal s φ) (i : s.Idx) :
    Host.sqrt (F := Ideal) a i = Ideal.sqrt (a i) := rfl

/-- The shifted ids at a sample whose id is in `0 … 3`: the id unchanged. -/
theorem shifted_id (g : IVec S16384 32) (k : Fin 4) (i : Fin 16384) (hk : g (ix1 i) = BitVec.ofNat 32 k.val) :
    select (cmpi .slt g (broadcastInDim S16384 ![] bcast_S_S16384 (constantI S_ 32 0#32)))
      (addi g (broadcastInDim S16384 ![] bcast_S_S16384 (constantI S_ 32 4#32))) g (ix1 i) = BitVec.ofNat 32 k.val := by
  rw [select_apply]
  have h0 : cmpi .slt g (broadcastInDim S16384 ![] bcast_S_S16384 (constantI S_ 32 0#32)) (ix1 i) = 0#1 := by
    show IntOp.cmpi .slt (g (ix1 i)) 0#32 = 0#1
    rw [hk]; exact (id_word k).1
  rw [h0, select_zero, hk]

/-- The gathered centres at a sample whose id is in `0 … 3`: the row of that group. -/
theorem gathered_row (g : IVec S16384 32) (ctr : Vec Ideal S4x2048 .f32) (k : Fin 4) (i : Fin 16384)
    (hk : g (ix1 i) = BitVec.ofNat 32 k.val) (d : Fin 2048) :
    Host.gather gather_S4x2048_S16384x1_S16384x2048_1_0_n_n_0_1_12048 ctr
      (broadcastInDim S16384x1 ![0] bcast_S16384_S16384x1_0
        (select (cmpi .slt g (broadcastInDim S16384 ![] bcast_S_S16384 (constantI S_ 32 0#32)))
          (addi g (broadcastInDim S16384 ![] bcast_S_S16384 (constantI S_ 32 4#32))) g)) (ix2 i d)
      = ctr (ix2 k d) := by
  rw [gather_rows_apply]
  refine congrArg ctr (congrArg (fun r => ix2 r d) (Fin.ext ?_))
  show min _ 3 = k.val
  rw [idxCol_apply, shifted_id g k i hk]
  exact (id_word k).2

/-- At group ids in `0 … 3` the reference's loss of sample `i` is one minus the floored cosine between the sample and
    the centre of its group. -/
theorem _root_.Cert.KernelIdeal.Hand.refLoss_apply (x : Vec Ideal S16384x2048 .f32) (g : IVec S16384 32)
    (ctr : Vec Ideal S4x2048 .f32) (k : Fin 16384 → Fin 4)
    (hk : ∀ i : Fin 16384, g (ix1 i) = BitVec.ofNat 32 (k i).val) (i : Fin 16384) :
    Cert.KernelIdeal.Hand.refLoss x g ctr (ix1 i)
      = Cert.KernelIdeal.Hand.lossSpec (fun i d => x (ix2 i d)) k (fun j d => ctr (ix2 j d)) i := by
  unfold Cert.KernelIdeal.Hand.refLoss Cert.KernelIdeal.Hand.lossSpec
  simp only [subf_apply, hostDivf_apply, maximumf_apply, hostSqrt_apply]
  rw [mulf_apply, hostSqrt_apply, hostSqrt_apply, rowSum_apply, rowSum_apply, rowSum_apply]
  simp only [mulf_apply, gathered_row g ctr (k i) i (hk i)]
  rfl

end Cert.ReferenceIdeal.Hand

namespace Cert.KernelIdeal.Hand

open Idealize.ShloMosaic Idealize.ShloMosaic.ValueIdx
open scoped BigOperators

/-- A column of 16384 entries and a vector of 16384 entries have the same indices: `(i, 0)` against `i`. -/
def colEquiv : (⟨2, ![16384, 1]⟩ : Shape).Idx ≃ (⟨1, ![16384]⟩ : Shape).Idx where
  toFun j := ix1 (j 0)
  invFun i := ix2 (i 0) 0
  left_inv j := by
    funext a
    match a with
    | ⟨0, _⟩ => rfl
    | ⟨1, _⟩ => show (_ : Fin 1) = _; exact Subsingleton.elim _ _
  right_inv i := by
    funext a
    match a with
    | ⟨0, _⟩ => rfl

/-- The kernel's sum of its column of losses over both axes and the reference's sum of its vector of losses are the same
    number when the two hold the same losses: each is zero plus the sum of the 16384 entries. -/
theorem loss_sums_eq [Cert.ReferenceIdeal.Facts] [Cert.KernelIdeal.Facts]
    (lossK : Vec Ideal Cert.KernelIdeal.S16384x1 .f32) (lossR : Vec Ideal Cert.ReferenceIdeal.S16384 .f32)
    (h : ∀ i : Fin 16384, lossK (ix2 i 0) = lossR (ix1 i)) :
    Host.reduceAdd (F := Ideal) lossK (constant (F := Ideal) Cert.KernelIdeal.S_ .f32 0x00000000#32)
        Cert.KernelIdeal.Facts₀.reducesTo_S16384x1_S_d0_1 Cert.KernelIdeal.Facts₀.h_S_
      = Host.reduceAdd (F := Ideal) lossR (constant (F := Ideal) Cert.ReferenceIdeal.S_ .f32 0x00000000#32)
        Cert.ReferenceIdeal.Facts₀.reducesTo_S16384_S_d0 Cert.ReferenceIdeal.Facts₀.h_S_ := by
  funext j
  simp only [Host.reduceAdd, Ideal.hostReduceAdd_def]
  rw [Ideal.hostReduceAdd_total _ (fun b => b.elim0), Ideal.hostReduceAdd_total _ (fun b => b.elim0)]
  refine congrArg (_ + ·) ?_
  refine Fintype.sum_equiv colEquiv _ _ fun j => ?_
  exact (congrArg lossK (colEquiv.left_inv j).symm).trans (h (j 0))

end Cert.KernelIdeal.Hand

end
-- ==== Proof.KI.BridgeCore.lean ====
import proofs.«418369_j1537598292251_1_alg».proof.Proof.KI.SumsMath
import proofs.«418369_j1537598292251_1_alg».proof.Proof.KI.LossK
import proofs.«418369_j1537598292251_1_alg».proof.Proof.KI.LossR
import proofs.«418369_j1537598292251_1_alg».proof.Proof.Gen.ReferenceIdeal
import proofs.«418369_j1537598292251_1_alg».proof.Proof.Gen.KernelIdeal
import Idealize.ShloMosaic.Lib.ValueIdx

/-!
# The two places where the programs differ, as equations between arrays

The kernel's running total after the last point is the reference's host scatter of the rows by group; the host sum
of the kernel's per-sample losses is the host sum of the reference's. Both follow index by index from the sums over
rows that each side was shown equal to.
-/

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The group sums: the running total after the last point is the scatter of the rows of the features to their
    groups, once the two sides' group ids are the same numbers `k` and their features the same array. -/
theorem sums_core (c : Dev nD) (x' : Vec Ideal Cert.ReferenceIdeal.S16384x2048 .f32) (g' : IVec Cert.ReferenceIdeal.S16384 32)
    (k : Fin 16384 → Fin 4) (hk' : ∀ i : Fin 16384, g' (ix1 i) = BitVec.ofNat 32 (k i).val)
    (hkK : ∀ i : Fin 16384, (V c main_v3 : IVec S16384x1 32) (ix2 i 0) = BitVec.ofNat 32 (k i).val)
    (hx : (V c main_arg0 : Vec Ideal S16384x2048 .f32) = x') :
    (accAt V c 15 (by rw [show cfg0.N = 16 from N_0]; decide) : Vec Ideal S4x2048 .f32)
      = Host.scatterAdd (F := Ideal) Cert.ReferenceIdeal.scatter_S4x2048_S16384x1_S16384x2048_1_0_0_1
        (broadcastInDim Cert.ReferenceIdeal.S4x2048 ![] Cert.ReferenceIdeal.Facts₀.bcast_S_S4x2048 (constant Cert.ReferenceIdeal.S_ .f32 0x00000000#32))
        (broadcastInDim Cert.ReferenceIdeal.S16384x1 ![0] Cert.ReferenceIdeal.Facts₀.bcast_S16384_S16384x1_0 g') x' := by
  funext j
  obtain ⟨p, q, rfl⟩ : ∃ (p : Fin 4) (q : Fin 2048), j = ix2 p q := ⟨j 0, j 1, eq_ix2 j⟩
  rw [accAt_eq_spec V c k hkK p q]
  exact ((scatter_eq_spec x' g' k hk' p q).trans (by rw [hx])).symm

/-- The sum of the losses: row by row both sides are one minus the cosine with the row's own centre. -/
theorem loss_core (xK : Vec Ideal S16384x2048 .f32) (g2 : Vec Ideal S16384x1 .i32) (ctrK : Vec Ideal S4x2048 .f32) (cnK : Vec Ideal S4x1 .f32)
    (x' : Vec Ideal Cert.ReferenceIdeal.S16384x2048 .f32) (g' : IVec Cert.ReferenceIdeal.S16384 32)
    (ctr' : Vec Ideal Cert.ReferenceIdeal.S4x2048 .f32)
    (k : Fin 16384 → Fin 4) (hk' : ∀ i : Fin 16384, g' (ix1 i) = BitVec.ofNat 32 (k i).val)
    (hkK : ∀ i : Fin 16384, g2 (ix2 i 0) = BitVec.ofNat 32 (k i).val)
    (hx : xK = x') (hctr : ctrK = ctr')
    (hcn : ∀ j : Fin 4, cnK (ix2 j 0) = Ideal.sqrt (∑ d : Fin 2048, ctrK (ix2 j d) * ctrK (ix2 j d))) :
    Host.reduceAdd (F := Ideal) (lossFull xK g2 ctrK cnK)
        (constant S_ .f32 0x00000000#32) Facts₀.reducesTo_S16384x1_S_d0_1 Facts₀.h_S_
      = Host.reduceAdd (F := Ideal) (refLoss x' g' ctr') (constant Cert.ReferenceIdeal.S_ .f32 0x00000000#32)
        Cert.ReferenceIdeal.Facts₀.reducesTo_S16384_S_d0 Cert.ReferenceIdeal.Facts₀.h_S_ := by
  refine loss_sums_eq _ _ fun i => ?_
  rw [lossFull_apply xK g2 ctrK cnK k hkK hcn i, refLoss_apply x' g' ctr' k hk' i, hx, hctr]

end Cert.KernelIdeal.Hand

end
-- ==== Proof.LibAgree.lean ====
import Idealize.ShloMosaic.Lib.StableHlo.Run

/-!
# Two lines of host operations stepped in lockstep

Two programs over two signatures run the same operations on buffers paired by position. `Agree P V₁ V₂` says the two
valuations hold the same contents at every pair of the list `P`; the contents of a pair are compared heterogeneously,
the two signatures giving the paired buffers types that are equal only once their tables are unfolded. `Sim P ops ops' Q`
says: from valuations agreeing on `P`, after `ops` on one side and `ops'` on the other the valuations agree on `Q`.
One rule per builder steps an operation on each side and adds the pair of result buffers; every buffer being written
once, a pair already listed is never written again (the freshness hypotheses).
-/

namespace Idealize.ShloMosaic.StableHlo

variable {τ : Topo} {sig₁ sig₂ : RefSig} {Val : EltTy → Type}

/-! ## Heterogeneous congruence -/

/-- Heterogeneously equal functions at heterogeneously equal arguments, the domains and the codomains being equal types. -/
theorem heq_app {A A' B B' : Type} (hA : A = A') (hB : B = B') {f : A → B} {f' : A' → B'} (hf : HEq f f')
    {a : A} {a' : A'} (ha : HEq a a') : HEq (f a) (f' a') := by
  subst hA hB; cases hf; cases ha; rfl

/-- Dependent families that agree pointwise, over pointwise equal types. -/
theorem heq_pi {ι : Type} {A A' : ι → Type} (hA : ∀ k, A k = A' k) {g : (k : ι) → A k} {g' : (k : ι) → A' k}
    (h : ∀ k, HEq (g k) (g' k)) : HEq g g' := by
  obtain rfl : A = A' := funext hA
  exact heq_of_eq (funext fun k => eq_of_heq (h k))

/-- Functions of a dependent family, likewise. -/
theorem heq_app_pi {ι : Type} {A A' : ι → Type} {B B' : Type} (hA : ∀ k, A k = A' k) (hB : B = B')
    {f : ((k : ι) → A k) → B} {f' : ((k : ι) → A' k) → B'} (hf : HEq f f')
    {g : (k : ι) → A k} {g' : (k : ι) → A' k} (h : ∀ k, HEq (g k) (g' k)) : HEq (f g) (f' g') := by
  obtain rfl : A = A' := funext hA
  subst hB; cases hf
  exact heq_of_eq (congrArg f (funext fun k => eq_of_heq (h k)))

/-- A reshape of heterogeneously equal contents, the buffer types being equal. -/
theorem heq_reshape {T₁ T₁' T₂ T₂' : BufTy} (h₁ : T₁ = T₁') (h₂ : T₂ = T₂') (he : T₁.elt = T₂.elt) (he' : T₁'.elt = T₂'.elt)
    (hn : T₁.shape.ShapeCasts T₂.shape) (hn' : T₁'.shape.ShapeCasts T₂'.shape)
    {a : T₁.Contents Val} {a' : T₁'.Contents Val} (ha : HEq a a') :
    HEq (fun i => he ▸ shapeCast T₂.shape a hn i : T₂.Contents Val) (fun i => he' ▸ shapeCast T₂'.shape a' hn' i : T₂'.Contents Val) := by
  subst h₁ h₂; cases ha; rfl

/-! ## Agreement on a list of pairs -/

/-- The two valuations hold the same contents at every pair of `P`. -/
def Agree (P : List (Ref sig₁ .tc × Ref sig₂ .tc)) (V₁ : Valuation τ sig₁ Val) (V₂ : Valuation τ sig₂ Val) : Prop :=
  ∀ p ∈ P, HEq (V₁ (Proc.devRef .tc p.1)) (V₂ (Proc.devRef .tc p.2))

namespace Agree

variable {P Q : List (Ref sig₁ .tc × Ref sig₂ .tc)} {V₁ : Valuation τ sig₁ Val} {V₂ : Valuation τ sig₂ Val}

theorem nil : Agree (τ := τ) (Val := Val) ([] : List (Ref sig₁ .tc × Ref sig₂ .tc)) V₁ V₂ := fun _ h => absurd h List.not_mem_nil

theorem cons {a : Ref sig₁ .tc} {a' : Ref sig₂ .tc} (h : HEq (V₁ (Proc.devRef .tc a)) (V₂ (Proc.devRef .tc a')))
    (t : Agree P V₁ V₂) : Agree ((a, a') :: P) V₁ V₂ := fun p hp => by
  rcases List.mem_cons.mp hp with rfl | hp
  · exact h
  · exact t p hp

/-- The contents at a listed pair. -/
theorem get (h : Agree P V₁ V₂) {a : Ref sig₁ .tc} {a' : Ref sig₂ .tc} (hin : (a, a') ∈ P) :
    HEq (V₁ (Proc.devRef .tc a)) (V₂ (Proc.devRef .tc a')) := h (a, a') hin

/-- Pairs may be dropped. -/
theorem mono (h : Agree P V₁ V₂) (hQ : Q ⊆ P) : Agree Q V₁ V₂ := fun p hp => h p (hQ hp)

/-- An operation on each side, each writing one buffer that no listed pair names, the two results being the same: the
    valuations after them agree on the list and on the pair of result buffers. -/
theorem write (h : Agree P V₁ V₂) {op : HloOp τ sig₁ Val} {op' : HloOp τ sig₂ Val} {y : Ref sig₁ .tc} {y' : Ref sig₂ .tc}
    (hw : op.writes = {Proc.devRef .tc y}) (hw' : op'.writes = {Proc.devRef .tc y'})
    (hy : y ∉ P.map Prod.fst) (hy' : y' ∉ P.map Prod.snd)
    (hres : HEq (op.result V₁ (Proc.devRef .tc y)) (op'.result V₂ (Proc.devRef .tc y'))) :
    Agree ((y, y') :: P) (op.result V₁) (op'.result V₂) := fun p hp => by
  rcases List.mem_cons.mp hp with rfl | hp
  · exact hres
  · have h1 : Proc.devRef .tc p.1 ∉ op.writes := by
      rw [hw, Finset.mem_singleton]
      exact devRef_ne_of_ne fun e => hy (e ▸ List.mem_map_of_mem (f := Prod.fst) hp)
    have h2 : Proc.devRef .tc p.2 ∉ op'.writes := by
      rw [hw', Finset.mem_singleton]
      exact devRef_ne_of_ne fun e => hy' (e ▸ List.mem_map_of_mem (f := Prod.snd) hp)
    rw [op.result_of_not_mem V₁ h1, op'.result_of_not_mem V₂ h2]
    exact h p hp

/-- An operation on the first side only, writing one buffer that no listed pair names. -/
theorem writeL (h : Agree P V₁ V₂) {op : HloOp τ sig₁ Val} {y : Ref sig₁ .tc}
    (hw : op.writes = {Proc.devRef .tc y}) (hy : y ∉ P.map Prod.fst) : Agree P (op.result V₁) V₂ := fun p hp => by
  have h1 : Proc.devRef .tc p.1 ∉ op.writes := by
    rw [hw, Finset.mem_singleton]
    exact devRef_ne_of_ne fun e => hy (e ▸ List.mem_map_of_mem (f := Prod.fst) hp)
  rw [op.result_of_not_mem V₁ h1]
  exact h p hp

/-- An operation on the second side only. -/
theorem writeR (h : Agree P V₁ V₂) {op' : HloOp τ sig₂ Val} {y' : Ref sig₂ .tc}
    (hw' : op'.writes = {Proc.devRef .tc y'}) (hy' : y' ∉ P.map Prod.snd) : Agree P V₁ (op'.result V₂) := fun p hp => by
  have h2 : Proc.devRef .tc p.2 ∉ op'.writes := by
    rw [hw', Finset.mem_singleton]
    exact devRef_ne_of_ne fun e => hy' (e ▸ List.mem_map_of_mem (f := Prod.snd) hp)
  rw [op'.result_of_not_mem V₂ h2]
  exact h p hp

end Agree

/-! ## Two lines in lockstep -/

/-- From valuations agreeing on `P`, after `ops` on one side and `ops'` on the other the valuations agree on `Q`. -/
def Sim (P : List (Ref sig₁ .tc × Ref sig₂ .tc)) (ops : List (HloOp τ sig₁ Val)) (ops' : List (HloOp τ sig₂ Val))
    (Q : List (Ref sig₁ .tc × Ref sig₂ .tc)) : Prop :=
  ∀ (V₁ : Valuation τ sig₁ Val) (V₂ : Valuation τ sig₂ Val), Agree P V₁ V₂ → Agree Q (after ops V₁) (after ops' V₂)

namespace Sim

variable {P P' Q : List (Ref sig₁ .tc × Ref sig₂ .tc)} {ops l₁ l₂ : List (HloOp τ sig₁ Val)} {ops' l₁' l₂' : List (HloOp τ sig₂ Val)}

/-- Both lines done: keep the pairs wanted. -/
theorem done (hQ : Q ⊆ P) : Sim (τ := τ) (Val := Val) P [] [] Q := fun _ _ h => h.mono hQ

/-- One operation on each side, then the rest. -/
theorem step {op : HloOp τ sig₁ Val} {op' : HloOp τ sig₂ Val}
    (hstep : ∀ (V₁ : Valuation τ sig₁ Val) (V₂ : Valuation τ sig₂ Val), Agree P V₁ V₂ → Agree P' (op.result V₁) (op'.result V₂))
    (k : Sim P' ops ops' Q) : Sim P (op :: ops) (op' :: ops') Q := fun V₁ V₂ h => k _ _ (hstep V₁ V₂ h)

/-- An operation on the first side with no counterpart, writing a buffer no listed pair names. -/
theorem skipL {op : HloOp τ sig₁ Val} {y : Ref sig₁ .tc} (hw : op.writes = {Proc.devRef .tc y}) (hy : y ∉ P.map Prod.fst)
    (k : Sim P ops ops' Q) : Sim P (op :: ops) ops' Q := fun V₁ V₂ h => k _ _ (h.writeL hw hy)

/-- An operation on the second side with no counterpart. -/
theorem skipR {op' : HloOp τ sig₂ Val} {y' : Ref sig₂ .tc} (hw' : op'.writes = {Proc.devRef .tc y'}) (hy' : y' ∉ P.map Prod.snd)
    (k : Sim P ops ops' Q) : Sim P ops (op' :: ops') Q := fun V₁ V₂ h => k _ _ (h.writeR hw' hy')

private theorem after_append' {sig : RefSig} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

/-- Two stretches in a row. -/
theorem append (h₁ : Sim P l₁ l₁' P') (h₂ : Sim P' l₂ l₂' Q) : Sim P (l₁ ++ l₂) (l₁' ++ l₂') Q := fun V₁ V₂ h => by
  rw [after_append', after_append']
  exact h₂ _ _ (h₁ _ _ h)

/-- A first stretch, then the flattening of the others. -/
theorem flatten_cons {L : List (List (HloOp τ sig₁ Val))} {L' : List (List (HloOp τ sig₂ Val))}
    (h₁ : Sim P l₁ l₁' P') (h₂ : Sim P' L.flatten L'.flatten Q) : Sim P (l₁ :: L).flatten (l₁' :: L').flatten Q := by
  rw [List.flatten_cons, List.flatten_cons]
  exact h₁.append h₂

/-- The pairs kept may be dropped afterwards. -/
theorem mono {Q' : List (Ref sig₁ .tc × Ref sig₂ .tc)} (h : Sim P ops ops' Q) (hQ : Q' ⊆ Q) : Sim P ops ops' Q' :=
  fun V₁ V₂ hP => (h V₁ V₂ hP).mono hQ

/-- What the two lines leave at a pair kept. -/
theorem get (h : Sim P ops ops' Q) {V₁ : Valuation τ sig₁ Val} {V₂ : Valuation τ sig₂ Val} (hP : Agree P V₁ V₂)
    {a : Ref sig₁ .tc} {a' : Ref sig₂ .tc} (hin : (a, a') ∈ Q) :
    HEq (after ops V₁ (Proc.devRef .tc a)) (after ops' V₂ (Proc.devRef .tc a')) := (h V₁ V₂ hP).get hin

/-! ### One rule per builder -/

section Builders

variable {x a b c y : Ref sig₁ .tc} {x' a' b' c' y' : Ref sig₂ .tc}

/-- `%y = ‹op›` on both sides. -/
theorem nullary {v : y.ty.Contents Val} {v' : y'.ty.Contents Val} {hy hy'}
    (hv : HEq v v') (hfy : y ∉ P.map Prod.fst) (hfy' : y' ∉ P.map Prod.snd)
    (k : Sim ((y, y') :: P) ops ops' Q) :
    Sim P (StableHlo.nullary (τ := τ) y v hy :: ops) (StableHlo.nullary (τ := τ) y' v' hy' :: ops') Q :=
  step (fun V₁ V₂ h => h.write rfl rfl hfy hfy' (by rw [nullary_result, nullary_result]; exact hv)) k

/-- `%y = ‹op› %x` on both sides. -/
theorem unary {f : x.ty.Contents Val → y.ty.Contents Val} {f' : x'.ty.Contents Val → y'.ty.Contents Val} {hx hy hx' hy'}
    (hin : (x, x') ∈ P) (htx : x.ty = x'.ty) (hty : y.ty = y'.ty) (hf : HEq f f')
    (hfy : y ∉ P.map Prod.fst) (hfy' : y' ∉ P.map Prod.snd)
    (k : Sim ((y, y') :: P) ops ops' Q) :
    Sim P (StableHlo.unary (τ := τ) x y f hx hy :: ops) (StableHlo.unary (τ := τ) x' y' f' hx' hy' :: ops') Q :=
  step (fun V₁ V₂ h => h.write rfl rfl hfy hfy' (by
    rw [unary_result, unary_result]
    exact heq_app (congrArg (BufTy.Contents Val) htx) (congrArg (BufTy.Contents Val) hty) hf (h.get hin))) k

/-- `%y = ‹op› %a, %b` on both sides. -/
theorem binary {f : a.ty.Contents Val → b.ty.Contents Val → y.ty.Contents Val}
    {f' : a'.ty.Contents Val → b'.ty.Contents Val → y'.ty.Contents Val} {ha hb hy ha' hb' hy'}
    (hina : (a, a') ∈ P) (hinb : (b, b') ∈ P) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.binary (τ := τ) a b y f ha hb hy :: ops) (StableHlo.binary (τ := τ) a' b' y' f' ha' hb' hy' :: ops') Q :=
  step (fun V₁ V₂ h => h.write rfl rfl hfy hfy' (by
    rw [binary_result, binary_result]
    have hB := congrArg (BufTy.Contents Val) htb
    have hY := congrArg (BufTy.Contents Val) hty
    exact heq_app hB hY
      (heq_app (congrArg (BufTy.Contents Val) hta) (by rw [hB, hY]) hf (h.get hina)) (h.get hinb))) k

/-- `%y = ‹op› %c, %a, %b` on both sides. -/
theorem ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (hinc : (c, c') ∈ P) (hina : (a, a') ∈ P) (hinb : (b, b') ∈ P)
    (htc : c.ty = c'.ty) (hta : a.ty = a'.ty) (htb : b.ty = b'.ty) (hty : y.ty = y'.ty) (hf : HEq f f')
    (hfy : y ∉ P.map Prod.fst) (hfy' : y' ∉ P.map Prod.snd)
    (k : Sim ((y, y') :: P) ops ops' Q) :
    Sim P (StableHlo.ternary (τ := τ) c a b y f hc ha hb hy :: ops) (StableHlo.ternary (τ := τ) c' a' b' y' f' hc' ha' hb' hy' :: ops') Q :=
  step (fun V₁ V₂ h => h.write rfl rfl hfy hfy' (by
    rw [ternary_result, ternary_result]
    have hA := congrArg (BufTy.Contents Val) hta
    have hB := congrArg (BufTy.Contents Val) htb
    have hY := congrArg (BufTy.Contents Val) hty
    exact heq_app hB hY
      (heq_app hA (by rw [hB, hY])
        (heq_app (congrArg (BufTy.Contents Val) htc) (by rw [hA, hB, hY]) hf (h.get hinc)) (h.get hina)) (h.get hinb))) k

/-- `%y = ‹op› %x₀, …, %xₙ₋₁` on both sides. -/
theorem nary {n : Nat} {xs : Fin n → Ref sig₁ .tc} {xs' : Fin n → Ref sig₂ .tc}
    {f : ((k : Fin n) → (xs k).ty.Contents Val) → y.ty.Contents Val}
    {f' : ((k : Fin n) → (xs' k).ty.Contents Val) → y'.ty.Contents Val} {hxs hy hxs' hy'}
    (hin : ∀ k, (xs k, xs' k) ∈ P) (htx : ∀ k, (xs k).ty = (xs' k).ty) (hty : y.ty = y'.ty) (hf : HEq f f')
    (hfy : y ∉ P.map Prod.fst) (hfy' : y' ∉ P.map Prod.snd)
    (k : Sim ((y, y') :: P) ops ops' Q) :
    Sim P (StableHlo.nary (τ := τ) xs y f hxs hy :: ops) (StableHlo.nary (τ := τ) xs' y' f' hxs' hy' :: ops') Q :=
  step (fun V₁ V₂ h => h.write rfl rfl hfy hfy' (by
    rw [nary_result, nary_result]
    exact heq_app_pi (fun k => congrArg (BufTy.Contents Val) (htx k)) (congrArg (BufTy.Contents Val) hty) hf
      (fun k => h.get (hin k)))) k

/-- `%y = ‹op› %x₀, %x₁, %x₂, %x₃` on both sides, the four operands a literal family: the two functions are compared at
    operands given one by one. -/
theorem nary4 {x0 x1 x2 x3 : Ref sig₁ .tc} {x0' x1' x2' x3' : Ref sig₂ .tc}
    {f : ((k : Fin 4) → ((![x0, x1, x2, x3] : Fin 4 → Ref sig₁ .tc) k).ty.Contents Val) → y.ty.Contents Val}
    {f' : ((k : Fin 4) → ((![x0', x1', x2', x3'] : Fin 4 → Ref sig₂ .tc) k).ty.Contents Val) → y'.ty.Contents Val} {hxs hy hxs' hy'}
    (hin0 : (x0, x0') ∈ P) (hin1 : (x1, x1') ∈ P) (hin2 : (x2, x2') ∈ P) (hin3 : (x3, x3') ∈ P)
    (hf : ∀ (u0 : x0.ty.Contents Val) (u0' : x0'.ty.Contents Val) (u1 : x1.ty.Contents Val) (u1' : x1'.ty.Contents Val)
        (u2 : x2.ty.Contents Val) (u2' : x2'.ty.Contents Val) (u3 : x3.ty.Contents Val) (u3' : x3'.ty.Contents Val),
        HEq u0 u0' → HEq u1 u1' → HEq u2 u2' → HEq u3 u3' →
        HEq (f (Fin.cons u0 (Fin.cons u1 (Fin.cons u2 (Fin.cons u3 (fun i => i.elim0))))))
          (f' (Fin.cons u0' (Fin.cons u1' (Fin.cons u2' (Fin.cons u3' (fun i => i.elim0)))))))
    (hfy : y ∉ P.map Prod.fst) (hfy' : y' ∉ P.map Prod.snd)
    (k : Sim ((y, y') :: P) ops ops' Q) :
    Sim P (StableHlo.nary (τ := τ) ![x0, x1, x2, x3] y f hxs hy :: ops) (StableHlo.nary (τ := τ) ![x0', x1', x2', x3'] y' f' hxs' hy' :: ops') Q :=
  step (fun V₁ V₂ h => h.write rfl rfl hfy hfy' (by
    rw [nary4_result, nary4_result]
    exact hf _ _ _ _ _ _ _ _ (h.get hin0) (h.get hin1) (h.get hin2) (h.get hin3))) k

/-- `%y = stablehlo.reshape %x` on both sides. -/
theorem reshape {he hn hx hy he' hn' hx' hy'}
    (hin : (x, x') ∈ P) (htx : x.ty = x'.ty) (hty : y.ty = y'.ty)
    (hfy : y ∉ P.map Prod.fst) (hfy' : y' ∉ P.map Prod.snd)
    (k : Sim ((y, y') :: P) ops ops' Q) :
    Sim P (StableHlo.reshape (τ := τ) (Val := Val) x y he hn hx hy :: ops) (StableHlo.reshape (τ := τ) (Val := Val) x' y' he' hn' hx' hy' :: ops') Q :=
  step (fun V₁ V₂ h => h.write rfl rfl hfy hfy' (by
    rw [reshape_result, reshape_result]
    exact heq_reshape htx hty he he' hn hn' (h.get hin))) k

end Builders

end Sim

end Idealize.ShloMosaic.StableHlo
-- ==== Proof.KI.Spine.lean ====
import proofs.«418369_j1537598292251_1_alg».proof.Proof.LibAgree
import proofs.«418369_j1537598292251_1_alg».proof.Proof.Gen.KernelIdeal.Launch
import proofs.«418369_j1537598292251_1_alg».proof.Proof.Gen.ReferenceIdeal.Run

/-!
# The host side of the comparison

The kernel program and the reference apply the same host operations around the two kernel regions. The two lists of
operations are stepped in lockstep, stretch by stretch, the buffers paired by position. The programs differ at two
places only, which enter as hypotheses: the group sums (a kernel region on one side, a host scatter on the other) and
the sum of the per-sample losses (a kernel region followed by a host sum on one side, thirty host operations on the
other). Everything before, between and after those two places is the same operation applied to paired operands.
-/

noncomputable section

namespace Cert.KernelIdeal.Hand

open Idealize.ShloMosaic Idealize.ShloMosaic.StableHlo

section General

variable {τ : Topo} {sig sig₁ sig₂ : RefSig} {Val : EltTy → Type}

/-- Two stretches run one after the other. -/
theorem afterAppend : ∀ (l₁ l₂ : List (HloOp τ sig Val)) (V : Valuation τ sig Val),
    after (l₁ ++ l₂) V = after l₂ (after l₁ V)
  | [], _, _ => rfl
  | op :: l₁, l₂, V => by rw [List.cons_append, after_cons, after_cons, afterAppend l₁ l₂]

/-- A line cut at `m`: its first `m` operations, then the others. -/
theorem afterCut (l : List (HloOp τ sig Val)) (m : ℕ) (V : Valuation τ sig Val) :
    after l V = after (l.drop m) (after (l.take m) V) := by
  rw [← afterAppend, List.take_append_drop]

/-- The first `m + n` operations of a line: its first `m`, then the next `n`. -/
theorem afterTakeAdd (l : List (HloOp τ sig Val)) (m n : ℕ) (V : Valuation τ sig Val) :
    after (l.take (m + n)) V = after ((l.drop m).take n) (after (l.take m) V) := by
  rw [← afterAppend, ← List.take_add]

/-- A buffer of the first side that no listed pair names may be overwritten. -/
theorem agreeUpdateL {P : List (Ref sig₁ .tc × Ref sig₂ .tc)} {V₁ : Valuation τ sig₁ Val} {V₂ : Valuation τ sig₂ Val}
    (h : Agree P V₁ V₂) {r : Ref sig₁ .tc} (hr : r ∉ P.map Prod.fst) (o : (Proc.devRef (τ := τ) .tc r).ty.Contents Val) :
    Agree P (Function.update V₁ (Proc.devRef .tc r) o) V₂ := fun p hp => by
  have hne : Proc.devRef (τ := τ) .tc p.1 ≠ Proc.devRef .tc r :=
    devRef_ne_of_ne fun e => hr (e ▸ List.mem_map_of_mem (f := Prod.fst) hp)
  rw [Function.update_of_ne hne]
  exact h p hp

end General

open Cert.KernelIdeal Cert.KernelIdeal.Gen

variable {F : FTy → Type} [FloatOps F]

/-- Pairs of buffers, one of the kernel program and one of the reference. -/
abbrev Pairs : Type := List (Ref sig .tc × Ref ReferenceIdeal.sig .tc)

/-! ## The valuations between the items -/

section Valuations

variable (VK : Valuation τ sig (Elt F))
  (o2 : (Proc.devRef (τ := τ) .tc main_v4).ty.Contents (Elt F))
  (o5 : (Proc.devRef (τ := τ) .tc main_v13).ty.Contents (Elt F))

/-- The kernel program's buffers after its first host stretch. -/
abbrev KV1 : Valuation τ sig (Elt F) := after hostOps0 VK
/-- After region 0, which leaves `o2` in the group sums' buffer. -/
abbrev KV2 : Valuation τ sig (Elt F) := Function.update (KV1 VK) (Proc.devRef .tc main_v4) o2
/-- After the counts and the centres. -/
abbrev KV3 : Valuation τ sig (Elt F) := after hostOps1 (KV2 VK o2)
/-- After the centres' norms. -/
abbrev KV4 : Valuation τ sig (Elt F) := after hostOps1_1 (KV3 VK o2)
/-- After region 1, which leaves `o5` in the per-sample losses' buffer. -/
abbrev KV5 : Valuation τ sig (Elt F) := Function.update (KV4 VK o2) (Proc.devRef .tc main_v13) o5
/-- After each of the ten host stretches that follow. -/
abbrev KV6 : Valuation τ sig (Elt F) := after hostOps2 (KV5 VK o2 o5)
abbrev KV7 : Valuation τ sig (Elt F) := after hostOps2_1 (KV6 VK o2 o5)
abbrev KV8 : Valuation τ sig (Elt F) := after hostOps2_2 (KV7 VK o2 o5)
abbrev KV9 : Valuation τ sig (Elt F) := after hostOps2_3 (KV8 VK o2 o5)
abbrev KV10 : Valuation τ sig (Elt F) := after hostOps2_4 (KV9 VK o2 o5)
abbrev KV11 : Valuation τ sig (Elt F) := after hostOps2_5 (KV10 VK o2 o5)
abbrev KV12 : Valuation τ sig (Elt F) := after hostOps2_6 (KV11 VK o2 o5)
abbrev KV13 : Valuation τ sig (Elt F) := after hostOps2_7 (KV12 VK o2 o5)
abbrev KV14 : Valuation τ sig (Elt F) := after hostOps2_8 (KV13 VK o2 o5)
abbrev KV15 : Valuation τ sig (Elt F) := after hostOps2_9 (KV14 VK o2 o5)

end Valuations

/-- The reference's buffers after its first `n` operations. -/
abbrev RV (n : ℕ) (VR : Valuation τ ReferenceIdeal.sig (Elt F)) : Valuation τ ReferenceIdeal.sig (Elt F) :=
  after (ReferenceIdeal.Value.ops.take n) VR

/-- A stretch of the kernel program against the reference's next `n` operations. -/
theorem chain {P Q : Pairs} {l : List (HloOp τ sig (Elt F))} {m n : ℕ}
    (h : Sim P l ((ReferenceIdeal.Value.ops.drop m).take n) Q)
    {V₁ : Valuation τ sig (Elt F)} {VR : Valuation τ ReferenceIdeal.sig (Elt F)} (hP : Agree P V₁ (RV m VR)) :
    Agree Q (after l V₁) (RV (m + n) VR) := by
  show Agree Q (after l V₁) (after (ReferenceIdeal.Value.ops.take (m + n)) VR)
  rw [afterTakeAdd]
  exact h _ _ hP

/-! ## One step of the lockstep, by the kind of the operation -/

/-- A constant on both sides. -/
local macro "both0" : tactic => `(tactic| refine Sim.nullary HEq.rfl (by decide) (by decide) ?_)
/-- The same operation of one operand on both sides, the operands paired. -/
local macro "both1" : tactic => `(tactic| refine Sim.unary (by decide) rfl rfl HEq.rfl (by decide) (by decide) ?_)
/-- The same operation of two operands on both sides. -/
local macro "both2" : tactic => `(tactic| refine Sim.binary (by decide) (by decide) rfl rfl rfl HEq.rfl (by decide) (by decide) ?_)
/-- The same operation of three operands on both sides. -/
local macro "both3" : tactic =>
  `(tactic| refine Sim.ternary (by decide) (by decide) (by decide) rfl rfl rfl rfl HEq.rfl (by decide) (by decide) ?_)
/-- A reshape on both sides. -/
local macro "bothR" : tactic => `(tactic| refine Sim.reshape (by decide) rfl rfl (by decide) (by decide) ?_)
/-- An operation of the kernel program alone. -/
local macro "left1" : tactic => `(tactic| refine Sim.skipL rfl (by decide) ?_)
/-- An operation of the reference alone. -/
local macro "right1" : tactic => `(tactic| refine Sim.skipR rfl (by decide) ?_)
/-- Both lines done. -/
local macro "finish" : tactic => `(tactic| exact Sim.done (by decide))

/-! ## Up to the group sums -/

/-- The arguments. -/
abbrev P0 : Pairs :=
  [(main_arg0, ReferenceIdeal.main_arg0), (main_arg1, ReferenceIdeal.main_arg1), (main_arg2, ReferenceIdeal.main_arg2)]
/-- The group ids. -/
abbrev PA : Pairs := [(main_v2, ReferenceIdeal.main_v2)]

/-- The group ids `labels * 2 + sessions` on both sides; the kernel program also reshapes them for its regions. -/
theorem simA : Sim (τ := τ) (Val := Elt F) P0 hostOps0 (ReferenceIdeal.Value.ops.take 4) PA := by
  both0; both1; both2; both2; left1; finish

/-- The kernel program's first stretch leaves the arguments as they are. -/
theorem simA0 : Sim (τ := τ) (Val := Elt F) P0 hostOps0 ([] : List (HloOp τ ReferenceIdeal.sig (Elt F))) P0 := by
  left1; left1; left1; left1; left1; finish

/-- The counts. -/
abbrev PB : Pairs := [(main_v8, ReferenceIdeal.main_v6)]

/-- The counts (a scatter of ones along the group ids) on both sides; then the reference's scatter of the features,
    which the kernel program does in region 0. -/
theorem simB : Sim (τ := τ) (Val := Elt F) PA (hostOps1.take 6) ((ReferenceIdeal.Value.ops.drop 4).take 10) PB := by
  both0; both1; both0; both1; both1; both3; right1; right1; right1; right1; finish

/-- The group sums' buffer alone. -/
abbrev PS : List (Ref sig .tc × Ref sig .tc) := [(main_v4, main_v4)]

/-- The counts' operations leave the group sums' buffer as region 0 left it. -/
theorem keepB : Sim (τ := τ) (Val := Elt F) PS (hostOps1.take 6) ([] : List (HloOp τ sig (Elt F))) PS := by
  left1; left1; left1; left1; left1; left1; finish

/-- The group sums and the counts. -/
abbrev PC : Pairs := (main_v4, ReferenceIdeal.main_v9) :: PB
/-- The centres. -/
abbrev PD : Pairs := [(main_v11, ReferenceIdeal.main_v12)]

/-- The centres: the group sums over the counts, on both sides. -/
theorem simC : Sim (τ := τ) (Val := Elt F) PC (hostOps1.drop 6) ((ReferenceIdeal.Value.ops.drop 14).take 3) PD := by
  both1; both1; both2; finish

/-! ## Up to the sum of the per-sample losses -/

/-- The centres' norms, which only the kernel program computes on the host. -/
theorem simD : Sim (τ := τ) (Val := Elt F) PD hostOps1_1 ([] : List (HloOp τ ReferenceIdeal.sig (Elt F))) PD := by
  left1; left1; left1; left1; left1; finish

/-- The reference's thirty operations for the per-sample losses and their sum, which the kernel program does in
    region 1 and one host sum. -/
theorem simE : Sim (τ := τ) (Val := Elt F) PD (hostOps2.take 2) ((ReferenceIdeal.Value.ops.drop 17).take 30) PD := by
  left1; left1
  right1; right1; right1; right1; right1; right1; right1; right1; right1; right1
  right1; right1; right1; right1; right1; right1; right1; right1; right1; right1
  right1; right1; right1; right1; right1; right1; right1; right1; right1; right1
  finish

/-- The losses' sum alone. -/
abbrev PT : List (Ref sig .tc × Ref sig .tc) := [(main_v14, main_v14)]

/-- The rest of that stretch leaves the losses' sum as it is. -/
theorem keepE : Sim (τ := τ) (Val := Elt F) PT (hostOps2.drop 2) ([] : List (HloOp τ sig (Elt F))) PT := by
  left1; left1; left1; left1; left1; left1; left1; left1; left1; finish

/-! ## From the mean loss to the end

From here on the two lines are the same operations on buffers paired by position: the mean of the losses, the four
centres as rows, their pairwise cosine terms (each norm a called function, its operations in the call's place), and
the weighted total. -/

/-- The losses' sum and the centres. -/
abbrev PF : Pairs := (main_v14, ReferenceIdeal.main_v30) :: PD

/-- The mean loss, the first two centres, their product summed. -/
abbrev Q1 : Pairs :=
  [(main_v15, ReferenceIdeal.main_v31), (main_v11, ReferenceIdeal.main_v12), (main_v17, ReferenceIdeal.main_v33),
   (main_v19, ReferenceIdeal.main_v35), (main_v21, ReferenceIdeal.main_v37)]

theorem simF1 : Sim (τ := τ) (Val := Elt F) PF (hostOps2.drop 2) ((ReferenceIdeal.Value.ops.drop 47).take 9) Q1 := by
  both0; both2; both1; bothR; both1; bothR; both2; both0; both2; finish

/-- The first centre's norm. -/
abbrev Q2 : Pairs :=
  [(main_v22, ReferenceIdeal.main_v38), (main_v15, ReferenceIdeal.main_v31), (main_v11, ReferenceIdeal.main_v12),
   (main_v19, ReferenceIdeal.main_v35), (main_v21, ReferenceIdeal.main_v37)]

theorem simF2 : Sim (τ := τ) (Val := Elt F) Q1 hostOps2_1 ((ReferenceIdeal.Value.ops.drop 56).take 4) Q2 := by
  both2; both0; both2; both1; finish

/-- The second centre's norm. -/
abbrev Q3 : Pairs :=
  [(main_v23, ReferenceIdeal.main_v39), (main_v22, ReferenceIdeal.main_v38), (main_v15, ReferenceIdeal.main_v31),
   (main_v11, ReferenceIdeal.main_v12), (main_v21, ReferenceIdeal.main_v37)]

theorem simF3 : Sim (τ := τ) (Val := Elt F) Q2 hostOps2_2 ((ReferenceIdeal.Value.ops.drop 60).take 4) Q3 := by
  both2; both0; both2; both1; finish

/-- The first cosine term; the last two centres, their product summed. -/
abbrev Q4 : Pairs :=
  [(main_v33, ReferenceIdeal.main_v49), (main_v31, ReferenceIdeal.main_v47), (main_v29, ReferenceIdeal.main_v45),
   (main_v27, ReferenceIdeal.main_v43), (main_v15, ReferenceIdeal.main_v31), (main_v11, ReferenceIdeal.main_v12)]

theorem simF4 : Sim (τ := τ) (Val := Elt F) Q3 hostOps2_3 ((ReferenceIdeal.Value.ops.drop 64).take 13) Q4 := by
  both2; both0; both2; both2; both0; both2; both1; bothR; both1; bothR; both2; both0; both2; finish

/-- The third centre's norm. -/
abbrev Q5 : Pairs :=
  [(main_v34, ReferenceIdeal.main_v50), (main_v33, ReferenceIdeal.main_v49), (main_v31, ReferenceIdeal.main_v47),
   (main_v27, ReferenceIdeal.main_v43), (main_v15, ReferenceIdeal.main_v31), (main_v11, ReferenceIdeal.main_v12)]

theorem simF5 : Sim (τ := τ) (Val := Elt F) Q4 hostOps2_4 ((ReferenceIdeal.Value.ops.drop 77).take 4) Q5 := by
  both2; both0; both2; both1; finish

/-- The fourth centre's norm. -/
abbrev Q6 : Pairs :=
  [(main_v35, ReferenceIdeal.main_v51), (main_v34, ReferenceIdeal.main_v50), (main_v33, ReferenceIdeal.main_v49),
   (main_v27, ReferenceIdeal.main_v43), (main_v15, ReferenceIdeal.main_v31), (main_v11, ReferenceIdeal.main_v12)]

theorem simF6 : Sim (τ := τ) (Val := Elt F) Q5 hostOps2_5 ((ReferenceIdeal.Value.ops.drop 81).take 4) Q6 := by
  both2; both0; both2; both1; finish

/-- The second cosine term and the mean of the two; the two pairs of centres broadcast against each other, their
    products summed. -/
abbrev Q7 : Pairs :=
  [(main_v49, ReferenceIdeal.main_v65), (main_v45, ReferenceIdeal.main_v61), (main_v44, ReferenceIdeal.main_v60),
   (main_v41, ReferenceIdeal.main_v57), (main_v15, ReferenceIdeal.main_v31)]

theorem simF7 : Sim (τ := τ) (Val := Elt F) Q6 hostOps2_6 ((ReferenceIdeal.Value.ops.drop 85).take 18) Q7 := by
  both2; both0; both2; both2; both0; both2; both2; both0; both2
  both1; both1; both1; both1; both1; both1; both2; both0; both2; finish

/-- The first pair's norms. -/
abbrev Q8 : Pairs :=
  [(main_v50, ReferenceIdeal.main_v66), (main_v49, ReferenceIdeal.main_v65), (main_v45, ReferenceIdeal.main_v61),
   (main_v41, ReferenceIdeal.main_v57), (main_v15, ReferenceIdeal.main_v31)]

theorem simF8 : Sim (τ := τ) (Val := Elt F) Q7 hostOps2_7 ((ReferenceIdeal.Value.ops.drop 103).take 4) Q8 := by
  both2; both0; both2; both1; finish

/-- The second pair's norms. -/
abbrev Q9 : Pairs :=
  [(main_v51, ReferenceIdeal.main_v67), (main_v50, ReferenceIdeal.main_v66), (main_v49, ReferenceIdeal.main_v65),
   (main_v41, ReferenceIdeal.main_v57), (main_v15, ReferenceIdeal.main_v31)]

theorem simF9 : Sim (τ := τ) (Val := Elt F) Q8 hostOps2_8 ((ReferenceIdeal.Value.ops.drop 107).take 4) Q9 := by
  both2; both0; both2; both1; finish

/-- The results: the weighted total, the mean loss, the two means of cosine terms. -/
abbrev Q10 : Pairs :=
  [(main_v64, ReferenceIdeal.main_v80), (main_v15, ReferenceIdeal.main_v31), (main_v41, ReferenceIdeal.main_v57),
   (main_v59, ReferenceIdeal.main_v75)]

theorem simF10 : Sim (τ := τ) (Val := Elt F) Q9 hostOps2_9 (ReferenceIdeal.Value.ops.drop 111) Q10 := by
  both1; both1; both2; both0; both1; both2; both2; both0; both2; both0; both2
  both0; both2; both0; both2; both2; both0; both2; both2; finish

/-! ## The two lines end to end -/

/-- From the same arguments the kernel program and the reference return the same four results, given the two places
    where they differ: region 0 leaves in its output the group sums the reference scatters (`hb1`), and the sum of what
    region 1 leaves is the sum of the reference's per-sample losses (`hb2`). Each may use what the lockstep has
    established by then: the same group ids, the same features, the same centres. -/
theorem spine (VK : Valuation τ sig (Elt F)) (VR : Valuation τ ReferenceIdeal.sig (Elt F))
    (o2 : (Proc.devRef (τ := τ) .tc main_v4).ty.Contents (Elt F))
    (o5 : (Proc.devRef (τ := τ) .tc main_v13).ty.Contents (Elt F))
    (hargs : Agree [(main_arg0, ReferenceIdeal.main_arg0), (main_arg1, ReferenceIdeal.main_arg1),
      (main_arg2, ReferenceIdeal.main_arg2)] VK VR)
    (hb1 : HEq (KV1 VK (Proc.devRef .tc main_v2)) (RV 4 VR (Proc.devRef .tc ReferenceIdeal.main_v2)) →
      HEq (KV1 VK (Proc.devRef .tc main_arg0)) (VR (Proc.devRef .tc ReferenceIdeal.main_arg0)) →
      HEq o2 (RV 14 VR (Proc.devRef .tc ReferenceIdeal.main_v9)))
    (hb2 : HEq (KV1 VK (Proc.devRef .tc main_v2)) (RV 4 VR (Proc.devRef .tc ReferenceIdeal.main_v2)) →
      HEq (KV1 VK (Proc.devRef .tc main_arg0)) (VR (Proc.devRef .tc ReferenceIdeal.main_arg0)) →
      HEq (KV4 VK o2 (Proc.devRef .tc main_v11)) (RV 17 VR (Proc.devRef .tc ReferenceIdeal.main_v12)) →
      HEq (KV6 VK o2 o5 (Proc.devRef .tc main_v14)) (RV 47 VR (Proc.devRef .tc ReferenceIdeal.main_v30))) :
    Agree [(main_v64, ReferenceIdeal.main_v80), (main_v15, ReferenceIdeal.main_v31),
      (main_v41, ReferenceIdeal.main_v57), (main_v59, ReferenceIdeal.main_v75)]
      (KV15 VK o2 o5) (after ReferenceIdeal.Value.ops VR) := by
  -- the group ids, and the features
  have a1 : Agree PA (KV1 VK) (RV 4 VR) := simA VK VR hargs
  have a0 : Agree P0 (KV1 VK) VR := simA0 VK VR hargs
  have e_ids := a1.get (a := main_v2) (a' := ReferenceIdeal.main_v2) (by decide)
  have e_feat := a0.get (a := main_arg0) (a' := ReferenceIdeal.main_arg0) (by decide)
  -- the counts; the group sums
  have b1 : Agree PB (after (hostOps1.take 6) (KV2 VK o2)) (RV 14 VR) :=
    chain (m := 4) (n := 10) simB (agreeUpdateL a1 (by decide) o2)
  have b2 : HEq (after (hostOps1.take 6) (KV2 VK o2) (Proc.devRef .tc main_v4)) o2 := by
    have h := keepB.get (V₁ := KV2 VK o2) (V₂ := KV2 VK o2) (Agree.cons HEq.rfl Agree.nil)
      (a := main_v4) (a' := main_v4) (by decide)
    refine h.trans (heq_of_eq ?_)
    exact Function.update_self (Proc.devRef (τ := τ) .tc main_v4) o2 (KV1 VK)
  have c0 : Agree PC (after (hostOps1.take 6) (KV2 VK o2)) (RV 14 VR) := Agree.cons (b2.trans (hb1 e_ids e_feat)) b1
  -- the centres, and their norms
  have c1 : Agree PD (KV3 VK o2) (RV 17 VR) := by
    have h := chain (m := 14) (n := 3) simC c0
    rw [← afterCut] at h
    exact h
  have d1 : Agree PD (KV4 VK o2) (RV 17 VR) := simD _ _ c1
  have e_ctr := d1.get (a := main_v11) (a' := ReferenceIdeal.main_v12) (by decide)
  -- the per-sample losses and their sum
  have e1 : Agree PD (after (hostOps2.take 2) (KV5 VK o2 o5)) (RV 47 VR) :=
    chain (m := 17) (n := 30) simE (agreeUpdateL d1 (by decide) o5)
  have e2 : HEq (KV6 VK o2 o5 (Proc.devRef .tc main_v14))
      (after (hostOps2.take 2) (KV5 VK o2 o5) (Proc.devRef .tc main_v14)) := by
    have h := keepE.get (V₁ := after (hostOps2.take 2) (KV5 VK o2 o5)) (V₂ := after (hostOps2.take 2) (KV5 VK o2 o5))
      (Agree.cons HEq.rfl Agree.nil) (a := main_v14) (a' := main_v14) (by decide)
    rw [← afterCut] at h
    exact h
  have f0 : Agree PF (after (hostOps2.take 2) (KV5 VK o2 o5)) (RV 47 VR) :=
    Agree.cons (e2.symm.trans (hb2 e_ids e_feat e_ctr)) e1
  -- the rest, stretch by stretch
  have f1 : Agree Q1 (KV6 VK o2 o5) (RV 56 VR) := by
    have h := chain (m := 47) (n := 9) simF1 f0
    rw [← afterCut] at h
    exact h
  have f2 : Agree Q2 (KV7 VK o2 o5) (RV 60 VR) := chain (m := 56) (n := 4) simF2 f1
  have f3 : Agree Q3 (KV8 VK o2 o5) (RV 64 VR) := chain (m := 60) (n := 4) simF3 f2
  have f4 : Agree Q4 (KV9 VK o2 o5) (RV 77 VR) := chain (m := 64) (n := 13) simF4 f3
  have f5 : Agree Q5 (KV10 VK o2 o5) (RV 81 VR) := chain (m := 77) (n := 4) simF5 f4
  have f6 : Agree Q6 (KV11 VK o2 o5) (RV 85 VR) := chain (m := 81) (n := 4) simF6 f5
  have f7 : Agree Q7 (KV12 VK o2 o5) (RV 103 VR) := chain (m := 85) (n := 18) simF7 f6
  have f8 : Agree Q8 (KV13 VK o2 o5) (RV 107 VR) := chain (m := 103) (n := 4) simF8 f7
  have f9 : Agree Q9 (KV14 VK o2 o5) (RV 111 VR) := chain (m := 107) (n := 4) simF9 f8
  have f10 : Agree Q10 (KV15 VK o2 o5) (after (ReferenceIdeal.Value.ops.drop 111) (RV 111 VR)) := simF10 _ _ f9
  rw [afterCut ReferenceIdeal.Value.ops 111 VR]
  exact f10

end Cert.KernelIdeal.Hand

end
-- ==== Proof.KI.PreRange.lean ====
import proofs.«418369_j1537598292251_1_alg».proof.Pre_finite_inputs
import proofs.«418369_j1537598292251_1_alg».proof.Proof.Gen.Pre_finite_inputs
import Idealize.ShloMosaic.Lib.ValueIdx
import Idealize.ShloMosaic.Lib.ReduceAll
import Idealize.ShloMosaic.Lib.StableHlo.Predicate

/-!
# The precondition, decoded: every sample's group id is one of 0, 1, 2, 3

The precondition is the conjunction of two statements about the inputs: every feature is finite, and for every sample
`i` the group word `g i = 2 * labels i + sessions i` (32-bit arithmetic) satisfies `0 ≤ g i` and `g i < 4`, both
read as signed numbers. A 32-bit word whose signed value lies in `[0, 4)` has that same value unsigned, so it is
the word of a number `k i < 4`.
-/

noncomputable section

namespace Cert.KernelIdeal.Hand

open Idealize.ShloMosaic

variable {F : FTy → Type} [FloatOps F]

/-- The shape of a scalar has exactly one index. -/
instance subsingleton_scalar_idx : Subsingleton Cert.Pre_finite_inputs.S_.Idx :=
  ⟨fun a b => funext fun d => d.elim0⟩

/-- A 32-bit word that is at least 0 and below 4 as a signed number is below 4 as an unsigned number: a signed value
    in `[0, 2³¹)` is the unsigned value. -/
theorem toNat_lt_four_of_signed (g : BitVec 32) (h0 : IntOp.cmpi .sge g 0#32 = 1#1)
    (h4 : IntOp.cmpi .slt g 4#32 = 1#1) : g.toNat < 4 := by
  rw [IntOp.cmpi_sge] at h0
  rw [IntOp.cmpi_slt] at h4
  have z : (0#32 : BitVec 32).toInt = 0 := by decide
  have f : (4#32 : BitVec 32).toInt = 4 := by decide
  rw [z] at h0
  rw [f] at h4
  have hg := BitVec.toInt_eq_toNat_cond g
  have hlt := g.isLt
  split at hg <;> omega

/-- THE PRECONDITION DECODED: when the printed precondition of the inputs is all ones, every sample's group word
    `2 * a i + b i` is the word of a number below 4. -/
theorem group_of_pre [Cert.Pre_finite_inputs.Facts] (x : FVec F Cert.Pre_finite_inputs.S16384x2048 .f32)
    (a b : IVec Cert.Pre_finite_inputs.S16384 32)
    (h : Cert.Pre_finite_inputs.fn (F := F) x a b = fun _ => 1#1) :
    ∃ k : Fin 16384 → Fin 4, ∀ i : Fin 16384,
      (addi (muli a (broadcastInDim Cert.Pre_finite_inputs.S16384 ![] Cert.Pre_finite_inputs.Facts.bcast_S_S16384
        (constantI Cert.Pre_finite_inputs.S_ 32 2#32))) b) (ValueIdx.ix1 i) = BitVec.ofNat 32 (k i).val := by
  -- the one entry of the scalar result
  have e := congrFun h ValueIdx.ix0
  dsimp only [Cert.Pre_finite_inputs.fn] at e
  -- the outer conjunction: (all features finite) and (all group words in range); keep the second
  obtain ⟨-, e2⟩ := IntOp.andi_eq_one.1 e
  -- a conjunction over all samples that is one is one at each sample
  have hall := Host.reduce_andi_all _ _ _ _ _ e2
  have hlt : ∀ i : Fin 16384,
      ((addi (muli a (broadcastInDim Cert.Pre_finite_inputs.S16384 ![] Cert.Pre_finite_inputs.Facts.bcast_S_S16384
        (constantI Cert.Pre_finite_inputs.S_ 32 2#32))) b) (ValueIdx.ix1 i)).toNat < 4 := fun i => by
    -- at sample i: (0 ≤ g i) and (g i < 4), each compared against a scalar broadcast, which reads the scalar
    obtain ⟨h0, h4⟩ := IntOp.andi_eq_one.1 (hall (ValueIdx.ix1 i))
    exact toNat_lt_four_of_signed _ h0 h4
  -- the number is the word's unsigned value; a word is the word of its own value
  refine ⟨fun i => ⟨_, hlt i⟩, fun i => BitVec.eq_of_toNat_eq ?_⟩
  rw [BitVec.toNat_ofNat]
  exact (Nat.mod_eq_of_lt (BitVec.isLt _)).symm

end Cert.KernelIdeal.Hand

end
-- ==== Proof.KI.Glue1.lean ====
import proofs.«418369_j1537598292251_1_alg».proof.KernelIdeal
import Idealize.ShloMosaic.Lib.ValueIdx
import Idealize.ShloMosaic.Lib.Pipeline.Value
import Idealize.ShloMosaic.Lib.ValueLayout
import Idealize.ShloMosaic.PureOps.Ideal.Laws

/-!
# Two host operations read at an index

The norm of a row of the centres, as the host computes it (square, sum along the row from zero, place the four sums
in a column, square root), read at row `j`; and a flat array of 16384 words recast as a column, read at row `i`.
-/

noncomputable section

open scoped BigOperators

namespace Cert.KernelIdeal.Hand

open Cert.KernelIdeal Idealize.ShloMosaic Idealize.ShloMosaic.ValueIdx

variable [Facts₀]

/-- Summing a 4×2048 array along its rows leaves a vector of 4. -/
theorem red_S4x2048_S4 : S4x2048.Reduces [1] S4 := by decide

/-- Row `j` with the column `d` put back is the entry `(j, d)`. -/
theorem lift_row (j : Fin 4) (d : Fin 2048) : red_S4x2048_S4.lift (ix1 j) d = ix2 j d := by
  funext a; apply Fin.ext
  match a with
  | ⟨0, _⟩ => rfl
  | ⟨1, _⟩ => rfl

/-- The norm of row `j` of the centres: the square root of the sum of the squares of the row's 2048 entries. -/
theorem cn_apply (ctr : Vec Ideal S4x2048 .f32) (j : Fin 4) :
    (Host.sqrt (F := Ideal) (broadcastInDim S4x1 ![0] Facts₀.bcast_S4_S4x1_0 (Host.reduceAdd (F := Ideal) (mulf ctr ctr) (constant (F := Ideal) S_ .f32 0x00000000#32) Facts₀.reducesTo_S4x2048_S4_d1 Facts₀.h_S_)) : Vec Ideal S4x1 .f32) (ix2 j 0)
      = Ideal.sqrt (∑ d : Fin 2048, ctr (ix2 j d) * ctr (ix2 j d)) := by
  show Ideal.sqrt (broadcastInDim S4x1 ![0] Facts₀.bcast_S4_S4x1_0 (Host.reduceAdd (F := Ideal) (mulf ctr ctr) (constant (F := Ideal) S_ .f32 0x00000000#32) Facts₀.reducesTo_S4x2048_S4_d1 Facts₀.h_S_) (ix2 j 0)) = _
  rw [broadcastInDim_apply (s := S4) (t := S4x1) ![0] Facts₀.bcast_S4_S4x1_0 _ (ix2 j 0) (ix1 j) (fun a => by
    match a with
    | ⟨0, _⟩ => rfl)]
  unfold Host.reduceAdd
  rw [Ideal.hostReduceAdd_def, Ideal.hostReduceAdd_single Facts₀.reducesTo_S4x2048_S4_d1 red_S4x2048_S4]
  congr 1
  rw [constant_apply, Ideal.ofBits_zero_f32, zero_add]
  refine Finset.sum_congr rfl fun d _ => ?_
  exact congrArg (fun i => ctr i * ctr i) (lift_row j d)

/-- A flat array recast as a column: row `i` of the column is entry `i` of the array, the two having the same
    position in row-major order. -/
theorem reshape_col_apply (g : IVec S16384 32) (i : Fin 16384) :
    shapeCast S16384x1 g Facts₀.shapeCasts_S16384_S16384x1 (ix2 i 0) = g (ix1 i) := by
  refine shapeCast_apply g Facts₀.shapeCasts_S16384_S16384x1 (ix2 i 0) (ix1 i) ?_
  rw [Shape.rowMajor_val_two, Shape.rowMajor_val_one]
  show i.val = i.val * 1 + 0
  omega

end Cert.KernelIdeal.Hand

end
-- ==== Proof.KI.RefAfter.lean ====
import proofs.«418369_j1537598292251_1_alg».proof.Proof.Gen.ReferenceIdeal.Run
import Idealize.ShloMosaic.Lib.StableHlo.Run
import Idealize.ShloMosaic.PureOps.Ideal

/-!
# The reference's results as the fold of its operations

The reference's run names each of its four results by the composed term of the arguments. Each is what the fold of
the reference's list of operations over the launch contents leaves in the result's buffer.
-/

noncomputable section

namespace Cert.KernelIdeal.Hand

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 52000000 in
theorem after_out0 (c : Dev nD) : after (ops (F := Ideal)) (launchContents m c) (Proc.devRef .tc main_v80) = res_main_v80 m c := by
  after_results_simp <;> rfl <;> (unfold res_main_v80; rfl)

set_option maxRecDepth 8192 in
set_option maxHeartbeats 52000000 in
theorem after_out1 (c : Dev nD) : after (ops (F := Ideal)) (launchContents m c) (Proc.devRef .tc main_v31) = res_main_v31 m c := by
  after_results_simp <;> rfl <;> (unfold res_main_v31; rfl)

set_option maxRecDepth 8192 in
set_option maxHeartbeats 52000000 in
theorem after_out2 (c : Dev nD) : after (ops (F := Ideal)) (launchContents m c) (Proc.devRef .tc main_v57) = res_main_v57 m c := by
  after_results_simp <;> rfl <;> (unfold res_main_v57; rfl)

set_option maxRecDepth 8192 in
set_option maxHeartbeats 52000000 in
theorem after_out3 (c : Dev nD) : after (ops (F := Ideal)) (launchContents m c) (Proc.devRef .tc main_v75) = res_main_v75 m c := by
  after_results_simp <;> rfl <;> (unfold res_main_v75; rfl)

end Cert.KernelIdeal.Hand

end
-- ==== Proof.KI.Bridge.lean ====
import proofs.«418369_j1537598292251_1_alg».proof.Defs
import proofs.«418369_j1537598292251_1_alg».proof.Proof.KI.Run
import proofs.«418369_j1537598292251_1_alg».proof.Proof.KI.BridgeCore
import proofs.«418369_j1537598292251_1_alg».proof.Proof.KI.Spine
import proofs.«418369_j1537598292251_1_alg».proof.Proof.KI.PreRange
import proofs.«418369_j1537598292251_1_alg».proof.Proof.KI.Glue1
import proofs.«418369_j1537598292251_1_alg».proof.Proof.KI.RefAfter
import proofs.«418369_j1537598292251_1_alg».proof.Proof.Gen.ReferenceIdeal.Run
import proofs.«418369_j1537598292251_1_alg».proof.Proof.Gen.Pre_finite_inputs
import Idealize.ShloMosaic.Lib.StableHlo.Run

/-!
# The two programs end with equal results

Both programs compute the group ids, the counts, the centres and the closing cosine terms by the same host
operations; they differ in how the group sums and the sum of the per-sample losses are obtained. Here the values the
kernel regions leave are put beside the reference's host operations at those two places, and the lockstep comparison
of everything else gives the four results equal.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-! ## The kernel program's contents before the regions -/

/-- The group ids as the first host stretch leaves them: twice the label plus the session. -/
theorem V1_g (c : Dev nD) : (Gen.V1 m c main_v2 : IVec S16384 32)
    = addi (muli (m ((c.tc : Thread nD τ).loc main_arg1)) (broadcastInDim S16384 ![] Facts₀.bcast_S_S16384 (constantI S_ 32 2#32))) (m ((c.tc : Thread nD τ).loc main_arg2)) := by
  dsimp only [Gen.V1, Gen.hostOps0]; after_results

/-- The column of group ids the regions read is the vector of group ids. -/
theorem V1_g2 (c : Dev nD) (i : Fin 16384) : (Gen.V1 m c main_v3 : IVec S16384x1 32) (ix2 i 0) = (Gen.V1 m c main_v2 : IVec S16384 32) (ix1 i) := by
  have e : (Gen.V1 m c main_v3 : IVec S16384x1 32) = shapeCast S16384x1 (Gen.V1 m c main_v2 : IVec S16384 32) Facts₀.shapeCasts_S16384_S16384x1 := by
    dsimp only [Gen.V1, Gen.hostOps0]; after_results; rfl
  rw [e]; exact reshape_col_apply _ i

/-- Under the precondition every group id is one of 0, 1, 2, 3. -/
theorem group_ids (hpre : Cert.Pre_KernelIdeal m) (c : Dev nD) :
    ∃ k : Fin 16384 → Fin 4, ∀ i : Fin 16384, (Gen.V1 m c main_v2 : IVec S16384 32) (ix1 i) = BitVec.ofNat 32 (k i).val := by
  obtain ⟨k, hk⟩ := group_of_pre (F := Ideal) _ _ _ (hpre c)
  exact ⟨k, fun i => by rw [V1_g]; exact hk i⟩

/-- The cosine region finds the features and the column of group ids as the summing region did. -/
theorem E4_arg0 (c : Dev nD) : E4 m c main_arg0 = Gen.V1 m c main_arg0 :=
  (Gen.V4_of m (outs1 m) c main_arg0 (by decide)).trans ((Gen.V3_of m (outs1 m) c main_arg0 (by decide)).trans (Gen.V2_of m (outs1 m) c main_arg0 (by decide)))
theorem E4_v3 (c : Dev nD) : E4 m c main_v3 = Gen.V1 m c main_v3 :=
  (Gen.V4_of m (outs1 m) c main_v3 (by decide)).trans ((Gen.V3_of m (outs1 m) c main_v3 (by decide)).trans (Gen.V2_of m (outs1 m) c main_v3 (by decide)))

/-- The centres' norms as the host computes them from the centres, row by row. -/
theorem after_norm (W : Valuation τ sig (Elt Ideal)) (ctrK : Vec Ideal S4x2048 .f32) (h : W main_v11 = ctrK) (j : Fin 4) :
    (after hostOps1_1 W main_v12 : Vec Ideal S4x1 .f32) (ix2 j 0) = Ideal.sqrt (∑ d : Fin 2048, ctrK (ix2 j d) * ctrK (ix2 j d)) := by
  have e : (after hostOps1_1 W main_v12 : Vec Ideal S4x1 .f32)
      = Host.sqrt (F := Ideal) (broadcastInDim S4x1 ![0] Facts₀.bcast_S4_S4x1_0 (Host.reduceAdd (F := Ideal) (mulf (W main_v11 : Vec Ideal S4x2048 .f32) (W main_v11)) (constant (F := Ideal) S_ .f32 0x00000000#32) Facts₀.reducesTo_S4x2048_S4_d1 Facts₀.h_S_)) := by
    dsimp only [Gen.hostOps1_1]; after_results; rfl
  rw [e, h]; exact cn_apply ctrK j

/-! ## The reference's values where the programs differ -/

/-- The first four operations of the reference leave the features alone. -/
theorem RV4_arg0 (VR : Valuation Cert.ReferenceIdeal.τ Cert.ReferenceIdeal.sig (Elt Ideal)) : RV 4 VR (Proc.devRef .tc Cert.ReferenceIdeal.main_arg0) = VR (Proc.devRef .tc Cert.ReferenceIdeal.main_arg0) := by
  show after [_, _, _, _] VR _ = _
  after_results

/-- Up to the centres the reference writes neither the group ids nor the features again. -/
theorem RV17_g (VR : Valuation Cert.ReferenceIdeal.τ Cert.ReferenceIdeal.sig (Elt Ideal)) : RV 17 VR (Proc.devRef .tc Cert.ReferenceIdeal.main_v2) = RV 4 VR (Proc.devRef .tc Cert.ReferenceIdeal.main_v2) := by
  rw [show RV 17 VR = after ((Cert.ReferenceIdeal.Value.ops.drop 4).take 13) (RV 4 VR) from afterTakeAdd _ 4 13 VR]
  generalize RV 4 VR = W
  show after [_, _, _, _, _, _, _, _, _, _, _, _, _] W _ = _
  after_results
theorem RV17_arg0 (VR : Valuation Cert.ReferenceIdeal.τ Cert.ReferenceIdeal.sig (Elt Ideal)) : RV 17 VR (Proc.devRef .tc Cert.ReferenceIdeal.main_arg0) = VR (Proc.devRef .tc Cert.ReferenceIdeal.main_arg0) := by
  rw [show RV 17 VR = after ((Cert.ReferenceIdeal.Value.ops.drop 4).take 13) (RV 4 VR) from afterTakeAdd _ 4 13 VR, ← RV4_arg0 VR]
  generalize RV 4 VR = W
  show after [_, _, _, _, _, _, _, _, _, _, _, _, _] W _ = _
  after_results

/-- The reference's group sums as its operations compose them from the group ids and the features. -/
theorem RV14_sums (VR : Valuation Cert.ReferenceIdeal.τ Cert.ReferenceIdeal.sig (Elt Ideal)) :
    (RV 14 VR (Proc.devRef .tc Cert.ReferenceIdeal.main_v9) : Vec Ideal Cert.ReferenceIdeal.S4x2048 .f32)
    = Host.scatterAdd (F := Ideal) Cert.ReferenceIdeal.scatter_S4x2048_S16384x1_S16384x2048_1_0_0_1
        (broadcastInDim Cert.ReferenceIdeal.S4x2048 ![] Cert.ReferenceIdeal.Facts₀.bcast_S_S4x2048 (constant (F := Ideal) Cert.ReferenceIdeal.S_ .f32 0x00000000#32))
        (broadcastInDim Cert.ReferenceIdeal.S16384x1 ![0] Cert.ReferenceIdeal.Facts₀.bcast_S16384_S16384x1_0 (RV 4 VR (Proc.devRef .tc Cert.ReferenceIdeal.main_v2)))
        (RV 4 VR (Proc.devRef .tc Cert.ReferenceIdeal.main_arg0)) := by
  rw [show RV 14 VR = after ((Cert.ReferenceIdeal.Value.ops.drop 4).take 10) (RV 4 VR) from afterTakeAdd _ 4 10 VR]
  generalize RV 4 VR = W
  show after [_, _, _, _, _, _, _, _, _, _] W _ = _
  after_results

set_option maxHeartbeats 8000000 in
/-- The reference's sum of the per-sample losses, out of the features, the group ids and the centres. -/
theorem RV47_loss (VR : Valuation Cert.ReferenceIdeal.τ Cert.ReferenceIdeal.sig (Elt Ideal)) :
    (RV 47 VR (Proc.devRef .tc Cert.ReferenceIdeal.main_v30) : Vec Ideal Cert.ReferenceIdeal.S_ .f32)
    = Host.reduceAdd (F := Ideal) (refLoss (RV 17 VR (Proc.devRef .tc Cert.ReferenceIdeal.main_arg0)) (RV 17 VR (Proc.devRef .tc Cert.ReferenceIdeal.main_v2)) (RV 17 VR (Proc.devRef .tc Cert.ReferenceIdeal.main_v12)))
        (constant (F := Ideal) Cert.ReferenceIdeal.S_ .f32 0x00000000#32) Cert.ReferenceIdeal.Facts₀.reducesTo_S16384_S_d0 Cert.ReferenceIdeal.Facts₀.h_S_ := by
  rw [show RV 47 VR = after ((Cert.ReferenceIdeal.Value.ops.drop 17).take 30) (RV 17 VR) from afterTakeAdd _ 17 30 VR]
  generalize RV 17 VR = W
  show after [_, _, _, _, _, _, _, _, _, _, _, _, _, _, _, _, _, _, _, _, _, _, _, _, _, _, _, _, _, _] W _ = _
  after_results
  unfold refLoss
  rfl

/-- The kernel program's sum of the losses' array. -/
theorem after_lossSum (W : Valuation τ sig (Elt Ideal)) : (after hostOps2 W main_v14 : Vec Ideal S_ .f32)
    = Host.reduceAdd (F := Ideal) (W main_v13 : Vec Ideal S16384x1 .f32) (constant (F := Ideal) S_ .f32 0x00000000#32) Facts₀.reducesTo_S16384x1_S_d0_1 Facts₀.h_S_ := by
  dsimp only [Gen.hostOps2]; after_results

/-! ## The two bridges -/

/-- The summing region's result is the reference's host scatter. -/
theorem bridge1 (c : Dev nD) (VR : Valuation Cert.ReferenceIdeal.τ Cert.ReferenceIdeal.sig (Elt Ideal)) (k : Fin 16384 → Fin 4)
    (hkV : ∀ i : Fin 16384, (Gen.V1 m c main_v2 : IVec S16384 32) (ix1 i) = BitVec.ofNat 32 (k i).val)
    (hg : HEq (KV1 (Gen.V0 m c) (Proc.devRef .tc main_v2)) (RV 4 VR (Proc.devRef .tc Cert.ReferenceIdeal.main_v2)))
    (hx : HEq (KV1 (Gen.V0 m c) (Proc.devRef .tc main_arg0)) (VR (Proc.devRef .tc Cert.ReferenceIdeal.main_arg0))) :
    HEq (outs m 2 main_v4 c) (RV 14 VR (Proc.devRef .tc Cert.ReferenceIdeal.main_v9)) := by
  have hg' : (Gen.V1 m c main_v2 : IVec S16384 32) = RV 4 VR (Proc.devRef .tc Cert.ReferenceIdeal.main_v2) := eq_of_heq hg
  have hx' : (Gen.V1 m c main_arg0 : Vec Ideal S16384x2048 .f32) = RV 4 VR (Proc.devRef .tc Cert.ReferenceIdeal.main_arg0) := (eq_of_heq hx).trans (RV4_arg0 VR).symm
  rw [outs_2, RV14_sums]
  refine heq_of_eq ?_
  show (dat0 (E1 m) c).arrAt 2 cfg0.N = _
  rw [sums_final]
  exact sums_core (E1 m) c _ _ k (fun i => by rw [← hg']; exact hkV i) (fun i => (V1_g2 m c i).trans (hkV i)) hx'

/-- The sum of the cosine region's losses is the reference's sum of its per-sample losses. -/
theorem bridge2 (c : Dev nD) (VR : Valuation Cert.ReferenceIdeal.τ Cert.ReferenceIdeal.sig (Elt Ideal)) (k : Fin 16384 → Fin 4)
    (hkV : ∀ i : Fin 16384, (Gen.V1 m c main_v2 : IVec S16384 32) (ix1 i) = BitVec.ofNat 32 (k i).val)
    (hg : HEq (KV1 (Gen.V0 m c) (Proc.devRef .tc main_v2)) (RV 4 VR (Proc.devRef .tc Cert.ReferenceIdeal.main_v2)))
    (hx : HEq (KV1 (Gen.V0 m c) (Proc.devRef .tc main_arg0)) (VR (Proc.devRef .tc Cert.ReferenceIdeal.main_arg0)))
    (hctr : HEq (KV4 (Gen.V0 m c) (outs m 2 main_v4 c) (Proc.devRef .tc main_v11)) (RV 17 VR (Proc.devRef .tc Cert.ReferenceIdeal.main_v12))) :
    HEq (KV6 (Gen.V0 m c) (outs m 2 main_v4 c) (outs m 5 main_v13 c) (Proc.devRef .tc main_v14)) (RV 47 VR (Proc.devRef .tc Cert.ReferenceIdeal.main_v30)) := by
  have hg' : (Gen.V1 m c main_v2 : IVec S16384 32) = RV 4 VR (Proc.devRef .tc Cert.ReferenceIdeal.main_v2) := eq_of_heq hg
  have hx' : (Gen.V1 m c main_arg0 : Vec Ideal S16384x2048 .f32) = VR (Proc.devRef .tc Cert.ReferenceIdeal.main_arg0) := eq_of_heq hx
  have hctr' : (E4 m c main_v11 : Vec Ideal S4x2048 .f32) = RV 17 VR (Proc.devRef .tc Cert.ReferenceIdeal.main_v12) := eq_of_heq hctr
  have e5 : (KV5 (Gen.V0 m c) (outs m 2 main_v4 c) (outs m 5 main_v13 c) (Proc.devRef .tc main_v13) : Vec Ideal S16384x1 .f32)
      = lossFull (E4 m c main_arg0) (E4 m c main_v3) (E4 m c main_v11) (E4 m c main_v12) := by
    refine (Function.update_self _ _ _).trans ((outs_5 m c).trans ?_)
    exact arrAt1_4 (E4 m) c _ (lossBlk_eq (E4 m) c)
  rw [RV47_loss]
  refine heq_of_eq ?_
  show (after hostOps2 (KV5 (Gen.V0 m c) (outs m 2 main_v4 c) (outs m 5 main_v13 c)) main_v14 : Vec Ideal S_ .f32) = _
  rw [after_lossSum, e5]
  refine loss_core (E4 m c main_arg0) (E4 m c main_v3) (E4 m c main_v11) (E4 m c main_v12) _ _ _ k ?_ ?_ ?_ hctr' ?_
  · intro i; rw [RV17_g, ← hg']; exact hkV i
  · intro i; rw [E4_v3]; exact (V1_g2 m c i).trans (hkV i)
  · rw [E4_arg0, RV17_arg0]; exact hx'
  · intro j
    exact after_norm (Gen.V3 m (outs1 m) c) (E4 m c main_v11) (Gen.V4_of m (outs1 m) c main_v11 (by decide)).symm j

/-! ## The four results -/

/-- After the two runs the four results are equal, pair by pair. -/
theorem results_agree (hpre : Cert.Pre_KernelIdeal m) (m' : (ℓ : Loc Cert.ReferenceIdeal.nD Cert.ReferenceIdeal.τ Cert.ReferenceIdeal.sig) → Buf (Elt Ideal) ℓ)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)) (c : Dev nD) :
    Agree [(main_v64, Cert.ReferenceIdeal.main_v80), (main_v15, Cert.ReferenceIdeal.main_v31), (main_v41, Cert.ReferenceIdeal.main_v57), (main_v59, Cert.ReferenceIdeal.main_v75)]
      (Gen.V15 m (outs m) c) (after Cert.ReferenceIdeal.Value.ops (launchContents m' c)) := by
  obtain ⟨k, hk⟩ := group_ids m hpre c
  have hargs : Agree [(main_arg0, Cert.ReferenceIdeal.main_arg0), (main_arg1, Cert.ReferenceIdeal.main_arg1), (main_arg2, Cert.ReferenceIdeal.main_arg2)] (Gen.V0 m c) (launchContents m' c) :=
    Agree.cons (heq_of_eq (hagree c).1.symm) (Agree.cons (heq_of_eq (hagree c).2.1.symm) (Agree.cons (heq_of_eq (hagree c).2.2.symm) Agree.nil))
  exact spine (Gen.V0 m c) (launchContents m' c) (outs m 2 main_v4 c) (outs m 5 main_v13 c) hargs
    (bridge1 m c _ k hk) (bridge2 m c _ k hk)

/-- The algebraic claim: from memories agreeing on the arguments both programs run and end with equal results. -/
theorem algebraic : Cert.algebraic_KernelIdeal_ReferenceIdeal := by
  intro m ρ m' ρ' hpre hagree
  refine ⟨fun c => Gen.V15 m (outs m) c main_v64, fun c => Gen.V15 m (outs m) c main_v15,
    fun c => Gen.V15 m (outs m) c main_v41, fun c => Gen.V15 m (outs m) c main_v59, ?_, ?_⟩
  · exact (θ_run defs _ _).mono (fun r h c =>
      ⟨h c _ (mem_uc main_v64 (by decide)), h c _ (mem_uc main_v15 (by decide)), h c _ (mem_uc main_v41 (by decide)),
       h c _ (mem_uc main_v59 (by decide)),
       (h c _ (mem_uc main_arg0 (by decide))).trans (Gen.V15_main_arg0 m (outs m) c),
       (h c _ (mem_uc main_arg1 (by decide))).trans (Gen.V15_main_arg1 m (outs m) c),
       (h c _ (mem_uc main_arg2 (by decide))).trans (Gen.V15_main_arg2 m (outs m) c)⟩) (run_all m ρ)
  · refine (θ_run Cert.ReferenceIdeal.defs _ _).mono (fun r h c => ?_) (Cert.ReferenceIdeal.Value.run (F := Ideal) m' ρ')
    have ha := results_agree m hpre m' hagree c
    exact ⟨(h c).1.trans ((after_out0 m' c).symm.trans (eq_of_heq (ha.get (.head _))).symm),
      (h c).2.1.trans ((after_out1 m' c).symm.trans (eq_of_heq (ha.get (.tail _ (.head _)))).symm),
      (h c).2.2.1.trans ((after_out2 m' c).symm.trans (eq_of_heq (ha.get (.tail _ (.tail _ (.head _))))).symm),
      (h c).2.2.2.1.trans ((after_out3 m' c).symm.trans (eq_of_heq (ha.get (.tail _ (.tail _ (.tail _ (.head _)))))).symm),
      (h c).2.2.2.2⟩

end Cert.KernelIdeal.Hand

end
-- ==== Proof.lean ====
/-
  Two programs compute four losses from a 16384×2048 array of features and two vectors of integer labels and sessions,
  and the claim is that they end with equal results over the extended reals whenever every group id
  g = 2·label + session is one of 0, 1, 2, 3 (the index of one of the four centres) and the features are finite.

  The kernel program sums the features of each group in a first grid of sixteen points: at each point the transposed
  one-hot matrix of 1024 group ids is multiplied with the 1024 rows of features and added to a running 4×2048 total,
  which is zeroed before the first point and written out after the last. The reference obtains the same sums by a host
  scatter of the rows to their groups: both are, entry by entry, the sum of the rows of the group, because a one-hot
  entry is exactly 0 or 1, 0·x = 0 and 1·x = x for every extended real, and sums may be regrouped freely.
  The counts, the centres (sums over counts) and the centres' norms are computed by the same host operations on both
  sides. In a second grid the kernel computes for each row one minus the cosine with its own centre: the inner products
  with all four centres and the four norms are weighted by the row's one-hot vector, which keeps the row's own group
  and multiplies everything else by zero; the reference gathers the row's centre instead. With the group id in range
  the gather's index is neither wrapped nor clamped, so both are the same expression in the row and its centre, and
  the two host sums of these 16384 numbers agree. Everything after that is the same host arithmetic on both sides.

  The three frames: each program runs to the end without a fault and leaves its arguments as launched. For the kernel
  program this is the run of its host stretches and its two regions in order, the unscoped buffers held at known
  contents between the items; for the reference it is the run of its list of host operations.
-/
import proofs.«418369_j1537598292251_1_alg».proof.Defs
import proofs.«418369_j1537598292251_1_alg».proof.Proof.Gen.Kernel
import proofs.«418369_j1537598292251_1_alg».proof.Proof.Gen.KernelIdeal
import proofs.«418369_j1537598292251_1_alg».proof.Proof.Gen.ReferenceIdeal
import proofs.«418369_j1537598292251_1_alg».proof.Proof.Gen.ReferenceIdeal.Run
import proofs.«418369_j1537598292251_1_alg».proof.Proof.Gen.Pre_finite_inputs
import proofs.«418369_j1537598292251_1_alg».proof.Proof.K.Run
import proofs.«418369_j1537598292251_1_alg».proof.Proof.KI.Run
import proofs.«418369_j1537598292251_1_alg».proof.Proof.KI.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Hand.frame (F := Bits) m ρ

/-- The idealized kernel program runs and leaves its arguments unchanged. -/
theorem frame_kernelIdeal : Cert.frame_KernelIdeal := fun m ρ _ => Cert.KernelIdeal.Hand.frame (F := Ideal) m ρ

/-- The reference runs and leaves its arguments unchanged: its run with the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.KernelIdeal.Hand.algebraic⟩

end Cert.Proof

end
